-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x256 : Shape := ⟨2, ![256, 256]⟩
abbrev S256 : Shape := ⟨1, ![256]⟩
abbrev S2x262144 : Shape := ⟨2, ![2, 262144]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg3 : IVec S2x262144 32) (main_v13 : IVec S_ 1) (main_v15 : IVec S2x262144 1) (main_c_5 : IVec S_ 1) : IVec S_ 1 :=
  let main_v16 : IVec S_ 1 := (fun x v => Host.reduce IntOp.andi x v reducesTo_S2x262144_S_d0_1 h_S_) main_v15 main_c_5
  let main_v17 : IVec S_ 1 := andi main_v13 main_v16
  let main_c_6 : IVec S_ 32 := constantI S_ 32 16384#32
  let main_v18 : IVec S2x262144 32 := broadcastInDim S2x262144 ![] bcast_S_S2x262144 main_c_6
  let main_v19 : IVec S2x262144 1 := cmpi .slt main_arg3 main_v18
  let main_c_7 : IVec S_ 1 := constantI S_ 1 1#1
  let main_v20 : IVec S_ 1 := (fun x v => Host.reduce IntOp.andi x v reducesTo_S2x262144_S_d0_1 h_S_) main_v19 main_c_7
  let main_v21 : IVec S_ 1 := andi main_v17 main_v20
  main_v21

def fn {F : FTy → Type} [FloatOps F] (main_arg0 : FVec F S16384x256 .f32) (main_arg1 : FVec F S256x256 .f32) (main_arg2 : FVec F S256 .f32) (main_arg3 : IVec S2x262144 32) (main_arg4 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg3 main_v14
  let main_c_5 : IVec S_ 1 := constantI S_ 1 1#1
  fn_part1 (F := F) main_arg3 main_v13 main_v15 main_c_5
-- ==== Kernel.lean ====
abbrev S16384x256 : Shape := ⟨2, ![16384, 256]⟩
abbrev S256x256 : Shape := ⟨2, ![256, 256]⟩
abbrev S256 : Shape := ⟨1, ![256]⟩
abbrev S2x262144 : Shape := ⟨2, ![2, 262144]⟩
abbrev S16384 : Shape := ⟨1, ![16384]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S278528 : Shape := ⟨1, ![278528]⟩
abbrev S278528x1 : Shape := ⟨2, ![278528, 1]⟩
abbrev S16384x16384 : Shape := ⟨2, ![16384, 16384]⟩
abbrev S278528x2 : Shape := ⟨2, ![278528, 2]⟩
abbrev S2048x256 : Shape := ⟨2, ![2048, 256]⟩
abbrev S1x256 : Shape := ⟨2, ![1, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 94
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256, .f32⟩
  | .hbm, ⟨3, _⟩ => ⟨S2x262144, .i32⟩
  | .hbm, ⟨4, _⟩ => ⟨S16384, .i32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144, .i32⟩
  | .hbm, ⟨27, _⟩ => ⟨S262144, .i1⟩
  | .hbm, ⟨28, _⟩ => ⟨S262144, .f32⟩
  | .hbm, ⟨29, _⟩ => ⟨S16384, .i32⟩
  | .hbm, ⟨30, _⟩ => ⟨S278528, .i32⟩
  | .hbm, ⟨31, _⟩ => ⟨S278528, .i32⟩
  | .hbm, ⟨32, _⟩ => ⟨S_, .f32⟩
  | .hbm, ⟨33, _⟩ => ⟨S16384, .f32⟩
  | .hbm, ⟨34, _⟩ => ⟨S278528, .f32⟩
  | .hbm, ⟨35, _⟩ => ⟨S_, .f32⟩
  | .hbm, ⟨36, _⟩ => ⟨S16384, .f32⟩
  | .hbm, ⟨37, _⟩ => ⟨S278528x1, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .i1⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .i32⟩
  | .hbm, ⟨51, _⟩ => ⟨S278528, .i32⟩
  | .hbm, ⟨52, _⟩ => ⟨S278528, .i1⟩
  | .hbm, ⟨53, _⟩ => ⟨S_, .i32⟩
  | .hbm, ⟨54, _⟩ => ⟨S278528, .i32⟩
  | .hbm, ⟨55, _⟩ => ⟨S278528, .i32⟩
  | .hbm, ⟨56, _⟩ => ⟨S278528, .i32⟩
  | .hbm, ⟨57, _⟩ => ⟨S278528x1, .i32⟩
  | .hbm, ⟨58, _⟩ => ⟨S278528, .f32⟩
  | .hbm, ⟨59, _⟩ => ⟨S278528, .f32⟩
  | .hbm, ⟨60, _⟩ => ⟨S_, .i32⟩
  | .hbm, ⟨61, _⟩ => ⟨S278528, .i32⟩
  | .hbm, ⟨62, _⟩ => ⟨S278528, .i1⟩
  | .hbm, ⟨63, _⟩ => ⟨S_, .i32⟩
  | .hbm, ⟨64, _⟩ => ⟨S278528, .i32⟩
  | .hbm, ⟨65, _⟩ => ⟨S278528, .i32⟩
  | .hbm, ⟨66, _⟩ => ⟨S278528, .i32⟩
  | .hbm, ⟨67, _⟩ => ⟨S278528x1, .i32⟩
  | .hbm, ⟨68, _⟩ => ⟨S278528, .f32⟩
  | .hbm, ⟨69, _⟩ => ⟨S278528, .f32⟩
  | .hbm, ⟨70, _⟩ => ⟨S_, .f32⟩
  | .hbm, ⟨71, _⟩ => ⟨S16384x16384, .f32⟩
  | .hbm, ⟨72, _⟩ => ⟨S_, .i32⟩
  | .hbm, ⟨73, _⟩ => ⟨S278528, .i32⟩
  | .hbm, ⟨74, _⟩ => ⟨S278528, .i1⟩
  | .hbm, ⟨75, _⟩ => ⟨S_, .i32⟩
  | .hbm, ⟨76, _⟩ => ⟨S278528, .i32⟩
  | .hbm, ⟨77, _⟩ => ⟨S278528, .i32⟩
  | .hbm, ⟨78, _⟩ => ⟨S278528, .i32⟩
  | .hbm, ⟨79, _⟩ => ⟨S_, .i32⟩
  | .hbm, ⟨80, _⟩ => ⟨S278528, .i32⟩
  | .hbm, ⟨81, _⟩ => ⟨S278528, .i1⟩
  | .hbm, ⟨82, _⟩ => ⟨S_, .i32⟩
  | .hbm, ⟨83, _⟩ => ⟨S278528, .i32⟩
  | .hbm, ⟨84, _⟩ => ⟨S278528, .i32⟩
  | .hbm, ⟨85, _⟩ => ⟨S278528, .i32⟩
  | .hbm, ⟨86, _⟩ => ⟨S278528x1, .i32⟩
  | .hbm, ⟨87, _⟩ => ⟨S278528x1, .i32⟩
  | .hbm, ⟨88, _⟩ => ⟨S278528x2, .i32⟩
  | .hbm, ⟨89, _⟩ => ⟨S16384x16384, .f32⟩
  | .hbm, ⟨90, _⟩ => ⟨S16384x16384, .bf16⟩
  | .hbm, ⟨91, _⟩ => ⟨S16384x256, .bf16⟩
  | .hbm, ⟨92, _⟩ => ⟨S1x256, .f32⟩
  | .hbm, ⟨93, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S1024x4096, .bf16⟩
  | .local _ .vmem, ⟨6, _⟩ => ⟨S1024x4096, .bf16⟩
  | .local _ .vmem, ⟨7, _⟩ => ⟨S4096x256, .bf16⟩
  | .local _ .vmem, ⟨8, _⟩ => ⟨S4096x256, .bf16⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144_S16384_S278528_d0 : Shape.Concatenates [S262144, S16384] S278528 0
  bcast_S_S16384 : S_.BroadcastsInDim S16384 (![] : Fin 0 → Fin S16384.rank)
  bcast_S278528_S278528x1_0 : S278528.BroadcastsInDim S278528x1 (![0] : Fin 1 → Fin S278528x1.rank)
  bcast_S_S278528 : S_.BroadcastsInDim S278528 (![] : Fin 0 → Fin S278528.rank)
  bcast_S_S16384x16384 : S_.BroadcastsInDim S16384x16384 (![] : Fin 0 → Fin S16384x16384.rank)
  concatenates_S278528x1_S278528x1_S278528x2_d1 : Shape.Concatenates [S278528x1, S278528x1] S278528x2 1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  gather_S16384_S262144x1_S262144_n_0_n_n_0_1_1_wf : GatherDims.WF S16384 S262144x1 S262144 [] [0] [] [0] [] 1 ![1]
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  scatter_S16384x16384_S278528x2_S278528_n_01_01_1_wf : ScatterDims.WF S16384x16384 S278528x2 S278528 [] [0, 1] [0, 1] 1
  dot_S2048x256_S256x256_S2048x256_1_0_0_1_n_n_wf : DotDims.WF S2048x256 S256x256 S2048x256 [1] [0] [0] [1] [] []
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .bf16 = 32 ∨ (Rect.block (s := S16384x16384) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S16384x256.size a
  hwx1_1 : ∀ i : grid1.Coords, EltTy.bits .bf16 = 32 ∨ (Rect.block (s := S16384x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S16384x256.size a
  hwx1_3 : ∀ i : grid1.Coords, EltTy.bits .f32 = 32 ∨ (Rect.block (s := S16384x256) S1024x256.size (cc1_transform_3 i) (hinb1_3 i)).WholeWords (EltTy.packing .f32)

variable [Facts₀]

def gather_S16384_S262144x1_S262144_n_0_n_n_0_1_1 : GatherDims S16384 S262144x1 S262144 where
  offsetDims := []
  collapsedSliceDims := [0]
  operandBatchingDims := []
  startIndicesBatchingDims := []
  startIndexMap := [0]
  indexVectorDim := 1
  sliceSizes := ![1]
  wf := gather_S16384_S262144x1_S262144_n_0_n_n_0_1_1_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def scatter_S16384x16384_S278528x2_S278528_n_01_01_1 : ScatterDims S16384x16384 S278528x2 S278528 where
  updateWindowDims := []
  insertedWindowDims := [0, 1]
  scatterDimsToOperandDims := [0, 1]
  indexVectorDim := 1
  wf := scatter_S16384x16384_S278528x2_S278528_n_01_01_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v65) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x256 : Shape := ⟨2, ![16384, 256]⟩
abbrev S256x256 : Shape := ⟨2, ![256, 256]⟩
abbrev S256 : Shape := ⟨1, ![256]⟩
abbrev S2x262144 : Shape := ⟨2, ![2, 262144]⟩
abbrev S16384 : Shape := ⟨1, ![16384]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S278528 : Shape := ⟨1, ![278528]⟩
abbrev S278528x1 : Shape := ⟨2, ![278528, 1]⟩
abbrev S278528x256 : Shape := ⟨2, ![278528, 256]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256, .f32⟩
  | .hbm, ⟨3, _⟩ => ⟨S2x262144, .i32⟩
  | .hbm, ⟨4, _⟩ => ⟨S16384, .i32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144, .i32⟩
  | .hbm, ⟨27, _⟩ => ⟨S262144, .i1⟩
  | .hbm, ⟨28, _⟩ => ⟨S262144, .f32⟩
  | .hbm, ⟨29, _⟩ => ⟨S16384, .i32⟩
  | .hbm, ⟨30, _⟩ => ⟨S278528, .i32⟩
  | .hbm, ⟨31, _⟩ => ⟨S278528, .i32⟩
  | .hbm, ⟨32, _⟩ => ⟨S_, .f32⟩
  | .hbm, ⟨33, _⟩ => ⟨S16384, .f32⟩
  | .hbm, ⟨34, _⟩ => ⟨S278528, .f32⟩
  | .hbm, ⟨35, _⟩ => ⟨S_, .f32⟩
  | .hbm, ⟨36, _⟩ => ⟨S16384, .f32⟩
  | .hbm, ⟨37, _⟩ => ⟨S278528x1, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .i1⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .i32⟩
  | .hbm, ⟨51, _⟩ => ⟨S278528, .i32⟩
  | .hbm, ⟨52, _⟩ => ⟨S278528, .i1⟩
  | .hbm, ⟨53, _⟩ => ⟨S_, .i32⟩
  | .hbm, ⟨54, _⟩ => ⟨S278528, .i32⟩
  | .hbm, ⟨55, _⟩ => ⟨S278528, .i32⟩
  | .hbm, ⟨56, _⟩ => ⟨S278528, .i32⟩
  | .hbm, ⟨57, _⟩ => ⟨S278528x1, .i32⟩
  | .hbm, ⟨58, _⟩ => ⟨S278528, .f32⟩
  | .hbm, ⟨59, _⟩ => ⟨S278528, .f32⟩
  | .hbm, ⟨60, _⟩ => ⟨S_, .i32⟩
  | .hbm, ⟨61, _⟩ => ⟨S278528, .i32⟩
  | .hbm, ⟨62, _⟩ => ⟨S278528, .i1⟩
  | .hbm, ⟨63, _⟩ => ⟨S_, .i32⟩
  | .hbm, ⟨64, _⟩ => ⟨S278528, .i32⟩
  | .hbm, ⟨65, _⟩ => ⟨S278528, .i32⟩
  | .hbm, ⟨66, _⟩ => ⟨S278528, .i32⟩
  | .hbm, ⟨67, _⟩ => ⟨S278528x1, .i32⟩
  | .hbm, ⟨68, _⟩ => ⟨S278528, .f32⟩
  | .hbm, ⟨69, _⟩ => ⟨S278528, .f32⟩
  | .hbm, ⟨70, _⟩ => ⟨S16384x256, .f32⟩
  | .hbm, ⟨71, _⟩ => ⟨S_, .i32⟩
  | .hbm, ⟨72, _⟩ => ⟨S278528, .i32⟩
  | .hbm, ⟨73, _⟩ => ⟨S278528, .i1⟩
  | .hbm, ⟨74, _⟩ => ⟨S_, .i32⟩
  | .hbm, ⟨75, _⟩ => ⟨S278528, .i32⟩
  | .hbm, ⟨76, _⟩ => ⟨S278528, .i32⟩
  | .hbm, ⟨77, _⟩ => ⟨S278528, .i32⟩
  | .hbm, ⟨78, _⟩ => ⟨S278528x1, .i32⟩
  | .hbm, ⟨79, _⟩ => ⟨S278528x256, .f32⟩
  | .hbm, ⟨80, _⟩ => ⟨S278528x1, .f32⟩
  | .hbm, ⟨81, _⟩ => ⟨S278528x256, .f32⟩
  | .hbm, ⟨82, _⟩ => ⟨S278528x256, .f32⟩
  | .hbm, ⟨83, _⟩ => ⟨S_, .f32⟩
  | .hbm, ⟨84, _⟩ => ⟨S16384x256, .f32⟩
  | .hbm, ⟨85, _⟩ => ⟨S278528x1, .i32⟩
  | .hbm, ⟨86, _⟩ => ⟨S16384x256, .f32⟩
  | .hbm, ⟨87, _⟩ => ⟨S1x256, .f32⟩
  | .hbm, ⟨88, _⟩ => ⟨S16384x256, .f32⟩
  | .hbm, ⟨89, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144_S16384_S278528_d0 : Shape.Concatenates [S262144, S16384] S278528 0
  bcast_S_S16384 : S_.BroadcastsInDim S16384 (![] : Fin 0 → Fin S16384.rank)
  bcast_S278528_S278528x1_0 : S278528.BroadcastsInDim S278528x1 (![0] : Fin 1 → Fin S278528x1.rank)
  bcast_S_S278528 : S_.BroadcastsInDim S278528 (![] : Fin 0 → Fin S278528.rank)
  bcast_S278528x1_S278528x256_0_1 : S278528x1.BroadcastsInDim S278528x256 (![0, 1] : Fin 2 → Fin S278528x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  gather_S16384_S262144x1_S262144_n_0_n_n_0_1_1_wf : GatherDims.WF S16384 S262144x1 S262144 [] [0] [] [0] [] 1 ![1]
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x256_S256x256_S16384x256_1_0_0_1_n_n_wf : DotDims.WF S16384x256 S256x256 S16384x256 [1] [0] [0] [1] [] []
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1

variable [Facts₀]

def gather_S16384_S262144x1_S262144_n_0_n_n_0_1_1 : GatherDims S16384 S262144x1 S262144 where
  offsetDims := []
  collapsedSliceDims := [0]
  operandBatchingDims := []
  startIndicesBatchingDims := []
  startIndexMap := [0]
  indexVectorDim := 1
  sliceSizes := ![1]
  wf := gather_S16384_S262144x1_S262144_n_0_n_n_0_1_1_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf

class Facts : Prop extends Facts₀ where

variable [Facts]
-- ==== Proof.K.Region0.lean ====
import proofs.«402047_j59931973649025_1_alg».proof.Proof.Gen.Kernel.Launch
import proofs.«402047_j59931973649025_1_alg».proof.Proof.Gen.Kernel.Skeleton
import proofs.«402047_j59931973649025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The first pallas_call (the product x · W, rounded to bf16), at the entry contents `V`

Three windows over a grid of 8 points: window 0 is the block of 2048 rows of x (f32) at the point, window 1 is the
whole of W (f32, one buffer, brought in at the first point and left in place), window 2 is the block of 2048 rows
of the result (bf16), written back at every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of window 0 (rows of x) holds its block at every point, for any proof data whose array is
    `V`'s (`hA`) and whose body leaves the block in place (`hafter`): the window is an input, uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of window 1 (the whole of W) holds its block at every point, brought in there or not: where
    it is not brought in, the block index has not moved (it is constant) and the body left the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2048 × 256 rectangle: what the body loads of the x block and stores of the result block. -/
abbrev r0_x : Rect S2048x256 := Rect.unit (s := S2048x256) ![0, 0] S2048x256.size inb_S2048x256_S2048x256_0_0
/-- The whole 256 × 256 rectangle: what the body loads of W. -/
abbrev r0_w : Rect S256x256 := Rect.unit (s := S256x256) ![0, 0] S256x256.size inb_S256x256_S256x256_0_0

/-! ## What the body leaves in the output window's buffer -/

/-- Window 2's staging buffer after the body, from the input windows' blocks: its one store — the rounded product
    of the two loaded blocks — over the whole rectangle. -/
def out0_2 (x0 : Vec F S2048x256 .f32) (x1 : Vec F S256x256 .f32) : Vec F S2048x256 .bf16 :=
  View.canon [⟨r0_x, k0_pay1 (View.ld x0 r0_x) (View.ld x1 r0_w)⟩]

/-- The one store is of the whole rectangle, so it covers the buffer. -/
theorem cover0_2 (p0 : Vec F S2048x256 .bf16) (y : S2048x256.Idx) :
    ∃ pc ∈ ([⟨r0_x, p0⟩] : List (View.Piece (Elt F) S2048x256 .bf16)), y ∈ pc.1.set :=
  View.cover_of_tiled [⟨r0_x, p0⟩] S2048x256.size (by rfl) y

/-! ## The body's triple -/

set_option maxHeartbeats 1000000 in
/-- The kernel body on whole staging memrefs — the two inputs' at read contents `x0`, `x1`, the output's at anything —
    runs to the continuation holding the inputs' as they were and the output's at `out0_2` of the inputs': the body
    loads the two input blocks whole, loads the output buffer (the value is unused), and stores the rounded product
    over the whole output rectangle. -/
theorem sound_kernel0 (c : Dev nD) (E : Set ℕ) (i : grid0.Coords) (arg1 : Memref sig .tc .vmem S2048x256 .f32) (harg1 : arg1.IsWhole)
    (arg2 : Memref sig .tc .vmem S256x256 .f32) (harg2 : arg2.IsWhole) (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the two input blocks; the invariant is the
    scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and the three windows' current
    staging memrefs, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
import proofs.«402047_j59931973649025_1_alg».proof.Proof.Gen.Kernel.Launch
import proofs.«402047_j59931973649025_1_alg».proof.Proof.Gen.Kernel.Skeleton
import proofs.«402047_j59931973649025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, in closed form over the 16 x 4 grid

Point `t` has row block `t / 4` and reduction block `k = t % 4`. The first condition asks `k = 0` (the
accumulator is reset), the second `k = 3` (the accumulator plus the bias is stored into the result block). -/

/-- The first condition (`k = 0`), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (`k = 3`), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

The three inputs are never idle. The result block is stored only where `k = 3`; elsewhere it is idle and
is not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k = 0` the result block is idle, -/
theorem idleAt1_3_A : ∀ t : Fin cfg1.N, cond1_0 (grid1.coords t) → ¬cond1_1 (grid1.coords t) → cfg1.idle 3 (grid1.coords t) = true := by decide +kernel
/-- and not written back. -/
theorem noFlush1_3_A : ∀ t : Fin cfg1.N, cond1_0 (grid1.coords t) → ¬cond1_1 (grid1.coords t) → (cfg1.win 3).flush t = false := by decide +kernel
/-- Where `k` is 1 or 2 the result block is idle, -/
theorem idleAt1_3_B : ∀ t : Fin cfg1.N, ¬cond1_0 (grid1.coords t) → ¬cond1_1 (grid1.coords t) → cfg1.idle 3 (grid1.coords t) = true := by decide +kernel
/-- and not written back. -/
theorem noFlush1_3_B : ∀ t : Fin cfg1.N, ¬cond1_0 (grid1.coords t) → ¬cond1_1 (grid1.coords t) → (cfg1.win 3).flush t = false := by decide +kernel
/-- Where `k = 3` the result block is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result window, through which its contents are stated (the choice does not matter). -/
abbrev VO1_3 : View sig .tc .vmem S1024x256 .f32 := (Memref.whole cc1_stg3_0 : Memref sig .tc .vmem S1024x256 .f32).view
/-- Each window's current staging memref at point `t`, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried from point to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region invariant before the first point, conjunct by conjunct: the other launch's staging buffers at some
    contents each, the accumulator owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run in each of its three control cases

In each case the body is run on whole memrefs: the three inputs owned at their blocks `x0` (the block of the
adjacency matrix), `x1` (the block of the projected features), `x2` (the bias row); the result block's memref;
the accumulator. The pieces each stored-into buffer ends with are what the run finds. -/

set_option maxHeartbeats 1000000 in
/-- CASE A (`k = 0`): the accumulator, at anything, is reset and then updated; the result block, at contents `xi3`,
    is handed back untouched. -/
noncomputable def kernelRun1_A (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨[], ?_, fun xi3 E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (`k` is 1 or 2): the accumulator, at the contents `xs0` the point before left, is updated; the result
    block, at contents `xi3`, is handed back untouched. -/
noncomputable def kernelRun1_B (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨[], ?_, fun xi3 E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (`k = 3`): the accumulator, at the contents `xs0` the point before left, is updated; the result block,
    at anything, receives the accumulator plus the bias row. -/
noncomputable def kernelRun1_C (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨?_, ?_, fun E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region1.lean ====
import proofs.«402047_j59931973649025_1_alg».proof.Proof.K.Region1Runs
import proofs.«402047_j59931973649025_1_alg».proof.Proof.Gen.Kernel.Launch
import proofs.«402047_j59931973649025_1_alg».proof.Proof.Gen.Kernel.Skeleton
import proofs.«402047_j59931973649025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The inputs' staging buffers hold their blocks

An input window whose body leaves its block in place holds, at every point, the block a fetch there would put in
its buffer, fetched there or not: unfetched, its block index has not moved since the point before. This covers the
bias row, fetched at the first point only, as it does the two matrix blocks fetched at every point. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the result block's buffer and in the accumulator -/

/-- where `k = 0` nothing is stored into the result block: no pieces, a placeholder that nothing consults (the block is
    neither written back there nor read at the next point). -/
def out1_A_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)

/-- where `k = 0` the stores into the accumulator are of its whole rectangle, so its pieces cover it. -/
theorem scover1_A_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y

/-- What the body leaves in the accumulator where `k = 0`: its pieces read back. -/
def sout1_A_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) : Vec F S1024x256 .f32 :=
  VS1_0.read (Elt F) (VS1_0.writes (Elt F) VS1_0.junk (kernelRun1_A c i arg2 harg2 arg3 harg3 arg4 harg4 arg5 harg5 arg6 harg6 hc0 hc1 x0 x1 x2).2.1)

/-- where `k` is 1 or 2 nothing is stored into the result block: no pieces, a placeholder that nothing consults (the block is
    neither written back there nor read at the next point). -/
def out1_B_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)

/-- where `k` is 1 or 2 the stores into the accumulator are of its whole rectangle, so its pieces cover it. -/
theorem scover1_B_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y

/-- What the body leaves in the accumulator where `k` is 1 or 2: its pieces read back. -/
def sout1_B_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- where `k = 3` the one store into the result block is of the block's whole rectangle, so its pieces cover it. -/
theorem cover1_C_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y

/-- What the body leaves in the result block where `k = 3`: its pieces read back. -/
def out1_C_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- where `k = 3` the stores into the accumulator are of its whole rectangle, so its pieces cover it. -/
theorem scover1_C_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y

/-- What the body leaves in the accumulator where `k = 3`: its pieces read back. -/
def sout1_C_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the result block's buffer and the accumulator hold after each point -/

/-- THE ACCUMULATION. The pair (result block's staging buffer, accumulator) after the body at position `n`: the case
    the closed forms select at `n`, run at the point's memrefs and input blocks, the accumulator entering at what
    position `n - 1` left (cases B and C). No point has both `k = 0` and `k = 3`. -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with `k = 0`. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with `k` 1 or 2, over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 3`, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the launch's (every scoped buffer that is no staging
    buffer of this launch at anything, the generator register at some state); afterwards the same with the accumulator
    at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this launch on core `c`: the arrays as the region finds them (`V`); after the body at point `t`
    each input's buffer at its block and the result block's at `outsAt1`'s first component; the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the three cases the
    point is in; the invariant hands the body the accumulator (at anything before the first point, else at what the
    point before left) and takes it back at this point's contents, by the cover of the accumulator's stores; where
    `k ≠ 3` the result block's buffer goes in and comes back untouched, where `k = 3` it comes back at its stored
    pieces; the other scoped buffers, the generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      ·
        exfalso; omega
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      ·
        exfalso; omega
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
/-
  The run of the whole program: three stretches of host operations, the first pallas_call (h = x · W, block by block),
  one more host operation (the bias as a row), the second pallas_call (out = A · h + b, accumulated over four blocks of
  the contracted axis). Between two items every unscoped buffer of the core is held whole at named contents: the launch
  memory, then what each host stretch computes from what it finds, then, after a pallas_call, the same contents with the
  call's result array replaced by what its write-backs leave (the input arrays unchanged). The scoped buffers, the
  generator register and the core's dues ride along untouched. At the end the result array holds what the second call's
  write-backs leave, and no item has written an argument array.
-/
import proofs.«402047_j59931973649025_1_alg».proof.Proof.K.Region0
import proofs.«402047_j59931973649025_1_alg».proof.Proof.K.Region1
import proofs.«402047_j59931973649025_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Before the first call: the launch memory after the three host stretches. -/
abbrev W3 (c : Dev nD) : Valuation τ sig (Elt F) := Gen.V3 m c
abbrev V3r : (c : Dev nD) → (b : Ref sig .tc) → Buf (Elt F) ((c : Thread nD τ).loc b) := fun c b => W3 m c b

/-- After the first call: its arrays at what its write-backs leave, every other buffer as before. -/
def W4 (c : Dev nD) : Valuation τ sig (Elt F) :=
  Pipeline.withArrays spec0 c (W3 m c) fun w => (dat0 (V3r m) c).arrAt w cfg0.N
theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4r : (c : Dev nD) → (b : Ref sig .tc) → Buf (Elt F) ((c : Thread nD τ).loc b) := fun c b => W4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- Before the second call: after the one host operation between the calls. -/
abbrev W5 (c : Dev nD) : Valuation τ sig (Elt F) := StableHlo.after hostOps1 (W4 m c)
abbrev V5r : (c : Dev nD) → (b : Ref sig .tc) → Buf (Elt F) ((c : Thread nD τ).loc b) := fun c b => W5 m c b

/-- After the second call. -/
def W6 (c : Dev nD) : Valuation τ sig (Elt F) :=
  Pipeline.withArrays spec1 c (W5 m c) fun w => (dat1 (V5r m) c).arrAt w cfg1.N
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6r : (c : Dev nD) → (b : Ref sig .tc) → Buf (Elt F) ((c : Thread nD τ).loc b) := fun c b => W6 m c b
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)

/-! ## No item writes an argument -/

/-- A buffer no host stretch before the first call writes still holds its launch contents there. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (Gen.V3_of m c r h2).trans ((Gen.V2_of m c r h1).trans ((Gen.V1_of m c r h0).trans rfl))

/-- The one host operation between the calls writes only the bias row. -/
theorem W5_of (c : Dev nD) (r : Ref sig .tc) (h : r ∉ hostOps1_W) : W5 m c (Proc.devRef .tc r) = W4 m c (Proc.devRef .tc r) :=
  StableHlo.after_of_writes_sub hostOps1 _ hostOps1_writes h

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (V3r m) c).arrAt_in 0 rfl _).trans (A_eq0 (V3r m) c 0))
    _ = m ((c : Thread nD τ).loc main_arg0) := W3_launch m c main_arg0 (by decide) (by decide) (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := (W4_arr m c 1).trans (((dat0 (V3r m) c).arrAt_in 1 rfl _).trans (A_eq0 (V3r m) c 1))
    _ = m ((c : Thread nD τ).loc main_arg1) := W3_launch m c main_arg1 (by decide) (by decide) (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_launch m c main_arg2 (by decide) (by decide) (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = m ((c : Thread nD τ).loc main_arg3) := W3_launch m c main_arg3 (by decide) (by decide) (by decide)
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_launch m c main_arg4 (by decide) (by decide) (by decide)

/-! ## The proof data of both calls and the state that rides between the items -/

/-- No pallas_call has a prefetched table. -/
abbrev adm : (p : Fin 2) → (pcfgs (F := F) p).Adm := fun p => (cfgs p).toPCfg_adm
/-- Each call's proof data at the contents its region is entered from. -/
def pdats : (p : Fin 2) → (c : Dev nD) → Dat τ (Elt F) Unit ℕ (Pipeline.UD sig nD τ) ℕ (Pipeline.pin (pcfgs (F := F)) adm p) c
  | ⟨0, _⟩ => fun c => dat0 (V3r m) c
  | ⟨1, _⟩ => fun c => dat1 (V5r m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues. -/
abbrev Tₙ (c : Dev nD) : sProp 𝕄 := iprop(StableHlo.held (c : Thread nD τ) (Pipeline.ucRefs τ sig) (W6 m c) ∗ ∃ r, prngReg c r)

/-! ## The two calls as segments -/

set_option backward.isDefEq.respectTransparency.types false in
/-- The first call: entered with every unscoped buffer at `W3`, left at `W4`. Its arrays are split out of the unscoped
    buffers and put back at what the write-backs leave; the generator register goes into the region's invariant and comes
    back; the kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W5`, left at `W6`. Its invariant is the class's before the
    first point (the scratch at anything) and, after a point, the scratch at what that point left; at the exit the
    scratch's contents are forgotten again. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5r m) c)
    unfold Pipeline.ΦA
    iintro ⟨Hp, -, Hr⟩
    isplitl [Hr]; · iexact Hr
    iexact Hp
  hout c := by
    rw [Pipeline.ownSems0_none]
    refine BIBase.Entails.trans (hout1 (V5r m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's six items in order. -/
abbrev segs : List (Pipeline.Seg (pcfgs (F := F)) adm (pdats m) () defs₀ 𝒱₀ L lv) :=
  [ .host (hseg hostOps0 hostOps0_sub Gen.hostOps0_fresh (fun c => Gen.V0 m c)),
    .host (hseg hostOps0_1 hostOps0_1_sub Gen.hostOps0_1_fresh (fun c => Gen.V1 m c)),
    .host (hseg hostOps0_2 hostOps0_2_sub Gen.hostOps0_2_fresh (fun c => Gen.V2 m c)),
    .region (reg0 m),
    .host (hseg hostOps1 hostOps1_sub Gen.hostOps1_fresh (W4 m)),
    .region (reg1 m) ]

/-- The program is the run of its items. -/
theorem main_run (c : Dev nD) : main (F := F) c = Pipeline.Seg.run (segs m) := (main_chain c).trans (by chain_rfl)

set_option backward.isDefEq.respectTransparency.types false in
/-- THE RUN. From any memory with zero counters every weakly fair execution of the program terminates without a fault,
    the result array holding what the second call's write-backs leave and every argument array its launch contents. -/
theorem result : θ_run defs (onTc (τ := τ) (main (F := F))) ⟨m, fun _ => 0, ρ⟩ (fun r => ∀ c : Dev nD,
      r.2.mem ((c.tc : Thread nD τ).loc main_v68) = (dat1 (V5r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v68 (by decide))).trans (W6_arr m c 3),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c)⟩)

end Cert.Kernel.Hand

end
-- ==== Proof.KI.Region0.lean ====
import proofs.«402047_j59931973649025_1_alg».proof.Proof.Gen.KernelIdeal.Launch
import proofs.«402047_j59931973649025_1_alg».proof.Proof.Gen.KernelIdeal.Skeleton
import proofs.«402047_j59931973649025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The first pallas_call (the product x · W, rounded to bf16), at the entry contents `V`

Three windows over a grid of 8 points: window 0 is the block of 2048 rows of x (f32) at the point, window 1 is the
whole of W (f32, one buffer, brought in at the first point and left in place), window 2 is the block of 2048 rows
of the result (bf16), written back at every point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of window 0 (rows of x) holds its block at every point, for any proof data whose array is
    `V`'s (`hA`) and whose body leaves the block in place (`hafter`): the window is an input, uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of window 1 (the whole of W) holds its block at every point, brought in there or not: where
    it is not brought in, the block index has not moved (it is constant) and the body left the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2048 × 256 rectangle: what the body loads of the x block and stores of the result block. -/
abbrev r0_x : Rect S2048x256 := Rect.unit (s := S2048x256) ![0, 0] S2048x256.size inb_S2048x256_S2048x256_0_0
/-- The whole 256 × 256 rectangle: what the body loads of W. -/
abbrev r0_w : Rect S256x256 := Rect.unit (s := S256x256) ![0, 0] S256x256.size inb_S256x256_S256x256_0_0

/-! ## What the body leaves in the output window's buffer -/

/-- Window 2's staging buffer after the body, from the input windows' blocks: its one store — the rounded product
    of the two loaded blocks — over the whole rectangle. -/
def out0_2 (x0 : Vec F S2048x256 .f32) (x1 : Vec F S256x256 .f32) : Vec F S2048x256 .bf16 :=
  View.canon [⟨r0_x, k0_pay1 (View.ld x0 r0_x) (View.ld x1 r0_w)⟩]

/-- The one store is of the whole rectangle, so it covers the buffer. -/
theorem cover0_2 (p0 : Vec F S2048x256 .bf16) (y : S2048x256.Idx) :
    ∃ pc ∈ ([⟨r0_x, p0⟩] : List (View.Piece (Elt F) S2048x256 .bf16)), y ∈ pc.1.set :=
  View.cover_of_tiled [⟨r0_x, p0⟩] S2048x256.size (by rfl) y

/-! ## The body's triple -/

set_option maxHeartbeats 1000000 in
/-- The kernel body on whole staging memrefs — the two inputs' at read contents `x0`, `x1`, the output's at anything —
    runs to the continuation holding the inputs' as they were and the output's at `out0_2` of the inputs': the body
    loads the two input blocks whole, loads the output buffer (the value is unused), and stores the rounded product
    over the whole output rectangle. -/
theorem sound_kernel0 (c : Dev nD) (E : Set ℕ) (i : grid0.Coords) (arg1 : Memref sig .tc .vmem S2048x256 .f32) (harg1 : arg1.IsWhole)
    (arg2 : Memref sig .tc .vmem S256x256 .f32) (harg2 : arg2.IsWhole) (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the two input blocks; the invariant is the
    scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and the three windows' current
    staging memrefs, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«402047_j59931973649025_1_alg».proof.Proof.Gen.KernelIdeal.Launch
import proofs.«402047_j59931973649025_1_alg».proof.Proof.Gen.KernelIdeal.Skeleton
import proofs.«402047_j59931973649025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, in closed form over the 16 x 4 grid

Point `t` has row block `t / 4` and reduction block `k = t % 4`. The first condition asks `k = 0` (the
accumulator is reset), the second `k = 3` (the accumulator plus the bias is stored into the result block). -/

/-- The first condition (`k = 0`), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (`k = 3`), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

The three inputs are never idle. The result block is stored only where `k = 3`; elsewhere it is idle and
is not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k = 0` the result block is idle, -/
theorem idleAt1_3_A : ∀ t : Fin cfg1.N, cond1_0 (grid1.coords t) → ¬cond1_1 (grid1.coords t) → cfg1.idle 3 (grid1.coords t) = true := by decide +kernel
/-- and not written back. -/
theorem noFlush1_3_A : ∀ t : Fin cfg1.N, cond1_0 (grid1.coords t) → ¬cond1_1 (grid1.coords t) → (cfg1.win 3).flush t = false := by decide +kernel
/-- Where `k` is 1 or 2 the result block is idle, -/
theorem idleAt1_3_B : ∀ t : Fin cfg1.N, ¬cond1_0 (grid1.coords t) → ¬cond1_1 (grid1.coords t) → cfg1.idle 3 (grid1.coords t) = true := by decide +kernel
/-- and not written back. -/
theorem noFlush1_3_B : ∀ t : Fin cfg1.N, ¬cond1_0 (grid1.coords t) → ¬cond1_1 (grid1.coords t) → (cfg1.win 3).flush t = false := by decide +kernel
/-- Where `k = 3` the result block is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result window, through which its contents are stated (the choice does not matter). -/
abbrev VO1_3 : View sig .tc .vmem S1024x256 .f32 := (Memref.whole cc1_stg3_0 : Memref sig .tc .vmem S1024x256 .f32).view
/-- Each window's current staging memref at point `t`, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried from point to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region invariant before the first point, conjunct by conjunct: the other launch's staging buffers at some
    contents each, the accumulator owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run in each of its three control cases

In each case the body is run on whole memrefs: the three inputs owned at their blocks `x0` (the block of the
adjacency matrix), `x1` (the block of the projected features), `x2` (the bias row); the result block's memref;
the accumulator. The pieces each stored-into buffer ends with are what the run finds. -/

set_option maxHeartbeats 1000000 in
/-- CASE A (`k = 0`): the accumulator, at anything, is reset and then updated; the result block, at contents `xi3`,
    is handed back untouched. -/
noncomputable def kernelRun1_A (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨[], ?_, fun xi3 E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (`k` is 1 or 2): the accumulator, at the contents `xs0` the point before left, is updated; the result
    block, at contents `xi3`, is handed back untouched. -/
noncomputable def kernelRun1_B (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨[], ?_, fun xi3 E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (`k = 3`): the accumulator, at the contents `xs0` the point before left, is updated; the result block,
    at anything, receives the accumulator plus the bias row. -/
noncomputable def kernelRun1_C (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ah_kernel i arg2 harg2 arg3 harg3 arg4 harg4 arg5 harg5 arg6 harg6) K } := by
  refine ⟨?_, ?_, fun E K => ?run⟩
  case run =>
    simp only [cc1__ah_kernel_eq_skeleton]; unfold cc1__ah_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region1.lean ====
import proofs.«402047_j59931973649025_1_alg».proof.Proof.KI.Region1Runs
import proofs.«402047_j59931973649025_1_alg».proof.Proof.Gen.KernelIdeal.Launch
import proofs.«402047_j59931973649025_1_alg».proof.Proof.Gen.KernelIdeal.Skeleton
import proofs.«402047_j59931973649025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The inputs' staging buffers hold their blocks

An input window whose body leaves its block in place holds, at every point, the block a fetch there would put in
its buffer, fetched there or not: unfetched, its block index has not moved since the point before. This covers the
bias row, fetched at the first point only, as it does the two matrix blocks fetched at every point. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the result block's buffer and in the accumulator -/

/-- where `k = 0` nothing is stored into the result block: no pieces, a placeholder that nothing consults (the block is
    neither written back there nor read at the next point). -/
def out1_A_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)

/-- where `k = 0` the stores into the accumulator are of its whole rectangle, so its pieces cover it. -/
theorem scover1_A_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y

/-- What the body leaves in the accumulator where `k = 0`: its pieces read back. -/
def sout1_A_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) : Vec F S1024x256 .f32 :=
  VS1_0.read (Elt F) (VS1_0.writes (Elt F) VS1_0.junk (kernelRun1_A c i arg2 harg2 arg3 harg3 arg4 harg4 arg5 harg5 arg6 harg6 hc0 hc1 x0 x1 x2).2.1)

/-- where `k` is 1 or 2 nothing is stored into the result block: no pieces, a placeholder that nothing consults (the block is
    neither written back there nor read at the next point). -/
def out1_B_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)

/-- where `k` is 1 or 2 the stores into the accumulator are of its whole rectangle, so its pieces cover it. -/
theorem scover1_B_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y

/-- What the body leaves in the accumulator where `k` is 1 or 2: its pieces read back. -/
def sout1_B_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- where `k = 3` the one store into the result block is of the block's whole rectangle, so its pieces cover it. -/
theorem cover1_C_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y

/-- What the body leaves in the result block where `k = 3`: its pieces read back. -/
def out1_C_3 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- where `k = 3` the stores into the accumulator are of its whole rectangle, so its pieces cover it. -/
theorem scover1_C_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y

/-- What the body leaves in the accumulator where `k = 3`: its pieces read back. -/
def sout1_C_0 (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the result block's buffer and the accumulator hold after each point -/

/-- THE ACCUMULATION. The pair (result block's staging buffer, accumulator) after the body at position `n`: the case
    the closed forms select at `n`, run at the point's memrefs and input blocks, the accumulator entering at what
    position `n - 1` left (cases B and C). No point has both `k = 0` and `k = 3`. -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with `k = 0`. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with `k` 1 or 2, over what the point before left in the accumulator. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 3`, over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the launch's (every scoped buffer that is no staging
    buffer of this launch at anything, the generator register at some state); afterwards the same with the accumulator
    at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this launch on core `c`: the arrays as the region finds them (`V`); after the body at point `t`
    each input's buffer at its block and the result block's at `outsAt1`'s first component; the invariant `PhiS1`;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the three cases the
    point is in; the invariant hands the body the accumulator (at anything before the first point, else at what the
    point before left) and takes it back at this point's contents, by the cover of the accumulator's stores; where
    `k ≠ 3` the result block's buffer goes in and comes back untouched, where `k = 3` it comes back at its stored
    pieces; the other scoped buffers, the generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      ·
        exfalso; omega
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      ·
        exfalso; omega
      ·
        rw [PhiS1_castSucc V c t, PhiS1_pos V c _ _ hz]
        iintro ⟨⟨⟨HR0, HR1, HR2, HR3, HR4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 Hg]
        · isplitl [HR0 HR1 HR2 HR3 HR4 HS0]
          · isplitl [HR0]; · iexact HR0
            isplitl [HR1]; · iexact HR1
            isplitl [HR2]; · iexact HR2
            isplitl [HR3]; · iexact HR3
            isplitl [HR4]; · iexact HR4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/-
  The run of the whole program: three stretches of host operations, the first pallas_call (h = x · W, block by block),
  one more host operation (the bias as a row), the second pallas_call (out = A · h + b, accumulated over four blocks of
  the contracted axis). Between two items every unscoped buffer of the core is held whole at named contents: the launch
  memory, then what each host stretch computes from what it finds, then, after a pallas_call, the same contents with the
  call's result array replaced by what its write-backs leave (the input arrays unchanged). The scoped buffers, the
  generator register and the core's dues ride along untouched. At the end the result array holds what the second call's
  write-backs leave, and no item has written an argument array.
-/
import proofs.«402047_j59931973649025_1_alg».proof.Proof.KI.Region0
import proofs.«402047_j59931973649025_1_alg».proof.Proof.KI.Region1
import proofs.«402047_j59931973649025_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Before the first call: the launch memory after the three host stretches. -/
abbrev W3 (c : Dev nD) : Valuation τ sig (Elt F) := Gen.V3 m c
abbrev V3r : (c : Dev nD) → (b : Ref sig .tc) → Buf (Elt F) ((c : Thread nD τ).loc b) := fun c b => W3 m c b

/-- After the first call: its arrays at what its write-backs leave, every other buffer as before. -/
def W4 (c : Dev nD) : Valuation τ sig (Elt F) :=
  Pipeline.withArrays spec0 c (W3 m c) fun w => (dat0 (V3r m) c).arrAt w cfg0.N
theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4r : (c : Dev nD) → (b : Ref sig .tc) → Buf (Elt F) ((c : Thread nD τ).loc b) := fun c b => W4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- Before the second call: after the one host operation between the calls. -/
abbrev W5 (c : Dev nD) : Valuation τ sig (Elt F) := StableHlo.after hostOps1 (W4 m c)
abbrev V5r : (c : Dev nD) → (b : Ref sig .tc) → Buf (Elt F) ((c : Thread nD τ).loc b) := fun c b => W5 m c b

/-- After the second call. -/
def W6 (c : Dev nD) : Valuation τ sig (Elt F) :=
  Pipeline.withArrays spec1 c (W5 m c) fun w => (dat1 (V5r m) c).arrAt w cfg1.N
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6r : (c : Dev nD) → (b : Ref sig .tc) → Buf (Elt F) ((c : Thread nD τ).loc b) := fun c b => W6 m c b
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)

/-! ## No item writes an argument -/

/-- A buffer no host stretch before the first call writes still holds its launch contents there. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (Gen.V3_of m c r h2).trans ((Gen.V2_of m c r h1).trans ((Gen.V1_of m c r h0).trans rfl))

/-- The one host operation between the calls writes only the bias row. -/
theorem W5_of (c : Dev nD) (r : Ref sig .tc) (h : r ∉ hostOps1_W) : W5 m c (Proc.devRef .tc r) = W4 m c (Proc.devRef .tc r) :=
  StableHlo.after_of_writes_sub hostOps1 _ hostOps1_writes h

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (V3r m) c).arrAt_in 0 rfl _).trans (A_eq0 (V3r m) c 0))
    _ = m ((c : Thread nD τ).loc main_arg0) := W3_launch m c main_arg0 (by decide) (by decide) (by decide)
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := (W4_arr m c 1).trans (((dat0 (V3r m) c).arrAt_in 1 rfl _).trans (A_eq0 (V3r m) c 1))
    _ = m ((c : Thread nD τ).loc main_arg1) := W3_launch m c main_arg1 (by decide) (by decide) (by decide)
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_launch m c main_arg2 (by decide) (by decide) (by decide)
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = m ((c : Thread nD τ).loc main_arg3) := W3_launch m c main_arg3 (by decide) (by decide) (by decide)
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_launch m c main_arg4 (by decide) (by decide) (by decide)

/-! ## The proof data of both calls and the state that rides between the items -/

/-- No pallas_call has a prefetched table. -/
abbrev adm : (p : Fin 2) → (pcfgs (F := F) p).Adm := fun p => (cfgs p).toPCfg_adm
/-- Each call's proof data at the contents its region is entered from. -/
def pdats : (p : Fin 2) → (c : Dev nD) → Dat τ (Elt F) Unit ℕ (Pipeline.UD sig nD τ) ℕ (Pipeline.pin (pcfgs (F := F)) adm p) c
  | ⟨0, _⟩ => fun c => dat0 (V3r m) c
  | ⟨1, _⟩ => fun c => dat1 (V5r m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues. -/
abbrev Tₙ (c : Dev nD) : sProp 𝕄 := iprop(StableHlo.held (c : Thread nD τ) (Pipeline.ucRefs τ sig) (W6 m c) ∗ ∃ r, prngReg c r)

/-! ## The two calls as segments -/

set_option backward.isDefEq.respectTransparency.types false in
/-- The first call: entered with every unscoped buffer at `W3`, left at `W4`. Its arrays are split out of the unscoped
    buffers and put back at what the write-backs leave; the generator register goes into the region's invariant and comes
    back; the kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W5`, left at `W6`. Its invariant is the class's before the
    first point (the scratch at anything) and, after a point, the scratch at what that point left; at the exit the
    scratch's contents are forgotten again. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5r m) c)
    unfold Pipeline.ΦA
    iintro ⟨Hp, -, Hr⟩
    isplitl [Hr]; · iexact Hr
    iexact Hp
  hout c := by
    rw [Pipeline.ownSems0_none]
    refine BIBase.Entails.trans (hout1 (V5r m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's six items in order. -/
abbrev segs : List (Pipeline.Seg (pcfgs (F := F)) adm (pdats m) () defs₀ 𝒱₀ L lv) :=
  [ .host (hseg hostOps0 hostOps0_sub Gen.hostOps0_fresh (fun c => Gen.V0 m c)),
    .host (hseg hostOps0_1 hostOps0_1_sub Gen.hostOps0_1_fresh (fun c => Gen.V1 m c)),
    .host (hseg hostOps0_2 hostOps0_2_sub Gen.hostOps0_2_fresh (fun c => Gen.V2 m c)),
    .region (reg0 m),
    .host (hseg hostOps1 hostOps1_sub Gen.hostOps1_fresh (W4 m)),
    .region (reg1 m) ]

/-- The program is the run of its items. -/
theorem main_run (c : Dev nD) : main (F := F) c = Pipeline.Seg.run (segs m) := (main_chain c).trans (by chain_rfl)

set_option backward.isDefEq.respectTransparency.types false in
/-- THE RUN. From any memory with zero counters every weakly fair execution of the program terminates without a fault,
    the result array holding what the second call's write-backs leave and every argument array its launch contents. -/
theorem result : θ_run defs (onTc (τ := τ) (main (F := F))) ⟨m, fun _ => 0, ρ⟩ (fun r => ∀ c : Dev nD,
      r.2.mem ((c.tc : Thread nD τ).loc main_v68) = (dat1 (V5r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v68 (by decide))).trans (W6_arr m c 3),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c)⟩)

end Cert.KernelIdeal.Hand

end
-- ==== Proof.KI.Value0.lean ====
import proofs.«402047_j59931973649025_1_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! # What the first pallas_call leaves in its result array, over the extended reals: the matrix product

Point `t` of the grid multiplies rows `2048 t … 2048 t + 2047` of the first array by the whole second array and
writes the product back as the same rows of the result; the changes of float format are the identity on the extended
reals, and the accumulator the product is added to is zero. So entry `(s, j)` of the result is the sum over `k` of
entry `(s, k)` of the first array times entry `(k, j)` of the second. -/

/-! ## The block product's operand indices -/

/-- At output entry `i` and contraction index `q` the left operand is read at row `i 0`, -/
theorem lhs_xw_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- column `q`; -/
theorem lhs_xw_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- the right operand at row `q`, -/
theorem rhs_xw_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- column `i 1`. -/
theorem rhs_xw_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-! ## The body's stored value at an entry -/

/-- Entry `(p, q)` of what the body stores, from its two loaded blocks: the sum over `k` of `x0 (p, k) · x1 (k, q)`
    (the roundings to bf16 are the identity here, the accumulator is the zero splat). -/
theorem pay_apply (x0 : Vec Ideal S2048x256 .f32) (x1 : Vec Ideal S256x256 .f32) (p : Fin 2048) (q : Fin 256) :
    (k0_pay1 (F := Ideal) x0 x1 : S2048x256.Idx → EReal) (ix2 p q)
      = ∑ k : Fin 256, (x0 : S2048x256.Idx → EReal) (ix2 p k) * (x1 : S256x256.Idx → EReal) (ix2 k q) := by
  unfold k0_pay1
  refine (Ideal.matmul_constant_zero_apply dot_S2048x256_S256x256_S2048x256_1_0_0_1_n_n none
    (truncf (F := Ideal) .bf16 x0 bitsLt_bf16_f32) (truncf (F := Ideal) .bf16 x1 bitsLt_bf16_f32) (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_xw_0 _ _
    | ⟨1, _⟩ => exact (lhs_xw_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_xw_0 _ _).trans hk
    | ⟨1, _⟩ => exact rhs_xw_1 _ _)
  exact congrArg₂ (fun a b : EReal => a * b) (congrArg x0 el) (congrArg x1 er)

/-! ## The product as one function of the two arrays -/

/-- Entry `i = (s, j)` of the product of a 16384 × 256 array by a 256 × 256 array. -/
def xw (a0 : S16384x256.Idx → EReal) (a1 : S256x256.Idx → EReal) : S16384x256.Idx → EReal := fun i =>
  ∑ k : Fin 256, a0 (ix2 (⟨(i 0).val, (i 0).isLt⟩ : Fin 16384) k) * a1 (ix2 k (⟨(i 1).val, (i 1).isLt⟩ : Fin 256))

/-- The body's stored value at entry `j = (p, q)` of a block is the product at entry `i = (s, q)` of the arrays, when
    row `p` of the first block is row `s` of the first array and the second block is the second array (column `q`). -/
theorem pay_eq_xw (a0 : S16384x256.Idx → EReal) (a1 : S256x256.Idx → EReal)
    (x0 : Vec Ideal S2048x256 .f32) (x1 : Vec Ideal S256x256 .f32)
    (j : S2048x256.Idx) (i : S16384x256.Idx) (p : Fin 2048) (q : Fin 256) (s : Fin 16384)
    (hj : j = ix2 p q) (hi : i = ix2 s q)
    (h0 : ∀ k : Fin 256, (x0 : S2048x256.Idx → EReal) (ix2 p k) = a0 (ix2 s k))
    (h1 : ∀ k : Fin 256, (x1 : S256x256.Idx → EReal) (ix2 k q) = a1 (ix2 k q)) :
    (k0_pay1 (F := Ideal) x0 x1 : S2048x256.Idx → EReal) j = xw a0 a1 i := by
  subst hj; subst hi
  refine (pay_apply x0 x1 p q).trans ?_
  exact Finset.sum_congr rfl fun k _ => congrArg₂ (fun a b : EReal => a * b) (h0 k) (h1 k)

/-! ## From blocks to the array -/

theorem hz : (![0, 0] : Fin 2 → Nat) = fun _ => 0 := funext fun a => by fin_cases a <;> rfl

/-- The windows' block indices over the grid: the first array's and the result's blocks are block row `t`, the
    second array's is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block row `t` of the product of the two arrays as the region finds them. -/
theorem flushed_eq (c : Dev nD) (t : Fin cfg0.N) :
    (dat0 (F := Ideal) V c).flushed 2 t
      = ((cfg0.win 2).blk t).view.read (Elt Ideal) (xw (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S2048x256) hz, View.ld_unit_zero (S := S256x256) hz]
  obtain ⟨e0, e1, e2, e3, e4, e5⟩ := idx_facts t
  have ht : t.val < 8 := Nat.lt_of_lt_of_eq t.isLt N_0
  refine funext fun (j : S2048x256.Idx) => ?_
  have hj0 : (j 0).val < 2048 := (j 0).isLt
  have hj1 : (j 1).val < 256 := (j 1).isLt
  have hs : t.val * 2048 + (j 0).val < 16384 := by omega
  have hi : ((cfg0.win 2).blk t).view.emb j = ix2 (⟨t.val * 2048 + (j 0).val, hs⟩ : Fin 16384) (⟨(j 1).val, hj1⟩ : Fin 256) :=
    funext fun a => Fin.ext (by
      match a with
      | ⟨0, _⟩ => show win0_2.index t (0 : Fin 2) * 2048 + 1 * (j 0).val = t.val * 2048 + (j 0).val; omega
      | ⟨1, _⟩ => show win0_2.index t (1 : Fin 2) * 256 + 1 * (j 1).val = (j 1).val; omega)
  have h0 : ∀ k : Fin 256, (iblk0 V c 0 t : Vec Ideal S2048x256 .f32) (ix2 (⟨(j 0).val, hj0⟩ : Fin 2048) k)
      = (V c main_arg0 : S16384x256.Idx → EReal) (ix2 (⟨t.val * 2048 + (j 0).val, hs⟩ : Fin 16384) k) := fun k => by
    show (V c main_arg0 : S16384x256.Idx → EReal) (((cfg0.win 0).blk t).view.emb (ix2 (⟨(j 0).val, hj0⟩ : Fin 2048) k)) = _
    refine congrArg (V c main_arg0 : S16384x256.Idx → EReal) (funext fun a => Fin.ext ?_)
    match a with
    | ⟨0, _⟩ => show win0_0.index t (0 : Fin 2) * 2048 + 1 * (j 0).val = t.val * 2048 + (j 0).val; omega
    | ⟨1, _⟩ => show win0_0.index t (1 : Fin 2) * 256 + 1 * k.val = k.val; omega
  have h1 : ∀ k : Fin 256, (iblk0 V c 1 t : Vec Ideal S256x256 .f32) (ix2 k (⟨(j 1).val, hj1⟩ : Fin 256))
      = (V c main_arg1 : S256x256.Idx → EReal) (ix2 k (⟨(j 1).val, hj1⟩ : Fin 256)) := fun k => by
    show (V c main_arg1 : S256x256.Idx → EReal) (((cfg0.win 1).blk t).view.emb (ix2 k (⟨(j 1).val, hj1⟩ : Fin 256))) = _
    refine congrArg (V c main_arg1 : S256x256.Idx → EReal) (funext fun a => Fin.ext ?_)
    match a with
    | ⟨0, _⟩ => show win0_1.index t (0 : Fin 2) * 256 + 1 * k.val = k.val; omega
    | ⟨1, _⟩ => show win0_1.index t (1 : Fin 2) * 256 + 1 * (j 1).val = (j 1).val; omega
  exact pay_eq_xw (V c main_arg0) (V c main_arg1) (iblk0 V c 0 t) (iblk0 V c 1 t) j (((cfg0.win 2).blk t).view.emb j)
    ⟨(j 0).val, hj0⟩ ⟨(j 1).val, hj1⟩ ⟨t.val * 2048 + (j 0).val, hs⟩ (eq_ix2 j) hi h0 h1

/-- An entry of the result array is in point `t`'s block iff each coordinate is in the block's range on its axis. -/
theorem mem_blk (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v66).slice (win0_2.rect t)).set ↔ _
  rw [View.set_slice_whole, Rect.mem_set_unit]
  exact Iff.rfl

/-- Row `r` of the result is written back by point `r / 2048`: the eight blocks tile the array. -/
theorem cover (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The result array after the region: the product of the two arrays as the region finds them. -/
theorem h_eq (c : Dev nD) : (dat0 (F := Ideal) V c).arrAt 2 cfg0.N = xw (V c main_arg0) (V c main_arg1) :=
  (dat0 (F := Ideal) V c).arrAt_eq_of_cover 2 (xw (V c main_arg0) (V c main_arg1)) (fun t _ => flushed_eq V c t) (fun i => cover i)

/-- The product at an entry given by its coordinates. -/
theorem xw_apply (a0 : S16384x256.Idx → EReal) (a1 : S256x256.Idx → EReal) (s : Fin 16384) (j : Fin 256) :
    xw a0 a1 (ix2 s j) = ∑ k : Fin 256, a0 (ix2 s k) * a1 (ix2 k j) := rfl

/-- The two argument arrays as the region finds them and the result array after the region, as functions of an index
    into the extended reals. -/
abbrev xarr (c : Dev nD) : S16384x256.Idx → EReal := V c main_arg0
abbrev warr (c : Dev nD) : S256x256.Idx → EReal := V c main_arg1
abbrev harr (c : Dev nD) : S16384x256.Idx → EReal := (dat0 (F := Ideal) V c).arrAt 2 cfg0.N

/-- Entry `(s, j)` of the result array after the region: row `s` of the first array against column `j` of the second. -/
theorem h_apply (c : Dev nD) (s : Fin 16384) (j : Fin 256) :
    harr V c (ix2 s j) = ∑ k : Fin 256, xarr V c (ix2 s k) * warr V c (ix2 k j) :=
  congrFun (h_eq V c) (ix2 s j)

end Cert.KernelIdeal.HandValue

end
-- ==== Proof.KI.Region1Pieces.lean ====
import proofs.«402047_j59931973649025_1_alg».proof.Proof.KI.Region1
import proofs.«402047_j59931973649025_1_alg».proof.Proof.Gen.KernelIdeal.Launch
import proofs.«402047_j59931973649025_1_alg».proof.Proof.Gen.KernelIdeal.Skeleton
import proofs.«402047_j59931973649025_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The pieces the three runs found, read as the body's payloads

`x0` is the block of the adjacency matrix, `x1` the block of the projected features, `x2` the bias row, `xs0` what the
point before left in the accumulator. Every store of the body is of a buffer's whole rectangle at zero offsets, so
what a buffer ends with is the payload of the last store into it, and a load of a buffer stored earlier in the same
run reads that store's payload. -/

/-- The offsets of every access of the body are zero. -/
theorem off_zero : (![0, 0] : Fin 2 → Nat) = fun _ => 0 := by decide

/-- Where `k = 0`: the accumulator ends at the update of the reset (zeros plus the block product), the update's
    load of the accumulator reading the reset back. -/
theorem sout1_A_0_eq (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x4096 .bf16) (x1 : Vec F S4096x256 .bf16) (x2 : Vec F S1x256 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x256) off_zero]
  simp only [View.readAt_eq_ld, harg2.read_unread, harg3.read_unread, harg4.read_unread, harg5.read_unread, harg6.read_unread,
    View.ld_unit_zero (S := S1024x256) off_zero, View.ld_unit_zero (S := S1024x4096) off_zero, View.ld_unit_zero (S := S4096x256) off_zero,
    View.ld_unit_zero (S := S1x256) off_zero, View.readCov_unit_zero (S := S1024x256) _ off_zero]

/-- Where `k` is 1 or 2: the accumulator ends at what the point before left plus the block product. -/
theorem sout1_B_0_eq (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x4096 .bf16) (x1 : Vec F S4096x256 .bf16) (x2 : Vec F S1x256 .f32) (xs0 : Vec F S1024x256 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S1024x256) off_zero]
  simp only [View.readAt_eq_ld, harg2.read_unread, harg3.read_unread, harg4.read_unread, harg5.read_unread, harg6.read_unread,
    View.ld_unit_zero (S := S1024x256) off_zero, View.ld_unit_zero (S := S1024x4096) off_zero, View.ld_unit_zero (S := S4096x256) off_zero,
    View.ld_unit_zero (S := S1x256) off_zero, View.readCov_unit_zero (S := S1024x256) _ off_zero]

/-- Where `k = 3`: the accumulator ends at what the point before left plus the block product, -/
theorem sout1_C_0_eq (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S1024x256) off_zero]
  simp only [View.readAt_eq_ld, harg2.read_unread, harg3.read_unread, harg4.read_unread, harg5.read_unread, harg6.read_unread,
    View.ld_unit_zero (S := S1024x256) off_zero, View.ld_unit_zero (S := S1024x4096) off_zero, View.ld_unit_zero (S := S4096x256) off_zero,
    View.ld_unit_zero (S := S1x256) off_zero, View.readCov_unit_zero (S := S1024x256) _ off_zero]

/-- and the result block at that accumulator plus the bias row, the store's load of the accumulator reading the
    update back. -/
theorem out1_C_3_eq (c : Dev nD) (i : grid1.Coords) (arg2 : Memref sig .tc .vmem S1024x4096 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x4096 .bf16) (x1 : Vec F S4096x256 .bf16) (x2 : Vec F S1x256 .f32) (xs0 : Vec F S1024x256 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1024x256) off_zero]
  simp only [View.readAt_eq_ld, harg2.read_unread, harg3.read_unread, harg4.read_unread, harg5.read_unread, harg6.read_unread,
    View.ld_unit_zero (S := S1024x256) off_zero, View.ld_unit_zero (S := S1024x4096) off_zero, View.ld_unit_zero (S := S4096x256) off_zero,
    View.ld_unit_zero (S := S1x256) off_zero, View.readCov_unit_zero (S := S1024x256) _ off_zero]

end Cert.KernelIdeal.Hand

end
-- ==== Proof.KI.Payloads.lean ====
/-
  The three values the body of the adjacency-times-features stage stores, read at one entry (row r, column j) of a
  [1024, 256] block, over the extended reals.

  The first is the zero block the accumulator starts from: zero at every entry. The second is the accumulator's update:
  the old block's entry plus the product of a [1024, 4096] block of the adjacency with a [4096, 256] block of the
  features, taken into a zero start, so that the entry is the old one plus the sum over the 4096 inner positions of
  adjacency entry (r, kk) times feature entry (kk, j). The third is the last step: the accumulator's entry plus the
  bias row's entry in column j, the one row being read for every r. Shape casts between equal shapes change nothing.
-/
import proofs.«402047_j59931973649025_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.ValueIdx

open scoped BigOperators

/-- The starting block: zero at every entry. -/
theorem pay1_apply (r : Fin 1024) (j : Fin 256) : k1_pay1 (F := Ideal) (ix2 r j) = 0 := by
  unfold k1_pay1
  rw [shapeCast_self]
  exact Ideal.ofBits_zero_f32

/-! The product's index maps, one axis at a time: the left operand is read at (row of the result, inner position), the
    right one at (inner position, column of the result). -/

theorem lhs_pay2_0 (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhs_pay2_1 (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhs_pay2_0 (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhs_pay2_1 (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The product of the two blocks into a zero start, at entry (r, j): the sum over the inner position. -/
theorem matmul_zero_apply (a : FVec Ideal S1024x4096 .bf16) (h : FVec Ideal S4096x256 .bf16) (r : Fin 1024) (j : Fin 256) :
    FloatOps.matmul dot_S1024x4096_S4096x256_S1024x256_1_0_0_1_n_n none a h (constant (F := Ideal) S1024x256 .f32 0x00000000#32) (ix2 r j)
      = ∑ kk : Fin 4096, a (ix2 r kk) * h (ix2 kk j) := by
  rw [Ideal.matmul_constant_zero_apply, ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 r j) ((contrEquiv1 dot_S1024x4096_S4096x256_S1024x256_1_0_0_1_n_n 4096 rfl rfl).symm k) = ix2 r k := funext fun ax => Fin.ext (by
    match ax with
    | ⟨0, _⟩ => exact lhs_pay2_0 _ _
    | ⟨1, _⟩ => exact (lhs_pay2_1 _ _).trans hk)
  have er : dot_S1024x4096_S4096x256_S1024x256_1_0_0_1_n_n.rhsIdx (ix2 r j) ((contrEquiv1 dot_S1024x4096_S4096x256_S1024x256_1_0_0_1_n_n 4096 rfl rfl).symm k) = ix2 k j := funext fun ax => Fin.ext (by
    match ax with
    | ⟨0, _⟩ => exact (rhs_pay2_0 _ _).trans hk
    | ⟨1, _⟩ => exact rhs_pay2_1 _ _)
  rw [el, er]

/-- The accumulator's update: the old entry plus the sum over the inner position of adjacency times feature. -/
theorem pay2_apply (xs : Vec Ideal S1024x256 .f32) (a : Vec Ideal S1024x4096 .bf16) (h : Vec Ideal S4096x256 .bf16)
    (r : Fin 1024) (j : Fin 256) :
    k1_pay2 (F := Ideal) xs a h (ix2 r j) = xs (ix2 r j) + ∑ kk : Fin 4096, a (ix2 r kk) * h (ix2 kk j) := by
  unfold k1_pay2
  rw [shapeCast_self, shapeCast_self, shapeCast_self]
  show FloatOps.addf (xs (ix2 r j)) (FloatOps.matmul dot_S1024x4096_S4096x256_S1024x256_1_0_0_1_n_n none a h (constant (F := Ideal) S1024x256 .f32 0x00000000#32) (ix2 r j)) = _
  rw [Ideal.addf_def, matmul_zero_apply]

/-- The last step: the accumulator's entry plus the bias row's entry in the same column. -/
theorem pay3_apply (acc : Vec Ideal S1024x256 .f32) (b : Vec Ideal S1x256 .f32) (r : Fin 1024) (j : Fin 256) :
    k1_pay3 (F := Ideal) acc b (ix2 r j) = acc (ix2 r j) + b (ix2 (0 : Fin 1) j) := by
  unfold k1_pay3
  rw [shapeCast_self]
  show FloatOps.addf (F := Ideal) (φ := .f32) (acc (ix2 r j)) (broadcastTo S1024x256 b broadcasts_S1x256_S1024x256 (ix2 r j)) = _
  rw [Ideal.addf_def, broadcastTo_1b_ab_apply]

end Cert.KernelIdeal.HandValue
-- ==== Proof.Spec.EdgeLaw.lean ====
/-
  Graph-convolution message passing on the extended reals, in two arrangements.

  Edges e carry a weight n e, a target dst e and a source src e. The edge arrangement sums, for a target row d and a
  feature column j, the source rows' features weighted edge by edge. The dense arrangement first totals the weights of
  the edges between each pair (d, s) into a matrix and then takes its row d against column j of the features. When every
  weight is nonnegative the two agree on the extended reals: a sum of nonnegative terms times any c is the sum of the
  products (no infinity of opposite sign can meet), and the double sum over (s, e) keeps, for each edge, exactly the one
  s that is its source.
-/
import Idealize.ShloMosaic.PureOps.Ideal.Laws

noncomputable section

open scoped BigOperators

namespace Cert.Spec

/-- Row s of x against column j of w. -/
def hmat (x : Fin 16384 → Fin 256 → EReal) (w : Fin 256 → Fin 256 → EReal) (s : Fin 16384) (j : Fin 256) : EReal :=
  ∑ k : Fin 256, x s k * w k j

/-- The edge arrangement: the features of the sources of the edges into d, each times its edge's weight, plus the bias. -/
def edgeForm {E : Type} [Fintype E] (h : Fin 16384 → Fin 256 → EReal) (n : E → EReal) (dst src : E → Fin 16384)
    (b : Fin 256 → EReal) (d : Fin 16384) (j : Fin 256) : EReal :=
  (∑ e ∈ Finset.univ.filter (fun e => dst e = d), h (src e) j * n e) + b j

/-- The dense adjacency: the total weight of the edges from s into d. -/
def dense {E : Type} [Fintype E] (n : E → EReal) (dst src : E → Fin 16384) (d s : Fin 16384) : EReal :=
  ∑ e ∈ Finset.univ.filter (fun e => dst e = d ∧ src e = s), n e

/-- The dense arrangement: row d of the adjacency against column j of the features, plus the bias. -/
def denseForm {E : Type} [Fintype E] (h : Fin 16384 → Fin 256 → EReal) (n : E → EReal) (dst src : E → Fin 16384)
    (b : Fin 256 → EReal) (d : Fin 16384) (j : Fin 256) : EReal :=
  (∑ s : Fin 16384, dense n dst src d s * h s j) + b j

/-- A sum of nonnegative extended reals times any c is the sum of the products: multiplication distributes over the
    sum of two nonnegative terms, and every partial sum of nonnegative terms is nonnegative. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    have h1 : 0 ≤ f a := hf a (Finset.mem_insert_self a s)
    have h2 : 0 ≤ ∑ i ∈ s, f i := Finset.sum_nonneg hs
    rw [Finset.sum_insert ha, Finset.sum_insert ha, EReal.right_distrib_of_nonneg h1 h2, ih hs]

/-- With nonnegative weights the dense arrangement equals the edge arrangement. Each dense entry times a feature is
    the sum over its edges of weight times feature; written over all edges into d with the condition "the source is s",
    the sums over s and over edges are exchanged, and for each edge only s = src e remains. -/
theorem denseForm_eq_edgeForm {E : Type} [Fintype E] (h : Fin 16384 → Fin 256 → EReal) (n : E → EReal)
    (hn : ∀ e, 0 ≤ n e) (dst src : E → Fin 16384) (b : Fin 256 → EReal) (d : Fin 16384) (j : Fin 256) :
    denseForm h n dst src b d j = edgeForm h n dst src b d j := by
  unfold denseForm edgeForm dense
  refine congrArg (fun t => t + b j) ?_
  calc ∑ s : Fin 16384, (∑ e ∈ Finset.univ.filter (fun e => dst e = d ∧ src e = s), n e) * h s j
      = ∑ s : Fin 16384, ∑ e ∈ Finset.univ.filter (fun e => dst e = d),
          (if src e = s then n e * h s j else 0) := by
        refine Finset.sum_congr rfl (fun s _ => ?_)
        rw [sum_mul_of_nonneg _ _ (fun e _ => hn e), ← Finset.filter_filter, Finset.sum_filter]
    _ = ∑ e ∈ Finset.univ.filter (fun e => dst e = d), ∑ s : Fin 16384,
          (if src e = s then n e * h s j else 0) := Finset.sum_comm
    _ = ∑ e ∈ Finset.univ.filter (fun e => dst e = d), h (src e) j * n e := by
        refine Finset.sum_congr rfl (fun e _ => ?_)
        rw [Finset.sum_ite_eq, if_pos (Finset.mem_univ _), mul_comm]

/-- An accumulator started at zero and increased by four terms in order holds their sum. -/
theorem acc4 (S : Fin 4 → EReal) : (((0 + S 0) + S 1) + S 2) + S 3 = ∑ kb : Fin 4, S kb := by
  rw [zero_add, Fin.sum_univ_four]

/-- Position kk of block kb when 16384 positions are cut into 4 blocks of 4096. -/
def blk (kb : Fin 4) (kk : Fin 4096) : Fin 16384 := ⟨kb.val * 4096 + kk.val, by have := kb.isLt; have := kk.isLt; omega⟩

/-- The pairs (block, position in block) are in bijection with the 16384 positions: quotient and remainder by 4096. -/
def blkEquiv : Fin 4 × Fin 4096 ≃ Fin 16384 where
  toFun p := blk p.1 p.2
  invFun s := (⟨s.val / 4096, by have := s.isLt; omega⟩, ⟨s.val % 4096, by omega⟩)
  left_inv := by
    rintro ⟨kb, kk⟩
    have := kb.isLt
    have := kk.isLt
    refine Prod.ext (Fin.ext ?_) (Fin.ext ?_)
    · show (kb.val * 4096 + kk.val) / 4096 = kb.val
      omega
    · show (kb.val * 4096 + kk.val) % 4096 = kk.val
      omega
  right_inv := by
    intro s
    refine Fin.ext ?_
    show s.val / 4096 * 4096 + s.val % 4096 = s.val
    omega

/-- Summing block by block, then inside each block, is summing over all 16384 positions. -/
theorem sum_blk (f : Fin 16384 → EReal) : ∑ kb : Fin 4, ∑ kk : Fin 4096, f (blk kb kk) = ∑ s : Fin 16384, f s := by
  rw [← Fintype.sum_prod_type' (f := fun kb kk => f (blk kb kk))]
  exact Fintype.sum_equiv blkEquiv _ _ (fun _ => rfl)

/-- Row r of row block ib when 16384 rows are cut into 16 blocks of 1024. -/
def rblk (ib : Fin 16) (r : Fin 1024) : Fin 16384 := ⟨ib.val * 1024 + r.val, by have := ib.isLt; have := r.isLt; omega⟩

/-- Row r of row block ib when 16384 rows are cut into 8 blocks of 2048. -/
def rblk8 (ib : Fin 8) (r : Fin 2048) : Fin 16384 := ⟨ib.val * 2048 + r.val, by have := ib.isLt; have := r.isLt; omega⟩

end Cert.Spec
-- ==== Proof.KI.Value1Acc.lean ====
import proofs.«402047_j59931973649025_1_alg».proof.Proof.KI.Region1Pieces
import proofs.«402047_j59931973649025_1_alg».proof.Proof.KI.Payloads
import proofs.«402047_j59931973649025_1_alg».proof.Proof.Spec.EdgeLaw
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec
open scoped BigOperators

/-! # What the second pallas_call accumulates, over the extended reals

Point `t` of the 16 x 4 grid has row block `ib = t / 4` and inner block `kb = t % 4`. Its first input block is rows
`1024 ib …`, columns `4096 kb …` of the adjacency array; its second is rows `4096 kb …` of the feature array; its third
is the bias row. With `S kb` the sum over the 4096 positions `kk` of block `kb` of adjacency entry (row, position)
times feature entry (position, column), the accumulator holds `0 + S 0` after the first point of a row block, and each
later point of the row block adds its `S kb`; the last one stores the accumulator plus the bias into the result block.
Four terms added in order to zero are their sum, and summing block by block is summing over all 16384 positions. -/

variable (V : (c : Dev nD) → (b : Ref sig .tc) → Buf (Elt Ideal) ((c : Thread nD τ).loc b))

/-- The three arrays as the region finds them, at their literal types: adjacency, features, bias row. -/
abbrev aarr1 (c : Dev nD) : S16384x16384.Idx → EReal := V c main_v65
abbrev harr1 (c : Dev nD) : S16384x256.Idx → EReal := V c main_v66
abbrev barr1 (c : Dev nD) : S1x256.Idx → EReal := V c main_v67
/-- The three input blocks at point `t`, at their literal types. -/
abbrev ablk1 (c : Dev nD) (t : Fin cfg1.N) : Vec Ideal S1024x4096 .bf16 := iblk1 V c 0 t
abbrev hblk1 (c : Dev nD) (t : Fin cfg1.N) : Vec Ideal S4096x256 .bf16 := iblk1 V c 1 t
abbrev bblk1 (c : Dev nD) (t : Fin cfg1.N) : Vec Ideal S1x256 .f32 := iblk1 V c 2 t

/-- The row block and the inner block of point `t`. -/
def ibOf1 (t : Fin cfg1.N) : Fin 16 := ⟨t.val / 4, by have := t.isLt; have : cfg1.N = 64 := N_1; omega⟩
def kbOf1 (t : Fin cfg1.N) : Fin 4 := ⟨t.val % 4, Nat.mod_lt _ (by decide)⟩

/-- The input windows' block indices over the grid. -/
theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0 :=
  (by decide +kernel : ∀ t : Fin grid1.N, _)

/-! ## The blocks read off the arrays -/

/-- Entry `(r, kk)` of the adjacency block is entry (row `r` of the row block, position `kk` of the inner block) of the array. -/
theorem ablk1_apply (c : Dev nD) (t : Fin cfg1.N) (r : Fin 1024) (kk : Fin 4096) :
    ablk1 V c t (ix2 r kk) = aarr1 V c (ix2 (rblk (ibOf1 t) r) (blk (kbOf1 t) kk)) := by
  obtain ⟨e0, e1, e2, e3, e4, e5⟩ := idx_facts1 t
  show aarr1 V c (((cfg1.win 0).blk t).view.emb (ix2 r kk)) = _
  refine congrArg (aarr1 V c) (funext fun a => Fin.ext ?_)
  match a with
  | ⟨0, _⟩ => show win1_0.index t (0 : Fin 2) * 1024 + 1 * r.val = t.val / 4 * 1024 + r.val; omega
  | ⟨1, _⟩ => show win1_0.index t (1 : Fin 2) * 4096 + 1 * kk.val = t.val % 4 * 4096 + kk.val; omega

/-- Entry `(kk, j)` of the feature block is entry (position `kk` of the inner block, `j`) of the array. -/
theorem hblk1_apply (c : Dev nD) (t : Fin cfg1.N) (kk : Fin 4096) (j : Fin 256) :
    hblk1 V c t (ix2 kk j) = harr1 V c (ix2 (blk (kbOf1 t) kk) j) := by
  obtain ⟨e0, e1, e2, e3, e4, e5⟩ := idx_facts1 t
  show harr1 V c (((cfg1.win 1).blk t).view.emb (ix2 kk j)) = _
  refine congrArg (harr1 V c) (funext fun a => Fin.ext ?_)
  match a with
  | ⟨0, _⟩ => show win1_1.index t (0 : Fin 2) * 4096 + 1 * kk.val = t.val % 4 * 4096 + kk.val; omega
  | ⟨1, _⟩ => show win1_1.index t (1 : Fin 2) * 256 + 1 * j.val = j.val; omega

/-- The bias block is the bias row. -/
theorem bblk1_apply (c : Dev nD) (t : Fin cfg1.N) (j : Fin 256) :
    bblk1 V c t (ix2 (0 : Fin 1) j) = barr1 V c (ix2 (0 : Fin 1) j) := by
  obtain ⟨e0, e1, e2, e3, e4, e5⟩ := idx_facts1 t
  show barr1 V c (((cfg1.win 2).blk t).view.emb (ix2 (0 : Fin 1) j)) = _
  refine congrArg (barr1 V c) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 256 + 1 * j.val = j.val; omega

/-! ## The block products and their running sum -/

/-- The contribution of inner block `kb` to entry (row `r` of row block `ib`, column `j`). -/
def S1 (c : Dev nD) (ib : Fin 16) (r : Fin 1024) (j : Fin 256) (kb : Fin 4) : EReal :=
  ∑ kk : Fin 4096, aarr1 V c (ix2 (rblk ib r) (blk kb kk)) * harr1 V c (ix2 (blk kb kk) j)

/-- The product of the two blocks of point `t` at entry `(r, j)` is that contribution. -/
theorem bsum1_eq (c : Dev nD) (t : Fin cfg1.N) (r : Fin 1024) (j : Fin 256) :
    (∑ kk : Fin 4096, ablk1 V c t (ix2 r kk) * hblk1 V c t (ix2 kk j)) = S1 V c (ibOf1 t) r j (kbOf1 t) :=
  Finset.sum_congr rfl fun kk _ => congrArg₂ (fun a b : EReal => a * b) (ablk1_apply V c t r kk) (hblk1_apply V c t kk j)

/-- Zero increased by the first `k + 1` of four terms, in order. -/
def pacc4 (S : Fin 4 → EReal) (k : Fin 4) : EReal :=
  match k with
  | ⟨0, _⟩ => 0 + S 0
  | ⟨1, _⟩ => (0 + S 0) + S 1
  | ⟨2, _⟩ => ((0 + S 0) + S 1) + S 2
  | ⟨3, _⟩ => (((0 + S 0) + S 1) + S 2) + S 3

theorem pacc4_zero (S : Fin 4 → EReal) (k : Fin 4) (h : k.val = 0) : pacc4 S k = 0 + S k := by
  obtain rfl : k = 0 := Fin.ext h
  rfl

theorem pacc4_succ (S : Fin 4 → EReal) (k k' : Fin 4) (h : k.val = k'.val + 1) : pacc4 S k = pacc4 S k' + S k := by
  match k, k', h with
  | ⟨1, _⟩, ⟨0, _⟩, _ => rfl
  | ⟨2, _⟩, ⟨1, _⟩, _ => rfl
  | ⟨3, _⟩, ⟨2, _⟩, _ => rfl

theorem pacc4_last (S : Fin 4 → EReal) (k : Fin 4) (h : k.val = 3) : pacc4 S k = ∑ kb : Fin 4, S kb := by
  obtain rfl : k = 3 := Fin.ext h
  exact acc4 S

/-! ## One point's step, read at an entry -/

/-- At the first point of a row block the accumulator ends at zero plus the point's block product. -/
theorem scr_first (c : Dev nD) (t : Fin cfg1.N) (h0 : t.val % 4 = 0) (h1 : ¬t.val % 4 = 3) (r : Fin 1024) (j : Fin 256) :
    (outsAt1 (F := Ideal) V c t.val t.isLt).2 (ix2 r j) = 0 + S1 V c (ibOf1 t) r j (kbOf1 t) := by
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (ablk1 V c t) (hblk1 V c t) (bblk1 V c t)) (ix2 r j)).trans ?_
  rw [pay2_apply, pay1_apply, bsum1_eq]

/-- At a later point of a row block it ends at what the point before left plus the point's block product. -/
theorem scr_later (c : Dev nD) (t : Fin cfg1.N) (h0 : ¬t.val % 4 = 0) (r : Fin 1024) (j : Fin 256) :
    (outsAt1 (F := Ideal) V c t.val t.isLt).2 (ix2 r j)
      = (outsAt1 (F := Ideal) V c (t.val - 1) (Nat.lt_of_le_of_lt (Nat.sub_le _ _) t.isLt)).2 (ix2 r j) + S1 V c (ibOf1 t) r j (kbOf1 t) := by
  by_cases h1 : t.val % 4 = 3
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (ablk1 V c t) (hblk1 V c t) (bblk1 V c t) (outsAt1 (F := Ideal) V c (t.val - 1) (Nat.lt_of_le_of_lt (Nat.sub_le _ _) t.isLt)).2) (ix2 r j)).trans ?_
    rw [pay2_apply, bsum1_eq]
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (ablk1 V c t) (hblk1 V c t) (bblk1 V c t) (outsAt1 (F := Ideal) V c (t.val - 1) (Nat.lt_of_le_of_lt (Nat.sub_le _ _) t.isLt)).2) (ix2 r j)).trans ?_
    rw [pay2_apply, bsum1_eq]

/-- At the last point of a row block the result block ends at the accumulator plus the bias row. -/
theorem out_last (c : Dev nD) (t : Fin cfg1.N) (h0 : ¬t.val % 4 = 0) (h1 : t.val % 4 = 3) (r : Fin 1024) (j : Fin 256) :
    (outsAt1 (F := Ideal) V c t.val t.isLt).1 (ix2 r j)
      = (outsAt1 (F := Ideal) V c t.val t.isLt).2 (ix2 r j) + barr1 V c (ix2 (0 : Fin 1) j) := by
  rw [outsAt1_C V c t h0 h1]
  dsimp only
  rw [out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (ablk1 V c t) (hblk1 V c t) (bblk1 V c t) (outsAt1 (F := Ideal) V c (t.val - 1) (Nat.lt_of_le_of_lt (Nat.sub_le _ _) t.isLt)).2,
    sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (ablk1 V c t) (hblk1 V c t) (bblk1 V c t) (outsAt1 (F := Ideal) V c (t.val - 1) (Nat.lt_of_le_of_lt (Nat.sub_le _ _) t.isLt)).2]
  rw [pay3_apply, bblk1_apply]

/-! ## The accumulator after every point -/

/-- After point `t` the accumulator holds, at entry `(r, j)`, zero increased in order by the contributions of the
    inner blocks `0 … t % 4` of row block `t / 4`: by induction on the point. -/
theorem scr_eq (c : Dev nD) (r : Fin 1024) (j : Fin 256) : ∀ (n : ℕ) (t : Fin cfg1.N), t.val = n →
    (outsAt1 (F := Ideal) V c t.val t.isLt).2 (ix2 r j) = pacc4 (S1 V c (ibOf1 t) r j) (kbOf1 t) := by
  intro n
  induction n with
  | zero =>
    intro t ht
    have h0 : t.val % 4 = 0 := by omega
    rw [scr_first V c t h0 (by omega) r j]
    exact (pacc4_zero _ _ h0).symm
  | succ n ih =>
    intro t ht
    by_cases h0 : t.val % 4 = 0
    · rw [scr_first V c t h0 (by omega) r j]
      exact (pacc4_zero _ _ h0).symm
    · have ih' := ih ⟨t.val - 1, Nat.lt_of_le_of_lt (Nat.sub_le _ _) t.isLt⟩ (by show t.val - 1 = n; omega)
      have hib : ibOf1 ⟨t.val - 1, Nat.lt_of_le_of_lt (Nat.sub_le _ _) t.isLt⟩ = ibOf1 t :=
        Fin.ext (by show (t.val - 1) / 4 = t.val / 4; omega)
      rw [hib] at ih'
      rw [scr_later V c t h0 r j]
      refine (congrArg (· + S1 V c (ibOf1 t) r j (kbOf1 t)) ih').trans ?_
      exact (pacc4_succ _ (kbOf1 t) (kbOf1 ⟨t.val - 1, Nat.lt_of_le_of_lt (Nat.sub_le _ _) t.isLt⟩)
        (by show t.val % 4 = (t.val - 1) % 4 + 1; omega)).symm

/-! ## The result block at a writing point -/

/-- At the last point of row block `ib` the result block holds, at entry `(r, j)`, the full contraction of row
    `1024 ib + r` of the adjacency array with column `j` of the feature array, plus the bias entry of column `j`. -/
theorem outsAt1_out (c : Dev nD) (t : Fin cfg1.N) (h3 : t.val % 4 = 3) (r : Fin 1024) (j : Fin 256) :
    (outsAt1 (F := Ideal) V c t.val t.isLt).1 (ix2 r j)
      = (∑ s : Fin 16384, (show S16384x16384.Idx → EReal from V c main_v65) (ix2 (Cert.Spec.rblk ⟨t.val / 4, by have := t.isLt; have : cfg1.N = 64 := N_1; omega⟩ r) s) * (show S16384x256.Idx → EReal from V c main_v66) (ix2 s j))
        + (show S1x256.Idx → EReal from V c main_v67) (ix2 (0 : Fin 1) j) := by
  rw [out_last V c t (by omega) h3 r j, scr_eq V c r j t.val t rfl, pacc4_last _ _ h3]
  refine congrArg (· + barr1 V c (ix2 (0 : Fin 1) j)) ?_
  exact sum_blk (fun s => aarr1 V c (ix2 (rblk (ibOf1 t) r) s) * harr1 V c (ix2 s j))

end Cert.KernelIdeal.HandValue

end
-- ==== Proof.KI.Value1.lean ====
/-
  The result array of the adjacency-times-features stage, from its blocks.

  The stage runs over a 16 x 4 grid: point t works on row block t / 4 and inner block t % 4, and writes its [1024, 256]
  result block back to rows 1024 (t / 4) … of the [16384, 256] result array exactly at the last inner block,
  t % 4 = 3. What it writes there is, entry by entry, the whole sum over the 16384 source positions of adjacency entry
  (row, position) times feature entry (position, column), plus the bias row's entry. So every written block is the
  restriction to its rows of ONE function of the three input arrays; row d lies in the block written at point
  4 (d / 1024) + 3; hence the array ends holding that function at every entry.
-/
import proofs.«402047_j59931973649025_1_alg».proof.Proof.KI.Value1Acc
import proofs.«402047_j59931973649025_1_alg».proof.Proof.KI.Region1
import proofs.«402047_j59931973649025_1_alg».proof.Proof.Spec.EdgeLaw
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Entry (d, j) of the adjacency times the features, plus the bias row's entry in column j. -/
def resAt1 (c : Dev nD) (d : Fin 16384) (j : Fin 256) : EReal :=
  (∑ s : Fin 16384, (show S16384x16384.Idx → EReal from V c main_v65) (ix2 d s) * (show S16384x256.Idx → EReal from V c main_v66) (ix2 s j))
    + (show S1x256.Idx → EReal from V c main_v67) (ix2 (0 : Fin 1) j)

/-- The whole result array as one function of the three input arrays. -/
def resArr1 (c : Dev nD) : S16384x256.Idx → EReal :=
  fun i => resAt1 V c ⟨(i 0).val, (i 0).isLt⟩ ⟨(i 1).val, (i 1).isLt⟩

/-- The array function at an index whose coordinates are d and j. -/
theorem resArr1_at (c : Dev nD) (i : S16384x256.Idx) (d : Fin 16384) (j : Fin 256) (h0 : (i 0).val = d.val) (h1 : (i 1).val = j.val) :
    resArr1 V c i = resAt1 V c d j := by
  show resAt1 V c ⟨(i 0).val, (i 0).isLt⟩ ⟨(i 1).val, (i 1).isLt⟩ = _
  rw [show (⟨(i 0).val, (i 0).isLt⟩ : Fin 16384) = d from Fin.ext h0, show (⟨(i 1).val, (i 1).isLt⟩ : Fin 256) = j from Fin.ext h1]

/-- The result window's block index at grid point t: row block t / 4, the one column block. -/
theorem idx_res1 : ∀ t : Fin cfg1.N, win1_3.index t (0 : Fin 2) = t.val / 4 ∧ win1_3.index t (1 : Fin 2) = 0 :=
  (by decide +kernel : ∀ t : Fin grid1.N, win1_3.index t (0 : Fin 2) = t.val / 4 ∧ win1_3.index t (1 : Fin 2) = 0)

/-- WHAT A WRITING POINT WRITES BACK is its block of the array function: entry (r, j) of the block is entry
    (1024 (t / 4) + r, j) of the array. -/
theorem flushed_res1_eq (c : Dev nD) (t : Fin cfg1.N) (hf : (cfg1.win 3).flush t = true) :
    (dat1 (F := Ideal) V c).flushed 3 t = ((cfg1.win 3).blk t).view.read (Elt Ideal) (resArr1 V c) := by
  have h3 : t.val % 4 = 3 := (flush1_3 t).mp hf
  show (cfg1.win 3).cut (grid1.coords t) ((dat1 (F := Ideal) V c).after 3 t) = _
  rw [after1_3]
  funext y
  have hy0 : (y 0).val < 1024 := (y 0).isLt
  have hy1 : (y 1).val < 256 := (y 1).isLt
  obtain ⟨e0, e1⟩ := idx_res1 t
  -- entry y of the cut block is entry (y 0, y 1) of the buffer
  have hL : (cfg1.win 3).cut (grid1.coords t) ((outsAt1 (F := Ideal) V c t.val t.isLt).1) y
      = (outsAt1 (F := Ideal) V c t.val t.isLt).1 (ix2 (⟨(y 0).val, hy0⟩ : Fin 1024) (⟨(y 1).val, hy1⟩ : Fin 256)) :=
    congrArg (outsAt1 (F := Ideal) V c t.val t.isLt).1 (funext fun a => by match a with | ⟨0, _⟩ => rfl | ⟨1, _⟩ => rfl)
  rw [hL, View.read_apply]
  refine (outsAt1_out V c t h3 _ _).trans (resArr1_at V c _ _ _ ?_ ?_).symm
  · show win1_3.index t (0 : Fin 2) * 1024 + 1 * (y 0).val = (t.val / 4) * 1024 + (y 0).val
    rw [e0]; omega
  · show win1_3.index t (1 : Fin 2) * 256 + 1 * (y 1).val = (y 1).val
    rw [e1]; omega

/-- An index of the result array is in point t's block iff each coordinate is in the block's range on its axis. -/
theorem mem_blk_res1 (t : Fin cfg1.N) (i : S16384x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v68).slice (win1_3.rect t)).set ↔ _
  rw [View.set_slice_whole, Rect.mem_set_unit]
  exact Iff.rfl

/-- Every entry of the result array lies in the block of a point that writes back: row d in the block of point
    4 (d / 1024) + 3. -/
theorem cover_res1 (i : S16384x256.Idx) : ∃ t : Fin cfg1.N, (cfg1.win 3).flush t = true ∧ i ∈ ((cfg1.win 3).blk t).view.set := by
  have hN : cfg1.N = 64 := N_1
  have hi0 : (i 0).val < 16384 := (i 0).isLt
  have hi1 : (i 1).val < 256 := (i 1).isLt
  obtain ⟨t, ht⟩ : ∃ t : Fin cfg1.N, t.val = 4 * ((i 0).val / 1024) + 3 := ⟨⟨4 * ((i 0).val / 1024) + 3, by omega⟩, rfl⟩
  refine ⟨t, (flush1_3 t).mpr (by omega), ?_⟩
  rw [mem_blk_res1]
  obtain ⟨e0, e1⟩ := idx_res1 t
  intro a
  match a with
  | ⟨0, _⟩ => show win1_3.index t (0 : Fin 2) * 1024 ≤ (i 0).val ∧ (i 0).val < win1_3.index t (0 : Fin 2) * 1024 + 1024; rw [e0]; omega
  | ⟨1, _⟩ => show win1_3.index t (1 : Fin 2) * 256 ≤ (i 1).val ∧ (i 1).val < win1_3.index t (1 : Fin 2) * 256 + 256; rw [e1]; omega

/-- The result array after the run is the array function. -/
theorem final_res1 (c : Dev nD) : (dat1 (F := Ideal) V c).arrAt 3 cfg1.N = resArr1 V c :=
  (dat1 (F := Ideal) V c).arrAt_eq_of_cover 3 (resArr1 V c) (fun t hf => flushed_res1_eq V c t hf) (cover_res1)

/-- THE RESULT ARRAY AT AN ENTRY: row d of the adjacency against column j of the features, plus the bias. -/
theorem out_apply (c : Dev nD) (d : Fin 16384) (j : Fin 256) :
    (show S16384x256.Idx → EReal from (dat1 (F := Ideal) V c).arrAt 3 cfg1.N) (ix2 d j)
      = (∑ s : Fin 16384, (show S16384x16384.Idx → EReal from V c main_v65) (ix2 d s) * (show S16384x256.Idx → EReal from V c main_v66) (ix2 s j))
        + (show S1x256.Idx → EReal from V c main_v67) (ix2 (0 : Fin 1) j) := by
  show (dat1 (F := Ideal) V c).arrAt 3 cfg1.N (ix2 d j) = resAt1 V c d j
  rw [final_res1]
  exact resArr1_at V c (ix2 d j) d j rfl rfl

end Cert.KernelIdeal.HandValue
-- ==== Proof.RefRead.lean ====
/-
  The reference's result read one operation at a time: this module only gathers the run of the reference program
  and its read-at-an-index lemmas, for the modules that state what the reference computes.
-/
import proofs.«402047_j59931973649025_1_alg».proof.Proof.RefRunP
import proofs.«402047_j59931973649025_1_alg».proof.Proof.RefReadP
-- ==== Proof.KI.HostPrefix.lean ====
import proofs.«402047_j59931973649025_1_alg».proof.Proof.Gen.KernelIdeal.Regions
import proofs.«402047_j59931973649025_1_alg».proof.Proof.RefRead
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.SL.Sem
open Cert.ReferenceIdeal.ReadP (val_main_v1 val_main_v3 val_main_v19 val_main_v20 val_main_v21 val_main_v22 val_main_v23 val_main_v24 val_main_v27 val_main_v29 val_main_v32 val_main_v33 val_main_cst_6)

variable {F : FTy → Type} [FloatOps F]

/-! # The kernel program's first two host stretches compute the reference's stage values

Both programs begin with the same thirty-odd host operations on the edge table and the block labels: the two rows of
the table, the 0/1 mask of the edges inside one block, the identity indices of the self loops, the three
concatenations (sources, targets, 0/1 weights with ones appended), the degree as a scatter-add of the weights at the
targets, and its inverse square root where positive. Operation for operation the two lists apply the same function to
the same operands, so each buffer the kernel program has written holds the reference's stage value of the launch
contents of the two integer arguments. The list is read in three pieces — up to the identity indices, the
concatenations, the degree and what follows — each piece at an arbitrary valuation, with the values carried from the
piece before as hypotheses. -/

/-- Running a list in two parts. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- Running a list cut after its first `n` operations. -/
theorem after_split (n : ℕ) (l : List (HloOp τ sig (Elt F))) (W : Valuation τ sig (Elt F)) :
    StableHlo.after l W = StableHlo.after (l.drop n) (StableHlo.after (l.take n) W) := by
  rw [← after_append, List.take_append_drop]

/-! ## First piece: the table's rows, the mask, the identity indices -/

set_option maxHeartbeats 400000 in
theorem st1_v1 (W : Valuation τ sig (Elt F)) :
    StableHlo.after ((hostOps0 (F := F)).take 25) W (Proc.devRef .tc main_v1)
      = val_main_v1 (F := F) (W (Proc.devRef .tc main_arg3)) := by
  dsimp only [hostOps0, List.take]
  open Idealize.ShloMosaic.StableHlo in after_results_simp
  all_goals rfl

set_option maxHeartbeats 400000 in
theorem st1_v20 (W : Valuation τ sig (Elt F)) :
    StableHlo.after ((hostOps0 (F := F)).take 25) W (Proc.devRef .tc main_v20) = val_main_v20 (F := F) := by
  dsimp only [hostOps0, List.take]
  open Idealize.ShloMosaic.StableHlo in after_results_simp
  all_goals rfl

set_option maxHeartbeats 400000 in
theorem st1_v3 (W : Valuation τ sig (Elt F)) :
    StableHlo.after ((hostOps0 (F := F)).take 25) W (Proc.devRef .tc main_v3) = val_main_v3 (F := F) (W (Proc.devRef .tc main_arg3)) := by
  dsimp only [hostOps0, List.take]
  open Idealize.ShloMosaic.StableHlo in after_results_simp
  all_goals rfl

set_option maxHeartbeats 400000 in
theorem st1_v19 (W : Valuation τ sig (Elt F)) :
    StableHlo.after ((hostOps0 (F := F)).take 25) W (Proc.devRef .tc main_v19)
      = val_main_v19 (F := F) (W (Proc.devRef .tc main_arg3)) (W (Proc.devRef .tc main_arg4)) := by
  dsimp only [hostOps0, List.take]
  open Idealize.ShloMosaic.StableHlo in after_results_simp
  all_goals rfl

/-! ## Second piece: the three concatenations -/

set_option maxHeartbeats 400000 in
/-- The sources with the self loops' appended. -/
theorem st2_v21 (W : Valuation τ sig (Elt F)) (x3 : (⟨Cert.ReferenceIdeal.S2x262144, .i32⟩ : BufTy).Contents (Elt F))
    (h1 : W (Proc.devRef .tc main_v1) = val_main_v1 (F := F) x3) (h20 : W (Proc.devRef .tc main_v20) = val_main_v20 (F := F)) :
    StableHlo.after (((hostOps0 (F := F)).drop 25).take 5) W (Proc.devRef .tc main_v21) = val_main_v21 (F := F) x3 := by
  dsimp only [hostOps0, List.take, List.drop]
  open Idealize.ShloMosaic.StableHlo in after_results
  rw [h1, h20]
  rfl

set_option maxHeartbeats 400000 in
/-- The targets with the self loops' appended. -/
theorem st2_v22 (W : Valuation τ sig (Elt F)) (x3 : (⟨Cert.ReferenceIdeal.S2x262144, .i32⟩ : BufTy).Contents (Elt F))
    (h3 : W (Proc.devRef .tc main_v3) = val_main_v3 (F := F) x3) (h20 : W (Proc.devRef .tc main_v20) = val_main_v20 (F := F)) :
    StableHlo.after (((hostOps0 (F := F)).drop 25).take 5) W (Proc.devRef .tc main_v22) = val_main_v22 (F := F) x3 := by
  dsimp only [hostOps0, List.take, List.drop]
  open Idealize.ShloMosaic.StableHlo in after_results
  rw [h3, h20]
  rfl

set_option maxHeartbeats 400000 in
/-- The 0/1 weights with the self loops' ones appended. -/
theorem st2_v24 (W : Valuation τ sig (Elt F)) (x3 : (⟨Cert.ReferenceIdeal.S2x262144, .i32⟩ : BufTy).Contents (Elt F)) (x4 : (⟨Cert.ReferenceIdeal.S16384, .i32⟩ : BufTy).Contents (Elt F))
    (h19 : W (Proc.devRef .tc main_v19) = val_main_v19 (F := F) x3 x4) :
    StableHlo.after (((hostOps0 (F := F)).drop 25).take 5) W (Proc.devRef .tc main_v24) = val_main_v24 (F := F) x3 x4 := by
  dsimp only [hostOps0, List.take, List.drop]
  open Idealize.ShloMosaic.StableHlo in after_results
  rw [h19]
  rfl

/-! ## Third piece: the degree and what is computed from it -/

set_option maxHeartbeats 400000 in
/-- The third piece writes none of the three concatenations. -/
theorem st3_keep21 (W : Valuation τ sig (Elt F)) :
    StableHlo.after (((hostOps0 (F := F)).drop 25).drop 5) W (Proc.devRef .tc main_v21) = W (Proc.devRef .tc main_v21) := by
  dsimp only [hostOps0, List.drop]
  open Idealize.ShloMosaic.StableHlo in after_results_simp
set_option maxHeartbeats 400000 in
theorem st3_keep22 (W : Valuation τ sig (Elt F)) :
    StableHlo.after (((hostOps0 (F := F)).drop 25).drop 5) W (Proc.devRef .tc main_v22) = W (Proc.devRef .tc main_v22) := by
  dsimp only [hostOps0, List.drop]
  open Idealize.ShloMosaic.StableHlo in after_results_simp
set_option maxHeartbeats 400000 in
theorem st3_keep24 (W : Valuation τ sig (Elt F)) :
    StableHlo.after (((hostOps0 (F := F)).drop 25).drop 5) W (Proc.devRef .tc main_v24) = W (Proc.devRef .tc main_v24) := by
  dsimp only [hostOps0, List.drop]
  open Idealize.ShloMosaic.StableHlo in after_results_simp

set_option maxHeartbeats 400000 in
/-- Where the degree is positive. -/
theorem st3_v29 (W : Valuation τ sig (Elt F)) (x3 : (⟨Cert.ReferenceIdeal.S2x262144, .i32⟩ : BufTy).Contents (Elt F)) (x4 : (⟨Cert.ReferenceIdeal.S16384, .i32⟩ : BufTy).Contents (Elt F))
    (h22 : W (Proc.devRef .tc main_v22) = val_main_v22 (F := F) x3) (h24 : W (Proc.devRef .tc main_v24) = val_main_v24 (F := F) x3 x4) :
    StableHlo.after (((hostOps0 (F := F)).drop 25).drop 5) W (Proc.devRef .tc main_v29) = val_main_v29 (F := F) x3 x4 := by
  dsimp only [hostOps0, List.drop]
  open Idealize.ShloMosaic.StableHlo in after_results_simp
  rw [h22, h24]
  rfl

set_option maxHeartbeats 400000 in
/-- The inverse square root of the degree, bounded below. -/
theorem st3_v32 (W : Valuation τ sig (Elt F)) (x3 : (⟨Cert.ReferenceIdeal.S2x262144, .i32⟩ : BufTy).Contents (Elt F)) (x4 : (⟨Cert.ReferenceIdeal.S16384, .i32⟩ : BufTy).Contents (Elt F))
    (h22 : W (Proc.devRef .tc main_v22) = val_main_v22 (F := F) x3) (h24 : W (Proc.devRef .tc main_v24) = val_main_v24 (F := F) x3 x4) :
    StableHlo.after (((hostOps0 (F := F)).drop 25).drop 5) W (Proc.devRef .tc main_v32) = val_main_v32 (F := F) x3 x4 := by
  dsimp only [hostOps0, List.drop]
  open Idealize.ShloMosaic.StableHlo in after_results_simp
  rw [h22, h24]
  rfl

set_option maxHeartbeats 400000 in
/-- The zero the selection falls back to. -/
theorem st3_cst6 (W : Valuation τ sig (Elt F)) :
    StableHlo.after (((hostOps0 (F := F)).drop 25).drop 5) W (Proc.devRef .tc main_cst_6) = val_main_cst_6 (F := F) := by
  dsimp only [hostOps0, List.drop]
  open Idealize.ShloMosaic.StableHlo in after_results_simp
  all_goals rfl

/-! ## The first stretch, assembled -/

/-- The first stretch run piece by piece. -/
theorem hostOps0_pieces (W : Valuation τ sig (Elt F)) :
    StableHlo.after (hostOps0 (F := F)) W = StableHlo.after (((hostOps0 (F := F)).drop 25).drop 5) (StableHlo.after (((hostOps0 (F := F)).drop 25).take 5) (StableHlo.after ((hostOps0 (F := F)).take 25) W)) :=
  (after_split 25 (hostOps0 (F := F)) W).trans (after_split 5 ((hostOps0 (F := F)).drop 25) _)

theorem V1_v21 (W : Valuation τ sig (Elt F)) :
    StableHlo.after (hostOps0 (F := F)) W (Proc.devRef .tc main_v21) = val_main_v21 (F := F) (W (Proc.devRef .tc main_arg3)) :=
  (congrFun (hostOps0_pieces W) _).trans ((st3_keep21 _).trans (st2_v21 _ _ (st1_v1 W) (st1_v20 W)))

theorem V1_v22 (W : Valuation τ sig (Elt F)) :
    StableHlo.after (hostOps0 (F := F)) W (Proc.devRef .tc main_v22) = val_main_v22 (F := F) (W (Proc.devRef .tc main_arg3)) :=
  (congrFun (hostOps0_pieces W) _).trans ((st3_keep22 _).trans (st2_v22 _ _ (st1_v3 W) (st1_v20 W)))

theorem V1_v24 (W : Valuation τ sig (Elt F)) :
    StableHlo.after (hostOps0 (F := F)) W (Proc.devRef .tc main_v24)
      = val_main_v24 (F := F) (W (Proc.devRef .tc main_arg3)) (W (Proc.devRef .tc main_arg4)) :=
  (congrFun (hostOps0_pieces W) _).trans ((st3_keep24 _).trans (st2_v24 _ _ _ (st1_v19 W)))

theorem V1_v29 (W : Valuation τ sig (Elt F)) :
    StableHlo.after (hostOps0 (F := F)) W (Proc.devRef .tc main_v29)
      = val_main_v29 (F := F) (W (Proc.devRef .tc main_arg3)) (W (Proc.devRef .tc main_arg4)) :=
  (congrFun (hostOps0_pieces W) _).trans
    (st3_v29 _ _ _ (st2_v22 _ _ (st1_v3 W) (st1_v20 W)) (st2_v24 _ _ _ (st1_v19 W)))

theorem V1_v32 (W : Valuation τ sig (Elt F)) :
    StableHlo.after (hostOps0 (F := F)) W (Proc.devRef .tc main_v32)
      = val_main_v32 (F := F) (W (Proc.devRef .tc main_arg3)) (W (Proc.devRef .tc main_arg4)) :=
  (congrFun (hostOps0_pieces W) _).trans
    (st3_v32 _ _ _ (st2_v22 _ _ (st1_v3 W) (st1_v20 W)) (st2_v24 _ _ _ (st1_v19 W)))

theorem V1_cst6 (W : Valuation τ sig (Elt F)) :
    StableHlo.after (hostOps0 (F := F)) W (Proc.devRef .tc main_cst_6) = val_main_cst_6 (F := F) :=
  (congrFun (hostOps0_pieces W) _).trans (st3_cst6 _)

/-! ## The second stretch: the selection of the inverse square root where the degree is positive -/

/-- The second stretch writes only its own three buffers. -/
theorem call_keep (W : Valuation τ sig (Elt F)) (r : Ref sig .tc) (hr : r ∉ hostOps0_1_W) :
    StableHlo.after (hostOps0_1 (F := F)) W (Proc.devRef .tc r) = W (Proc.devRef .tc r) :=
  StableHlo.after_of_writes_sub _ W hostOps0_1_writes hr

set_option maxHeartbeats 400000 in
theorem call_v33 (W : Valuation τ sig (Elt F)) (x3 : (⟨Cert.ReferenceIdeal.S2x262144, .i32⟩ : BufTy).Contents (Elt F)) (x4 : (⟨Cert.ReferenceIdeal.S16384, .i32⟩ : BufTy).Contents (Elt F))
    (h29 : W (Proc.devRef .tc main_v29) = val_main_v29 (F := F) x3 x4) (h32 : W (Proc.devRef .tc main_v32) = val_main_v32 (F := F) x3 x4)
    (h6 : W (Proc.devRef .tc main_cst_6) = val_main_cst_6 (F := F)) :
    StableHlo.after (hostOps0_1 (F := F)) W (Proc.devRef .tc main_v33) = val_main_v33 (F := F) x3 x4 := by
  dsimp only [hostOps0_1]
  open Idealize.ShloMosaic.StableHlo in after_results_simp
  rw [h29, h32, h6]
  rfl

/-! ## What the two stretches leave, from any launch memory -/

variable (m : (ℓ : Loc nD τ sig) → Buf (Elt F) ℓ) (c : Dev nD)

/-- The sources. -/
theorem V2_v21 : Gen.V2 m c (Proc.devRef .tc main_v21) = val_main_v21 (F := F) (m ((c : Thread nD τ).loc main_arg3)) :=
  (call_keep _ main_v21 (by decide)).trans (V1_v21 (Gen.V0 m c))
/-- The targets. -/
theorem V2_v22 : Gen.V2 m c (Proc.devRef .tc main_v22) = val_main_v22 (F := F) (m ((c : Thread nD τ).loc main_arg3)) :=
  (call_keep _ main_v22 (by decide)).trans (V1_v22 (Gen.V0 m c))
/-- The 0/1 weights. -/
theorem V2_v24 : Gen.V2 m c (Proc.devRef .tc main_v24)
    = val_main_v24 (F := F) (m ((c : Thread nD τ).loc main_arg3)) (m ((c : Thread nD τ).loc main_arg4)) :=
  (call_keep _ main_v24 (by decide)).trans (V1_v24 (Gen.V0 m c))
/-- The inverse square root of the degree where it is positive, zero elsewhere. -/
theorem V2_v33 : Gen.V2 m c (Proc.devRef .tc main_v33)
    = val_main_v33 (F := F) (m ((c : Thread nD τ).loc main_arg3)) (m ((c : Thread nD τ).loc main_arg4)) :=
  call_v33 _ _ _ (V1_v29 (Gen.V0 m c)) (V1_v32 (Gen.V0 m c)) (V1_cst6 (Gen.V0 m c))

end Cert.KernelIdeal.HandValue

end
-- ==== Proof.Spec.InRange.lean ====
/-
  The domain of the edge list: every entry of the [2, 262144] table of node indices names a node, 0 ≤ entry < 16384.
  Outside it the reference itself indexes its node arrays out of range.
-/
import Idealize.ShloMosaic.PureOps

namespace Cert.Spec

open Idealize.ShloMosaic

/-- Every entry of the edge table, read as a signed integer, is a node index. -/
def InRange (ei : IVec (⟨2, ![2, 262144]⟩ : Shape) 32) : Prop :=
  ∀ k, 0 ≤ (ei k).toInt ∧ (ei k).toInt < 16384

end Cert.Spec
-- ==== Proof.ChainFacts.lean ====
/-
  The part of the computation the two programs share: from the edge table and the block labels, each edge's weight,
  its target node and its source node. (Edges 0 … 262143 are the table's columns; edges 262144 … 278527 are the self
  loops, one per node.)

  When every entry of the edge table is a node index, an edge's target and source, read as signed integers, are node
  indices too (a self loop's are its node), and bringing a negative index into range, which both programs do before
  some of their reads, changes nothing.
-/
import proofs.«402047_j59931973649025_1_alg».proof.Proof.RefRead
import proofs.«402047_j59931973649025_1_alg».proof.Proof.Spec.InRange
import Idealize.ShloMosaic.Lib.ValueIdx
import Idealize.ShloMosaic.Lib.Pipeline.Value
import Idealize.ShloMosaic.Lib.StableHlo.Predicate

noncomputable section

namespace Cert.Chain

open Cert.ReferenceIdeal Cert.ReferenceIdeal.ReadP Idealize.ShloMosaic Idealize.ShloMosaic.ValueIdx

/-- The edge table and the block labels, as the programs hold them at the ideal instance. -/
abbrev EI : Type := (⟨S2x262144, .i32⟩ : BufTy).Contents (Elt Ideal)
abbrev SEC : Type := (⟨S16384, .i32⟩ : BufTy).Contents (Elt Ideal)

/-- Edge `e`'s weight. -/
def nrm (ei : EI) (sec : SEC) (e : Fin 278528) : EReal := val_main_v49 (F := Ideal) ei sec (ix1 e)

/-- Edge `e`'s target node (its entry read as a signed integer; brought into range, which changes nothing on the domain). -/
def dstF (ei : EI) (e : Fin 278528) : Fin 16384 :=
  ⟨min (val_main_v22 (F := Ideal) ei (ix1 e)).toInt.toNat 16383, by omega⟩

/-- Edge `e`'s source node. -/
def srcF (ei : EI) (e : Fin 278528) : Fin 16384 :=
  ⟨min (val_main_v21 (F := Ideal) ei (ix1 e)).toInt.toNat 16383, by omega⟩

/-! ## Every entry of the sources and of the targets is a node index -/

/-- A word whose signed reading is not negative is not below zero in the signed order. -/
theorem slt_zero_of_nonneg {w : BitVec 32} (h : 0 ≤ w.toInt) : IntOp.cmpi .slt w 0#32 = 0#1 := by
  have h0 : (0#32).toInt = 0 := by decide
  have hb : w.slt 0#32 = false := by
    simp only [BitVec.slt, h0]
    exact decide_eq_false (by omega)
  simp only [IntOp.cmpi, hb]
  rfl

/-- The table's row 0 (the sources of the listed edges): every entry is an entry of the table. -/
theorem v1_range (ei : EI) (hr : Cert.Spec.InRange ei) (i : S262144.Idx) :
    0 ≤ (val_main_v1 (F := Ideal) ei i).toInt ∧ (val_main_v1 (F := Ideal) ei i).toInt < 16384 := by
  rw [val_main_v1_apply, val_main_v0_apply]
  exact hr _

/-- The table's row 1 (the targets of the listed edges). -/
theorem v3_range (ei : EI) (hr : Cert.Spec.InRange ei) (i : S262144.Idx) :
    0 ≤ (val_main_v3 (F := Ideal) ei i).toInt ∧ (val_main_v3 (F := Ideal) ei i).toInt < 16384 := by
  rw [val_main_v3_apply, val_main_v2_apply]
  exact hr _

/-- The node numbers 0 … 16383, as words, read signed as themselves. -/
theorem v20_toInt (i : S16384.Idx) : (val_main_v20 (F := Ideal) i).toInt = ((i 0).val : Int) := by
  have hi : (i 0).val < 16384 := (i 0).isLt
  rw [val_main_v20_apply, StableHlo.Predicate.toInt_ofNat_small _ (by omega)]

theorem v20_range (i : S16384.Idx) :
    0 ≤ (val_main_v20 (F := Ideal) i).toInt ∧ (val_main_v20 (F := Ideal) i).toInt < 16384 := by
  have hi : (i 0).val < 16384 := (i 0).isLt
  rw [v20_toInt]
  constructor <;> omega

/-- The targets: a listed edge's is the table's row 1 at that edge … -/
theorem v22_left (ei : EI) (e : Fin 278528) (he : e.val < 262144) :
    val_main_v22 (F := Ideal) ei (ix1 e) = val_main_v3 (F := Ideal) ei (ix1 ⟨e.val, he⟩) := by
  unfold val_main_v22
  exact concatenate_pair_apply_left 0 _ _ Cert.ReferenceIdeal.Gen.concatenates_S262144_S16384_S278528_d0 (ix1 e) rfl (ix1 ⟨e.val, he⟩)
    (fun b => by match b with | ⟨0, _⟩ => rfl)

/-- … and a self loop's is its node. -/
theorem v22_right (ei : EI) (e : Fin 278528) (he : 262144 ≤ e.val) :
    val_main_v22 (F := Ideal) ei (ix1 e)
      = val_main_v20 (F := Ideal) (ix1 ⟨e.val - 262144, by have := e.isLt; omega⟩) := by
  unfold val_main_v22
  exact concatenate_pair_apply_right 0 _ _ Cert.ReferenceIdeal.Gen.concatenates_S262144_S16384_S278528_d0 (ix1 e) rfl rfl
    (ix1 ⟨e.val - 262144, by have := e.isLt; omega⟩)
    (fun b hb => by match b with | ⟨0, _⟩ => exact absurd rfl hb)
    (by show (e.val - 262144) + 262144 = e.val; omega)

/-- The sources: the same with the table's row 0. -/
theorem v21_left (ei : EI) (e : Fin 278528) (he : e.val < 262144) :
    val_main_v21 (F := Ideal) ei (ix1 e) = val_main_v1 (F := Ideal) ei (ix1 ⟨e.val, he⟩) := by
  unfold val_main_v21
  exact concatenate_pair_apply_left 0 _ _ Cert.ReferenceIdeal.Gen.concatenates_S262144_S16384_S278528_d0 (ix1 e) rfl (ix1 ⟨e.val, he⟩)
    (fun b => by match b with | ⟨0, _⟩ => rfl)

theorem v21_right (ei : EI) (e : Fin 278528) (he : 262144 ≤ e.val) :
    val_main_v21 (F := Ideal) ei (ix1 e)
      = val_main_v20 (F := Ideal) (ix1 ⟨e.val - 262144, by have := e.isLt; omega⟩) := by
  unfold val_main_v21
  exact concatenate_pair_apply_right 0 _ _ Cert.ReferenceIdeal.Gen.concatenates_S262144_S16384_S278528_d0 (ix1 e) rfl rfl
    (ix1 ⟨e.val - 262144, by have := e.isLt; omega⟩)
    (fun b hb => by match b with | ⟨0, _⟩ => exact absurd rfl hb)
    (by show (e.val - 262144) + 262144 = e.val; omega)

/-- On the domain every target, read signed, is a node index. -/
theorem v22_range (ei : EI) (hr : Cert.Spec.InRange ei) (e : Fin 278528) :
    0 ≤ (val_main_v22 (F := Ideal) ei (ix1 e)).toInt ∧ (val_main_v22 (F := Ideal) ei (ix1 e)).toInt < 16384 := by
  by_cases he : e.val < 262144
  · rw [v22_left ei e he]; exact v3_range ei hr _
  · rw [v22_right ei e (by omega)]; exact v20_range _

/-- On the domain every source, read signed, is a node index. -/
theorem v21_range (ei : EI) (hr : Cert.Spec.InRange ei) (e : Fin 278528) :
    0 ≤ (val_main_v21 (F := Ideal) ei (ix1 e)).toInt ∧ (val_main_v21 (F := Ideal) ei (ix1 e)).toInt < 16384 := by
  by_cases he : e.val < 262144
  · rw [v21_left ei e he]; exact v1_range ei hr _
  · rw [v21_right ei e (by omega)]; exact v20_range _

/-- The same at any index of the edge list. -/
theorem v22_range_idx (ei : EI) (hr : Cert.Spec.InRange ei) (i : S278528.Idx) :
    0 ≤ (val_main_v22 (F := Ideal) ei i).toInt ∧ (val_main_v22 (F := Ideal) ei i).toInt < 16384 := by
  rw [eq_ix1 i]; exact v22_range ei hr (i 0)
theorem v21_range_idx (ei : EI) (hr : Cert.Spec.InRange ei) (i : S278528.Idx) :
    0 ≤ (val_main_v21 (F := Ideal) ei i).toInt ∧ (val_main_v21 (F := Ideal) ei i).toInt < 16384 := by
  rw [eq_ix1 i]; exact v21_range ei hr (i 0)

/-- On the domain an edge's target, read as a signed integer, is the node `dstF` names. -/
theorem v22_toInt (ei : EI) (hr : Cert.Spec.InRange ei) (e : Fin 278528) :
    (val_main_v22 (F := Ideal) ei (ix1 e)).toInt = ((dstF ei e).val : Int) := by
  obtain ⟨h0, h1⟩ := v22_range ei hr e
  show _ = ((min (val_main_v22 (F := Ideal) ei (ix1 e)).toInt.toNat 16383 : Nat) : Int)
  omega

/-- On the domain an edge's source, read as a signed integer, is the node `srcF` names. -/
theorem v21_toInt (ei : EI) (hr : Cert.Spec.InRange ei) (e : Fin 278528) :
    (val_main_v21 (F := Ideal) ei (ix1 e)).toInt = ((srcF ei e).val : Int) := by
  obtain ⟨h0, h1⟩ := v21_range ei hr e
  show _ = ((min (val_main_v21 (F := Ideal) ei (ix1 e)).toInt.toNat 16383 : Nat) : Int)
  omega

/-- On the domain no target is negative: bringing negative indices into range leaves the targets as they are. -/
theorem v46_eq (ei : EI) (hr : Cert.Spec.InRange ei) : val_main_v46 (F := Ideal) ei = val_main_v22 (F := Ideal) ei := by
  funext i
  rw [val_main_v46_apply, val_main_v43_apply, val_main_v42_apply, val_main_c_9_apply,
    slt_zero_of_nonneg (v22_range_idx ei hr i).1, select_zero]

/-- The same for the sources, at both places the reference does it. -/
theorem v38_eq (ei : EI) (hr : Cert.Spec.InRange ei) : val_main_v38 (F := Ideal) ei = val_main_v21 (F := Ideal) ei := by
  funext i
  rw [val_main_v38_apply, val_main_v35_apply, val_main_v34_apply, val_main_c_7_apply,
    slt_zero_of_nonneg (v21_range_idx ei hr i).1, select_zero]
theorem v55_eq (ei : EI) (hr : Cert.Spec.InRange ei) : val_main_v55 (F := Ideal) ei = val_main_v21 (F := Ideal) ei := by
  funext i
  rw [val_main_v55_apply, val_main_v52_apply, val_main_v51_apply, val_main_c_11_apply,
    slt_zero_of_nonneg (v21_range_idx ei hr i).1, select_zero]

end Cert.Chain

end
-- ==== Proof.LibScatterIdx.lean ====
/-
  Where an update of a scatter lands. For update index `j` the result index is, on every operand axis, the start read
  off the scatter indices plus the window coordinate, and the update is dropped when that leaves the operand on some
  axis. So the update lands on a given operand index `i` exactly when start plus window equals `i`'s coordinate on
  every axis: no separate range condition is needed, because `i` is itself inside the operand.
-/
import Idealize.ShloMosaic.PureOps.Dims

namespace Cert.Lib.ScatterIdx

open Idealize.ShloMosaic

/-- An update lands on `i` iff on every axis its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    by_cases hin : ∀ a, 0 ≤ d.start j idx a + d.window j a ∧ d.start j idx a + d.window j a < s.size a
    · rw [dif_pos hin] at h
      intro a
      have ha := congrArg Fin.val (congrFun (Option.some.inj h) a)
      have h0 := (hin a).1
      simp only at ha
      omega
    · rw [dif_neg hin] at h
      cases h
  · intro h
    have hin : ∀ a, 0 ≤ d.start j idx a + d.window j a ∧ d.start j idx a + d.window j a < s.size a := by
      intro a
      have := h a
      have := (i a).isLt
      constructor <;> omega
    rw [dif_pos hin]
    congr 1
    funext a
    apply Fin.ext
    have := h a
    simp only
    omega

end Cert.Lib.ScatterIdx
-- ==== Proof.KI.DenseRead.lean ====
/-
  The dense adjacency matrix the kernel program's host code builds, as ONE term of the edges' targets, sources and
  weights, and what its entries are.

  The host code starts from the 16384 × 16384 zero matrix, lays the targets and the sources side by side as the two
  columns of a [278528, 2] table of index pairs, adds every edge's weight into the matrix at its pair (target, source),
  and changes the float format of the result. On the extended reals the format change is the identity and the
  accumulation is exact: entry (d, s) is zero plus the sum of the weights of the edges whose pair, read as signed
  integers, is (d, s). When every target and source is a node index these are the edges from s into d, so the entry
  is the dense adjacency's entry: the total weight of the edges from s into d.
-/
import proofs.«402047_j59931973649025_1_alg».proof.KernelIdeal
import proofs.«402047_j59931973649025_1_alg».proof.Proof.ChainFacts
import proofs.«402047_j59931973649025_1_alg».proof.Proof.Spec.EdgeLaw
import proofs.«402047_j59931973649025_1_alg».proof.Proof.LibScatterIdx
import Idealize.ShloMosaic.Lib.ValueIdx
import Idealize.ShloMosaic.Lib.Pipeline.Value
import Idealize.ShloMosaic.Lib.StableHlo.Predicate
import Idealize.ShloMosaic.PureOps.Ideal.Laws

noncomputable section

namespace Cert.KernelIdeal.HandValue

open Cert.KernelIdeal Idealize.ShloMosaic Idealize.ShloMosaic.ValueIdx
open scoped BigOperators

variable [Facts]
open Facts₀ Facts

/-! ## The term -/

/-- The matrix as the host code computes it from the targets `tgt`, the sources `src` and the weights `wts`: the zero
    matrix; the two index columns side by side; the accumulation of the weights at the index pairs; the format
    change. -/
def Aterm {F : FTy → Type} [FloatOps F] (tgt src : IVec S278528 32) (wts : FVec F S278528 .f32) :
    FVec F S16384x16384 .bf16 :=
  truncf .bf16
    (Host.scatterAdd scatter_S16384x16384_S278528x2_S278528_n_01_01_1
      (broadcastInDim S16384x16384 ![] bcast_S_S16384x16384 (constant S_ .f32 0x00000000#32))
      (concatenate S278528x2 1
        [⟨S278528x1, broadcastInDim S278528x1 ![0] bcast_S278528_S278528x1_0 tgt⟩,
         ⟨S278528x1, broadcastInDim S278528x1 ![0] bcast_S278528_S278528x1_0 src⟩]
        concatenates_S278528x1_S278528x1_S278528x2_d1)
      wts)
    bitsLt_bf16_f32

/-- The table of index pairs: column 0 the targets, column 1 the sources. -/
abbrev Aidx (tgt src : IVec S278528 32) : IVec S278528x2 32 :=
  concatenate S278528x2 1
    [⟨S278528x1, broadcastInDim S278528x1 ![0] bcast_S278528_S278528x1_0 tgt⟩,
     ⟨S278528x1, broadcastInDim S278528x1 ![0] bcast_S278528_S278528x1_0 src⟩]
    concatenates_S278528x1_S278528x1_S278528x2_d1

local notation "D₂" => scatter_S16384x16384_S278528x2_S278528_n_01_01_1

theorem Aterm_eq {F : FTy → Type} [FloatOps F] (tgt src : IVec S278528 32) (wts : FVec F S278528 .f32) :
    Aterm tgt src wts
      = truncf .bf16 (Host.scatterAdd D₂
          (broadcastInDim S16384x16384 ![] bcast_S_S16384x16384 (constant S_ .f32 0x00000000#32))
          (Aidx tgt src) wts) bitsLt_bf16_f32 := rfl

/-! ## The table of index pairs, read at an entry -/

/-- A vector laid out as a one-column table reads, at (e, 0), the vector at e. -/
theorem col_apply (v : IVec S278528 32) (e : Fin 278528) :
    broadcastInDim S278528x1 ![0] bcast_S278528_S278528x1_0 v (ix2 e (0 : Fin 1)) = v (ix1 e) :=
  broadcastInDim_apply _ bcast_S278528_S278528x1_0 v _ (ix1 e) (fun a => match a with
    | ⟨0, _⟩ => by show e.val = if (278528 : Nat) = 1 then 0 else e.val; rw [if_neg (by decide)])

/-- Column 0 of the table is the targets. -/
theorem Aidx_col0 (tgt src : IVec S278528 32) (e : Fin 278528) :
    Aidx tgt src (ix2 e (0 : Fin 2)) = tgt (ix1 e) :=
  (concatenate_pair_apply_left 1 _ _ concatenates_S278528x1_S278528x1_S278528x2_d1 (ix2 e (0 : Fin 2)) rfl
    (ix2 e (0 : Fin 1)) (fun b => by match b with | ⟨0, _⟩ => rfl | ⟨1, _⟩ => rfl)).trans (col_apply tgt e)

/-- Column 1 of the table is the sources. -/
theorem Aidx_col1 (tgt src : IVec S278528 32) (e : Fin 278528) :
    Aidx tgt src (ix2 e (1 : Fin 2)) = src (ix1 e) :=
  (concatenate_pair_apply_right 1 _ _ concatenates_S278528x1_S278528x1_S278528x2_d1 (ix2 e (1 : Fin 2)) rfl rfl
    (ix2 e (0 : Fin 1))
    (fun b hb => by match b with | ⟨0, _⟩ => rfl | ⟨1, _⟩ => exact absurd rfl hb)
    (by show 0 + 1 = 1; rfl)).trans (col_apply src e)

/-! ## Where an edge's weight lands -/

/-- Both axes of the matrix are indexed by the pair: no axis carries a window coordinate. -/
theorem D₂_sKept : (D₂).sKept = [] :=
  List.eq_nil_of_length_eq_zero ((D₂).window_length.symm.trans rfl)

theorem D₂_window (j : S278528.Idx) (a : Fin S16384x16384.rank) : (D₂).window j a = 0 := by
  unfold ScatterDims.window
  rw [dif_neg (by rw [D₂_sKept]; exact List.not_mem_nil)]

/-- Edge e's row is the first entry of its pair, read signed. -/
theorem D₂_start0 (idx : IVec S278528x2 32) (e : Fin 278528) :
    (D₂).start (ix1 e) idx (0 : Fin 2) = (idx (ix2 e (0 : Fin 2))).toInt := by
  have hm : (0 : Fin 2) ∈ (D₂).scatterDimsToOperandDims := by
    show (0 : Fin 2) ∈ [(0 : Fin 2), 1]; simp
  unfold ScatterDims.start
  rw [dif_pos hm]
  have hsi : (D₂).siIdx (ix1 e) ⟨List.idxOf (0 : Fin 2) (D₂).scatterDimsToOperandDims,
      List.idxOf_lt_length_iff.2 hm⟩ = ix2 e (0 : Fin 2) := by
    funext b; refine Fin.ext ?_
    match b with
    | ⟨0, _⟩ => rfl
    | ⟨1, _⟩ => rfl
  rw [hsi]

/-- Edge e's column is the second entry of its pair, read signed. -/
theorem D₂_start1 (idx : IVec S278528x2 32) (e : Fin 278528) :
    (D₂).start (ix1 e) idx (1 : Fin 2) = (idx (ix2 e (1 : Fin 2))).toInt := by
  have hm : (1 : Fin 2) ∈ (D₂).scatterDimsToOperandDims := by
    show (1 : Fin 2) ∈ [(0 : Fin 2), 1]; simp
  unfold ScatterDims.start
  rw [dif_pos hm]
  have hsi : (D₂).siIdx (ix1 e) ⟨List.idxOf (1 : Fin 2) (D₂).scatterDimsToOperandDims,
      List.idxOf_lt_length_iff.2 hm⟩ = ix2 e (1 : Fin 2) := by
    funext b; refine Fin.ext ?_
    match b with
    | ⟨0, _⟩ => rfl
    | ⟨1, _⟩ => rfl
  rw [hsi]

/-- Edge e's weight lands on entry (d, s) exactly when its pair, read signed, is (d, s). -/
theorem lands_iff (idx : IVec S278528x2 32) (e : Fin 278528) (d s : Fin 16384) :
    (D₂).resultIdx? (ix1 e) idx = some (ix2 d s)
      ↔ (idx (ix2 e (0 : Fin 2))).toInt = (d.val : Int) ∧ (idx (ix2 e (1 : Fin 2))).toInt = (s.val : Int) := by
  rw [Cert.Lib.ScatterIdx.resultIdx?_eq_some_iff]
  constructor
  · intro h
    have h0 : (D₂).start (ix1 e) idx (0 : Fin 2) + (((D₂).window (ix1 e) (0 : Fin 2) : Nat) : Int) = (d.val : Int) := h 0
    have h1 : (D₂).start (ix1 e) idx (1 : Fin 2) + (((D₂).window (ix1 e) (1 : Fin 2) : Nat) : Int) = (s.val : Int) := h 1
    rw [D₂_start0, D₂_window] at h0
    rw [D₂_start1, D₂_window] at h1
    constructor <;> omega
  · rintro ⟨h0, h1⟩ a
    match a with
    | ⟨0, _⟩ =>
      show (D₂).start (ix1 e) idx (0 : Fin 2) + (((D₂).window (ix1 e) (0 : Fin 2) : Nat) : Int) = (d.val : Int)
      rw [D₂_start0, D₂_window]; omega
    | ⟨1, _⟩ =>
      show (D₂).start (ix1 e) idx (1 : Fin 2) + (((D₂).window (ix1 e) (1 : Fin 2) : Nat) : Int) = (s.val : Int)
      rw [D₂_start1, D₂_window]; omega

/-! ## The entries -/

/-- The indices of a vector of n entries are the numbers below n. -/
def idxEquiv1 {n : Nat} : (⟨1, ![n]⟩ : Shape).Idx ≃ Fin n where
  toFun i := i 0
  invFun e := ix1 e
  left_inv i := (eq_ix1 i).symm
  right_inv _ := rfl

/-- On the extended reals entry (d, s) of the matrix is the sum of the weights of the edges whose pair, read signed, is
    (d, s): the zero it starts from adds nothing and the format change is the identity. -/
theorem Aterm_apply_sum (tgt src : IVec S278528 32) (wts : FVec Ideal S278528 .f32) (d s : Fin 16384) :
    Aterm (F := Ideal) tgt src wts (ix2 d s)
      = ∑ e ∈ Finset.univ.filter (fun e : Fin 278528 =>
          (tgt (ix1 e)).toInt = (d.val : Int) ∧ (src (ix1 e)).toInt = (s.val : Int)), wts (ix1 e) := by
  rw [Aterm_eq, truncf_apply]
  simp only [Host.scatterAdd, Ideal.hostScatterAdd_def]
  unfold Ideal.hostScatterAdd
  rw [show broadcastInDim S16384x16384 ![] bcast_S_S16384x16384 (constant (F := Ideal) S_ .f32 0x00000000#32) (ix2 d s)
      = (0 : EReal) from Ideal.ofBits_zero_f32, zero_add]
  refine Finset.sum_equiv idxEquiv1 (fun j => ?_) (fun j _ => ?_)
  · obtain ⟨e, rfl⟩ : ∃ e, j = ix1 e := ⟨j 0, eq_ix1 j⟩
    show ix1 e ∈ _ ↔ e ∈ _
    rw [Finset.mem_filter, Finset.mem_filter, lands_iff, Aidx_col0, Aidx_col1]
    simp only [Finset.mem_univ, true_and]
  · obtain ⟨e, rfl⟩ : ∃ e, j = ix1 e := ⟨j 0, eq_ix1 j⟩
    rfl

/-- THE ENTRIES ON THE DOMAIN: with the reference's targets, sources and weights, entry (d, s) is the total weight
    of the edges from s into d. -/
theorem Aterm_apply (x3 : Cert.Chain.EI) (x4 : Cert.Chain.SEC) (hr : Cert.Spec.InRange x3) (d s : Fin 16384) :
    Aterm (F := Ideal) (Cert.ReferenceIdeal.ReadP.val_main_v46 (F := Ideal) x3) (Cert.ReferenceIdeal.ReadP.val_main_v38 (F := Ideal) x3) (Cert.ReferenceIdeal.ReadP.val_main_v49 (F := Ideal) x3 x4) (ix2 d s)
      = Cert.Spec.dense (Cert.Chain.nrm x3 x4) (Cert.Chain.dstF x3) (Cert.Chain.srcF x3) d s := by
  rw [Cert.Chain.v46_eq x3 hr, Cert.Chain.v38_eq x3 hr, Aterm_apply_sum]
  unfold Cert.Spec.dense
  refine Finset.sum_congr (Finset.filter_congr (fun e _ => ?_)) (fun e _ => rfl)
  rw [Cert.Chain.v22_toInt x3 hr e, Cert.Chain.v21_toInt x3 hr e]
  constructor
  · rintro ⟨h0, h1⟩
    exact ⟨Fin.ext (by omega), Fin.ext (by omega)⟩
  · rintro ⟨h0, h1⟩
    rw [h0, h1]
    exact ⟨rfl, rfl⟩

end Cert.KernelIdeal.HandValue

end
-- ==== Proof.KI.HostTail.lean ====
import proofs.«402047_j59931973649025_1_alg».proof.Proof.KI.HostPrefix
import proofs.«402047_j59931973649025_1_alg».proof.Proof.KI.DenseRead

set_option maxRecDepth 16384

noncomputable section

namespace Cert.KernelIdeal.HandValue

open Cert.KernelIdeal Cert.KernelIdeal.Gen
open Idealize.ShloMosaic Idealize.ShloMosaic.TcCoe Idealize.SL.Sem
open Cert.ReferenceIdeal.ReadP (val_main_v21 val_main_v22 val_main_v24 val_main_v33 val_main_v38 val_main_v46 val_main_v49)

variable {F : FTy → Type} [FloatOps F]

/-! # The kernel program's third host stretch builds the dense matrix from the reference's stage values

From the sources, the targets, the 0/1 weights and the inverse square roots of the degrees, the stretch brings the
node indices into range, gathers the inverse square roots at both ends of every edge and multiplies them with the
0/1 weight — the edge weights, the reference's own operations — and then, from the in-range targets and sources
computed a second time, lays the two index columns side by side, adds every edge weight into a zero matrix at its
(target, source) pair and changes the format. The list is read in two pieces, cut before the one concatenation. -/

/-! ## First piece: the edge weights, the zero matrix, the two index columns -/

set_option maxHeartbeats 400000 in
/-- The edge weights. -/
theorem st4_v49 (W : Valuation τ sig (Elt F)) (x3 : (⟨Cert.ReferenceIdeal.S2x262144, .i32⟩ : BufTy).Contents (Elt F)) (x4 : (⟨Cert.ReferenceIdeal.S16384, .i32⟩ : BufTy).Contents (Elt F))
    (h21 : W (Proc.devRef .tc main_v21) = val_main_v21 (F := F) x3) (h22 : W (Proc.devRef .tc main_v22) = val_main_v22 (F := F) x3)
    (h24 : W (Proc.devRef .tc main_v24) = val_main_v24 (F := F) x3 x4) (h33 : W (Proc.devRef .tc main_v33) = val_main_v33 (F := F) x3 x4) :
    StableHlo.after ((hostOps0_2 (F := F)).take 38) W (Proc.devRef .tc main_v49) = val_main_v49 (F := F) x3 x4 := by
  dsimp only [hostOps0_2, List.take]
  open Idealize.ShloMosaic.StableHlo in after_results_simp
  rw [h21, h22, h24, h33]
  rfl

set_option maxHeartbeats 400000 in
/-- The zero matrix. -/
theorem st4_v50 (W : Valuation τ sig (Elt F)) :
    StableHlo.after ((hostOps0_2 (F := F)).take 38) W (Proc.devRef .tc main_v50)
      = broadcastInDim S16384x16384 ![] bcast_S_S16384x16384 (constant (F := F) S_ .f32 0x00000000#32) := by
  dsimp only [hostOps0_2, List.take]
  open Idealize.ShloMosaic.StableHlo in after_results_simp
  all_goals rfl

set_option maxHeartbeats 400000 in
/-- The in-range targets as a column. -/
theorem st4_v61 (W : Valuation τ sig (Elt F)) (x3 : (⟨Cert.ReferenceIdeal.S2x262144, .i32⟩ : BufTy).Contents (Elt F))
    (h22 : W (Proc.devRef .tc main_v22) = val_main_v22 (F := F) x3) :
    StableHlo.after ((hostOps0_2 (F := F)).take 38) W (Proc.devRef .tc main_v61)
      = broadcastInDim S278528x1 ![0] bcast_S278528_S278528x1_0 (val_main_v46 (F := F) x3) := by
  dsimp only [hostOps0_2, List.take]
  open Idealize.ShloMosaic.StableHlo in after_results_simp
  rw [h22]
  rfl

set_option maxHeartbeats 400000 in
/-- The in-range sources as a column. -/
theorem st4_v62 (W : Valuation τ sig (Elt F)) (x3 : (⟨Cert.ReferenceIdeal.S2x262144, .i32⟩ : BufTy).Contents (Elt F))
    (h21 : W (Proc.devRef .tc main_v21) = val_main_v21 (F := F) x3) :
    StableHlo.after ((hostOps0_2 (F := F)).take 38) W (Proc.devRef .tc main_v62)
      = broadcastInDim S278528x1 ![0] bcast_S278528_S278528x1_0 (val_main_v38 (F := F) x3) := by
  dsimp only [hostOps0_2, List.take]
  open Idealize.ShloMosaic.StableHlo in after_results_simp
  rw [h21]
  rfl

/-! ## Second piece: the index pairs, the accumulation, the format change -/

set_option maxHeartbeats 400000 in
theorem st5_v65 (W : Valuation τ sig (Elt F)) (tgt src : IVec S278528 32) (wts : FVec F S278528 .f32)
    (h50 : W (Proc.devRef .tc main_v50)
      = broadcastInDim S16384x16384 ![] bcast_S_S16384x16384 (constant (F := F) S_ .f32 0x00000000#32))
    (h61 : W (Proc.devRef .tc main_v61) = broadcastInDim S278528x1 ![0] bcast_S278528_S278528x1_0 tgt)
    (h62 : W (Proc.devRef .tc main_v62) = broadcastInDim S278528x1 ![0] bcast_S278528_S278528x1_0 src)
    (h49 : W (Proc.devRef .tc main_v49) = wts) :
    StableHlo.after ((hostOps0_2 (F := F)).drop 38) W (Proc.devRef .tc main_v65) = Aterm tgt src wts := by
  dsimp only [hostOps0_2, List.drop]
  open Idealize.ShloMosaic.StableHlo in after_results
  rw [h50, h61, h62, h49]
  rfl

/-! ## What the three stretches leave in the matrix's buffer, from any launch memory -/

variable (m : (ℓ : Loc nD τ sig) → Buf (Elt F) ℓ) (c : Dev nD)

/-- The dense matrix the second kernel multiplies by: the edge weights added at the (in-range target, in-range source)
    pairs into zeros, in the narrow format — over the reference's stage values of the launch contents of the edge
    table and the block labels. -/
theorem V3_v65 : Gen.V3 m c (Proc.devRef .tc main_v65)
    = Aterm (val_main_v46 (F := F) (m ((c : Thread nD τ).loc main_arg3)))
        (val_main_v38 (F := F) (m ((c : Thread nD τ).loc main_arg3)))
        (val_main_v49 (F := F) (m ((c : Thread nD τ).loc main_arg3)) (m ((c : Thread nD τ).loc main_arg4))) :=
  (congrFun (after_split 38 (hostOps0_2 (F := F)) (Gen.V2 m c)) _).trans
    (st5_v65 _ _ _ _ (st4_v50 _) (st4_v61 _ _ (V2_v22 m c)) (st4_v62 _ _ (V2_v21 m c))
      (st4_v49 _ _ _ (V2_v21 m c) (V2_v22 m c) (V2_v24 m c) (V2_v33 m c)))

end Cert.KernelIdeal.HandValue

end
-- ==== Proof.KI.KernelHost.lean ====
/-
  What the kernel program's host operations leave in the two arrays its second pallas_call reads besides the
  features: the dense adjacency (main_v65, [16384, 16384]) and the bias row (main_v67, [1, 256]).

  On the extended reals, and when every entry of the edge table is a node index, entry (d, s) of the dense adjacency
  is the total weight of the edges from s into d, with the reference's own edge weights, targets and sources: the host
  operations that build it compute the reference's stage values, lay the targets and the sources side by side and add
  every edge's weight at its (target, source) pair. The bias row is the bias reshaped: its entry (0, j) is the bias'
  entry j.
-/
import proofs.«402047_j59931973649025_1_alg».proof.Proof.KI.HostTail
import proofs.«402047_j59931973649025_1_alg».proof.Proof.KI.DenseRead
import proofs.«402047_j59931973649025_1_alg».proof.Proof.Gen.KernelIdeal.Regions
import proofs.«402047_j59931973649025_1_alg».proof.Proof.ChainFacts
import proofs.«402047_j59931973649025_1_alg».proof.Proof.Spec.EdgeLaw
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx Idealize.SL.Sem

/-! ## The bias row -/

/-- The one host operation between the two pallas_calls reshapes the bias [256] to a row [1, 256]: both have the
    same 256 entries in row-major order, so the row's entry (0, j) is the bias' entry j. -/
theorem b2_apply (W : Valuation τ sig (Elt Ideal)) (j : Fin 256) :
    (show S1x256.Idx → EReal from StableHlo.after hostOps1 W (Proc.devRef .tc main_v67)) (ix2 (0 : Fin 1) j)
      = (show S256.Idx → EReal from W (Proc.devRef .tc main_arg2)) (ix1 j) := by
  have e : StableHlo.after hostOps1 W (Proc.devRef .tc main_v67)
      = shapeCast S1x256 (show S256.Idx → EReal from W (Proc.devRef .tc main_arg2)) shapeCasts_S256_S1x256 := by
    dsimp only [hostOps1]
    open Idealize.ShloMosaic.StableHlo in after_results
    all_goals rfl
  rw [e]
  exact shapeCast_apply _ shapeCasts_S256_S1x256 (ix2 (0 : Fin 1) j) (ix1 j)
    (by rewrite [Shape.rowMajor_val_two, Shape.rowMajor_val_one]; show j.val = 0 * 256 + j.val; omega)

/-! ## The dense adjacency -/

/-- After the three host stretches main_v65 is the dense-matrix term of the reference's targets, sources and edge
    weights; on the domain of the edge table that term's entry (d, s) is the total weight of the edges from s into d. -/
theorem A_apply (m : (ℓ : Loc nD τ sig) → Buf (Elt Ideal) ℓ) (c : Dev nD)
    (hr : Cert.Spec.InRange (m ((c : Thread nD τ).loc main_arg3))) (d s : Fin 16384) :
    (show S16384x16384.Idx → EReal from Gen.V3 m c (Proc.devRef .tc main_v65)) (ix2 d s)
      = Cert.Spec.dense (Cert.Chain.nrm (m ((c : Thread nD τ).loc main_arg3)) (m ((c : Thread nD τ).loc main_arg4)))
          (Cert.Chain.dstF (m ((c : Thread nD τ).loc main_arg3))) (Cert.Chain.srcF (m ((c : Thread nD τ).loc main_arg3))) d s := by
  rw [V3_v65 m c]
  exact Aterm_apply _ _ hr d s

end Cert.KernelIdeal.HandValue

end
-- ==== Proof.ChainNonneg.lean ====
/-
  Every edge weight is nonnegative on the extended reals.

  An edge's weight is dinv[src] · w · dinv[dst], where w is 1 on a self loop and on an edge inside one block and 0
  on an edge between blocks, deg[v] is the total w of the edges into v, and dinv[v] is deg[v]^(-1/2) where deg[v] > 0 and
  0 elsewhere. Every factor is nonnegative (w is 0 or 1; a sum of such is nonnegative; the reciprocal square root of a
  nonnegative number is nonnegative, with 0 ↦ +∞ and +∞ ↦ 0), and a product of nonnegatives is nonnegative.
-/
import proofs.«402047_j59931973649025_1_alg».proof.Proof.ChainFacts
import Idealize.ShloMosaic.Lib.IdealHost
import Idealize.ShloMosaic.Lib.Pipeline.Value

noncomputable section

namespace Cert.Chain

open Cert.ReferenceIdeal Cert.ReferenceIdeal.ReadP Idealize.ShloMosaic Idealize.ShloMosaic.ValueIdx

/-- The reciprocal square root of a nonnegative extended real is nonnegative: +∞ ↦ 0, 0 ↦ +∞, and a positive real
    goes to the inverse of its square root. -/
theorem rsqrt_nonneg (y : EReal) (hy : 0 ≤ y) : 0 ≤ Ideal.rsqrt y := by
  induction y using EReal.rec with
  | bot => exact absurd hy (by simp)
  | top => rw [Ideal.rsqrt_top]
  | coe r =>
    have hr : 0 ≤ r := by exact_mod_cast hy
    rw [Ideal.rsqrt_coe, if_neg (not_lt.2 hr)]
    split
    · exact le_top
    · exact_mod_cast inv_nonneg.2 (Real.sqrt_nonneg r)

/-- An accumulating scatter of nonnegative updates into a nonnegative operand is nonnegative: each element is the
    operand's plus a sum of updates. -/
theorem scatterAdd_nonneg {s si su : Shape} (d : ScatterDims s si su) {w : Nat} (x : s.Idx → EReal) (idx : IVec si w)
    (upd : su.Idx → EReal) (hx : ∀ i, 0 ≤ x i) (hu : ∀ j, 0 ≤ upd j) (i : s.Idx) :
    0 ≤ Ideal.hostScatterAdd d x idx upd i := by
  unfold Ideal.hostScatterAdd
  exact add_nonneg (hx i) (Finset.sum_nonneg fun j _ => hu j)

/-- Every entry of w is nonnegative: on the table's edges it is a bit read as a number (0 or 1), on the self loops
    it is 1. -/
theorem w_nonneg (ei : EI) (sec : SEC) (j : S278528.Idx) : 0 ≤ val_main_v24 (F := Ideal) ei sec j := by
  unfold val_main_v24
  by_cases hj : (j 0).val < 262144
  · -- a table edge: the mask's bit as a number
    rw [concatenate_pair_apply_left (t := S278528) (s₁ := S262144) (s₂ := S16384) 0 _ _ _ j rfl
      (ix1 ⟨(j 0).val, hj⟩) (fun b => match b with | ⟨0, _⟩ => rfl)]
    rw [val_main_v19_apply]
    show (0 : EReal) ≤ (((val_main_v18 (F := Ideal) ei sec _).toNat : ℝ) : EReal)
    exact_mod_cast Nat.cast_nonneg _
  · -- a self loop: the constant one
    have hlt : (j 0).val < 278528 := (j 0).isLt
    rw [concatenate_pair_apply_right (t := S278528) (s₁ := S262144) (s₂ := S16384) 0 _ _ _ j rfl rfl
      (ix1 ⟨(j 0).val - 262144, by omega⟩)
      (fun b hb => match b with | ⟨0, _⟩ => absurd rfl hb)
      (by show (j 0).val - 262144 + 262144 = (j 0).val; omega)]
    rw [val_main_v23_apply, val_main_cst_apply, Ideal.ofBits_def, Ideal.ofBits_one_f32]
    exact zero_le_one

/-- Every degree is nonnegative: zero plus a sum of entries of w. -/
theorem deg_nonneg (ei : EI) (sec : SEC) (i : S16384.Idx) : 0 ≤ val_main_v27 (F := Ideal) ei sec i := by
  unfold val_main_v27 Host.scatterAdd
  rw [Ideal.hostScatterAdd_def]
  refine scatterAdd_nonneg _ _ _ _ (fun i' => ?_) (fun j => w_nonneg ei sec j) i
  rw [val_main_v25_apply, val_main_cst_3_apply, Ideal.ofBits_def]
  exact le_of_eq Ideal.ofBits_zero_f32.symm

/-- Every entry of dinv is nonnegative: it is either zero or the reciprocal square root of the larger of the degree
    and a constant, which is at least the degree, hence nonnegative. -/
theorem dinv_nonneg (ei : EI) (sec : SEC) (i : S16384.Idx) : 0 ≤ val_main_v33 (F := Ideal) ei sec i := by
  rw [val_main_v33_apply]
  unfold Scalar.select
  split
  · rw [val_main_v32_apply, Ideal.hostUnary_rsqrt_def, val_main_v31_apply, Ideal.maximumf_def]
    exact rsqrt_nonneg _ (le_max_of_le_left (deg_nonneg ei sec i))
  · have h0 : val_main_call0_v1 (F := Ideal) i = (0 : EReal) := by
      rw [val_main_call0_v1_apply, val_main_call0_v0_apply, val_main_cst_6_apply, Ideal.ofBits_def]
      exact Ideal.ofBits_zero_f32
    exact le_of_eq h0.symm

/-- dinv read at the edges' sources: whatever entry the read lands on, it is an entry of dinv. -/
theorem dinvSrc_nonneg (ei : EI) (sec : SEC) (j : S278528.Idx) : 0 ≤ val_main_v40 (F := Ideal) ei sec j := by
  unfold val_main_v40 Host.gather
  exact dinv_nonneg ei sec _

/-- dinv read at the edges' targets. -/
theorem dinvDst_nonneg (ei : EI) (sec : SEC) (j : S278528.Idx) : 0 ≤ val_main_v48 (F := Ideal) ei sec j := by
  unfold val_main_v48 Host.gather
  exact dinv_nonneg ei sec _

/-- Every weight is nonnegative. -/
theorem nrm_nonneg (ei : EI) (sec : SEC) (e : Fin 278528) : 0 ≤ nrm ei sec e := by
  unfold nrm
  rw [val_main_v49_apply, val_main_v41_apply, Ideal.mulf_def, Ideal.mulf_def]
  exact EReal.mul_nonneg (EReal.mul_nonneg (dinvSrc_nonneg ei sec _) (w_nonneg ei sec _)) (dinvDst_nonneg ei sec _)

end Cert.Chain

end
-- ==== Proof.Bridge.lean ====
/-
  The two results are one function of the arguments.

  The idealized kernel ends with, at row d and column j: the row d of the dense adjacency against column j of h = x · W,
  plus the bias, where the adjacency's entry (d, s) is the total weight of the edges from s into d. The idealized
  reference ends with: the sum, over the edges into d, of h at the edge's source times the edge's weight, plus the bias.
  The weights, targets and sources are computed by the same operations in both programs. Every weight is nonnegative,
  so the dense arrangement equals the edge arrangement on the extended reals.
-/
import proofs.«402047_j59931973649025_1_alg».proof.Proof.KI.Run
import proofs.«402047_j59931973649025_1_alg».proof.Proof.KI.Value0
import proofs.«402047_j59931973649025_1_alg».proof.Proof.KI.Value1
import proofs.«402047_j59931973649025_1_alg».proof.Proof.KI.KernelHost
import proofs.«402047_j59931973649025_1_alg».proof.Proof.ChainNonneg
import proofs.«402047_j59931973649025_1_alg».proof.Proof.Spec.EdgeLaw

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand Cert.KernelIdeal.HandValue

variable (m : (ℓ : Loc nD τ sig) → Buf (Elt Ideal) ℓ)

/-- The kernel's result array at (d, j), in the edge arrangement over the launch contents of the arguments. -/
theorem kernel_apply (c : Dev nD) (hr : Cert.Spec.InRange (m ((c : Thread nD τ).loc main_arg3))) (d : Fin 16384) (j : Fin 256) :
    (show S16384x256.Idx → EReal from (dat1 (F := Ideal) (V5r m) c).arrAt 3 cfg1.N) (ix2 d j)
      = Cert.Spec.edgeForm
          (Cert.Spec.hmat (fun s k => (show S16384x256.Idx → EReal from m ((c : Thread nD τ).loc main_arg0)) (ix2 s k))
            (fun k j => (show S256x256.Idx → EReal from m ((c : Thread nD τ).loc main_arg1)) (ix2 k j)))
          (Cert.Chain.nrm (m ((c : Thread nD τ).loc main_arg3)) (m ((c : Thread nD τ).loc main_arg4)))
          (Cert.Chain.dstF (m ((c : Thread nD τ).loc main_arg3))) (Cert.Chain.srcF (m ((c : Thread nD τ).loc main_arg3)))
          (fun j => (show S256.Idx → EReal from m ((c : Thread nD τ).loc main_arg2)) (ix1 j)) d j := by
  rw [← Cert.Spec.denseForm_eq_edgeForm _ _ (Cert.Chain.nrm_nonneg _ _)]
  rw [out_apply (V5r m) c d j]
  unfold Cert.Spec.denseForm Cert.Spec.hmat
  -- the adjacency: neither the first call nor the host operation between the calls writes it
  have e65 : V5r m c main_v65 = Gen.V3 m c (Proc.devRef .tc main_v65) :=
    (W5_of m c main_v65 (by decide)).trans (W4_of_ne m c main_v65 (by decide))
  -- h: what the first call's write-backs left, the product of the launch contents of x and W
  have e66 : V5r m c main_v66 = xw (m ((c : Thread nD τ).loc main_arg0)) (m ((c : Thread nD τ).loc main_arg1)) := by
    have e : V5r m c main_v66 = (dat0 (F := Ideal) (V3r m) c).arrAt 2 cfg0.N :=
      (W5_of m c main_v66 (by decide)).trans (W4_arr m c 2)
    rw [e, h_eq (V3r m) c,
      show V3r m c main_arg0 = m ((c : Thread nD τ).loc main_arg0) from W3_launch m c main_arg0 (by decide) (by decide) (by decide),
      show V3r m c main_arg1 = m ((c : Thread nD τ).loc main_arg1) from W3_launch m c main_arg1 (by decide) (by decide) (by decide)]
  -- the bias row: the one host operation between the calls reshapes the bias, which nothing before it wrote
  have e2 : W4 m c (Proc.devRef .tc main_arg2) = m ((c : Thread nD τ).loc main_arg2) :=
    (W4_of_ne m c main_arg2 (by decide)).trans (W3_launch m c main_arg2 (by decide) (by decide) (by decide))
  have hB : (show S1x256.Idx → EReal from V5r m c main_v67) (ix2 (0 : Fin 1) j)
      = (show S256.Idx → EReal from m ((c : Thread nD τ).loc main_arg2)) (ix1 j) := by
    have := b2_apply (W4 m c) j
    rw [e2] at this
    exact this
  have hA : ∀ s : Fin 16384, (show S16384x16384.Idx → EReal from V5r m c main_v65) (ix2 d s)
      = Cert.Spec.dense (Cert.Chain.nrm (m ((c : Thread nD τ).loc main_arg3)) (m ((c : Thread nD τ).loc main_arg4)))
          (Cert.Chain.dstF (m ((c : Thread nD τ).loc main_arg3))) (Cert.Chain.srcF (m ((c : Thread nD τ).loc main_arg3))) d s := by
    intro s; rw [e65]; exact A_apply m c hr d s
  have hH : ∀ s : Fin 16384, (show S16384x256.Idx → EReal from V5r m c main_v66) (ix2 s j)
      = ∑ k : Fin 256, (show S16384x256.Idx → EReal from m ((c : Thread nD τ).loc main_arg0)) (ix2 s k)
          * (show S256x256.Idx → EReal from m ((c : Thread nD τ).loc main_arg1)) (ix2 k j) := by
    intro s; rw [e66]; exact xw_apply _ _ s j
  have hS : (∑ s : Fin 16384, (show S16384x16384.Idx → EReal from V5r m c main_v65) (ix2 d s)
        * (show S16384x256.Idx → EReal from V5r m c main_v66) (ix2 s j))
      = ∑ s : Fin 16384, Cert.Spec.dense (Cert.Chain.nrm (m ((c : Thread nD τ).loc main_arg3)) (m ((c : Thread nD τ).loc main_arg4)))
          (Cert.Chain.dstF (m ((c : Thread nD τ).loc main_arg3))) (Cert.Chain.srcF (m ((c : Thread nD τ).loc main_arg3))) d s
        * ∑ k : Fin 256, (show S16384x256.Idx → EReal from m ((c : Thread nD τ).loc main_arg0)) (ix2 s k)
          * (show S256x256.Idx → EReal from m ((c : Thread nD τ).loc main_arg1)) (ix2 k j) :=
    Finset.sum_congr rfl fun s _ => congrArg₂ (· * ·) (hA s) (hH s)
  exact congrArg₂ (· + ·) hS hB

end Cert.Proof.Bridge

end
-- ==== Proof.RefRunRun.lean ====
/-
  The run of the reference program, with its result named: 85 host operations and no kernel. The operations are cut
  after the last concatenation. From the first part (30 operations) come the three concatenated arrays — the edge
  sources, destinations and weights, each followed by the self loops' — and the arguments it leaves as they were; from
  the second part (55 operations, none a concatenation) comes the result as one function of those three arrays and of
  x, W and b. Joined, the two give the result's composed term of the arguments.
-/
import proofs.«402047_j59931973649025_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The operations, cut after the last concatenation -/

/-- The first 30 operations: the two index rows of the edge list, the 0/1 weight of each edge, and the three
    concatenations with the self loops (sources, destinations, weights). -/
abbrev opsA : List (HloOp τ sig (Elt F)) :=
  [ unary main_arg3 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg3 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_c (constantI S_ 32 0#32),
    unary main_c main_v4 (broadcastInDim S262144 ![] bcast_S_S262144 : (⟨S_, .i32⟩ : BufTy).Contents (Elt F) → (⟨S262144, .i32⟩ : BufTy).Contents (Elt F)),
    binary main_v1 main_v4 main_v5 (cmpi .slt : (⟨S262144, .i32⟩ : BufTy).Contents (Elt F) → (⟨S262144, .i32⟩ : BufTy).Contents (Elt F) → (⟨S262144, .i1⟩ : BufTy).Contents (Elt F)),
    nullary main_c_0 (constantI S_ 32 16384#32),
    unary main_c_0 main_v6 (broadcastInDim S262144 ![] bcast_S_S262144 : (⟨S_, .i32⟩ : BufTy).Contents (Elt F) → (⟨S262144, .i32⟩ : BufTy).Contents (Elt F)),
    binary main_v1 main_v6 main_v7 (addi : (⟨S262144, .i32⟩ : BufTy).Contents (Elt F) → (⟨S262144, .i32⟩ : BufTy).Contents (Elt F) → (⟨S262144, .i32⟩ : BufTy).Contents (Elt F)),
    ternary main_v5 main_v7 main_v1 main_v8 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v8 main_v9 (broadcastInDim S262144x1 ![0] bcast_S262144_S262144x1_0 : (⟨S262144, .i32⟩ : BufTy).Contents (Elt F) → (⟨S262144x1, .i32⟩ : BufTy).Contents (Elt F)),
    binary main_arg4 main_v9 main_v10 ((fun x i => Host.gather gather_S16384_S262144x1_S262144_n_0_n_n_0_1_1 x i) : (⟨S16384, .i32⟩ : BufTy).Contents (Elt F) → (⟨S262144x1, .i32⟩ : BufTy).Contents (Elt F) → (⟨S262144, .i32⟩ : BufTy).Contents (Elt F)),
    nullary main_c_1 (constantI S_ 32 0#32),
    unary main_c_1 main_v11 (broadcastInDim S262144 ![] bcast_S_S262144 : (⟨S_, .i32⟩ : BufTy).Contents (Elt F) → (⟨S262144, .i32⟩ : BufTy).Contents (Elt F)),
    binary main_v3 main_v11 main_v12 (cmpi .slt : (⟨S262144, .i32⟩ : BufTy).Contents (Elt F) → (⟨S262144, .i32⟩ : BufTy).Contents (Elt F) → (⟨S262144, .i1⟩ : BufTy).Contents (Elt F)),
    nullary main_c_2 (constantI S_ 32 16384#32),
    unary main_c_2 main_v13 (broadcastInDim S262144 ![] bcast_S_S262144 : (⟨S_, .i32⟩ : BufTy).Contents (Elt F) → (⟨S262144, .i32⟩ : BufTy).Contents (Elt F)),
    binary main_v3 main_v13 main_v14 (addi : (⟨S262144, .i32⟩ : BufTy).Contents (Elt F) → (⟨S262144, .i32⟩ : BufTy).Contents (Elt F) → (⟨S262144, .i32⟩ : BufTy).Contents (Elt F)),
    ternary main_v12 main_v14 main_v3 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v15 main_v16 (broadcastInDim S262144x1 ![0] bcast_S262144_S262144x1_0 : (⟨S262144, .i32⟩ : BufTy).Contents (Elt F) → (⟨S262144x1, .i32⟩ : BufTy).Contents (Elt F)),
    binary main_arg4 main_v16 main_v17 ((fun x i => Host.gather gather_S16384_S262144x1_S262144_n_0_n_n_0_1_1 x i) : (⟨S16384, .i32⟩ : BufTy).Contents (Elt F) → (⟨S262144x1, .i32⟩ : BufTy).Contents (Elt F) → (⟨S262144, .i32⟩ : BufTy).Contents (Elt F)),
    binary main_v10 main_v17 main_v18 (cmpi .eq : (⟨S262144, .i32⟩ : BufTy).Contents (Elt F) → (⟨S262144, .i32⟩ : BufTy).Contents (Elt F) → (⟨S262144, .i1⟩ : BufTy).Contents (Elt F)),
    unary main_v18 main_v19 (uitofp (F := F) .f32 : (⟨S262144, .i1⟩ : BufTy).Contents (Elt F) → (⟨S262144, .f32⟩ : BufTy).Contents (Elt F)),
    nullary main_v20 (iotaInDim S16384 32 0),
    binary main_v1 main_v20 main_v21 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    binary main_v3 main_v20 main_v22 ((fun a b => concatenate S278528 0 [⟨S262144, a⟩, ⟨S16384, b⟩] concatenates_S262144_S16384_S278528_d0) : (⟨S262144, .i32⟩ : BufTy).Contents (Elt F) → (⟨S16384, .i32⟩ : BufTy).Contents (Elt F) → (⟨S278528, .i32⟩ : BufTy).Contents (Elt F)),
    nullary main_cst (constant S_ .f32 0x3F800000#32),
    unary main_cst main_v23 (broadcastInDim S16384 ![] bcast_S_S16384 : (⟨S_, .f32⟩ : BufTy).Contents (Elt F) → (⟨S16384, .f32⟩ : BufTy).Contents (Elt F)),
    binary main_v19 main_v23 main_v24 ((fun a b => concatenate S278528 0 [⟨S262144, a⟩, ⟨S16384, b⟩] concatenates_S262144_S16384_S278528_d0) : (⟨S262144, .f32⟩ : BufTy).Contents (Elt F) → (⟨S16384, .f32⟩ : BufTy).Contents (Elt F) → (⟨S278528, .f32⟩ : BufTy).Contents (Elt F)) ]

/-- The other 55 operations: the degree, its inverse square root, the per-edge norm, the product x · W, the gather of
    its rows, the scatter-add by destination and the bias. None is a concatenation. -/
abbrev opsB : List (HloOp τ sig (Elt F)) :=
  [ nullary main_cst_3 (constant S_ .f32 0x00000000#32),
    unary main_cst_3 main_v25 (broadcastInDim S16384 ![] bcast_S_S16384 : (⟨S_, .f32⟩ : BufTy).Contents (Elt F) → (⟨S16384, .f32⟩ : BufTy).Contents (Elt F)),
    unary main_v22 main_v26 (broadcastInDim S278528x1 ![0] bcast_S278528_S278528x1_0 : (⟨S278528, .i32⟩ : BufTy).Contents (Elt F) → (⟨S278528x1, .i32⟩ : BufTy).Contents (Elt F)),
    ternary main_v25 main_v26 main_v24 main_v27 ((fun x i u => Host.scatterAdd scatter_S16384_S278528x1_S278528_n_0_0_1 x i u) : (⟨S16384, .f32⟩ : BufTy).Contents (Elt F) → (⟨S278528x1, .i32⟩ : BufTy).Contents (Elt F) → (⟨S278528, .f32⟩ : BufTy).Contents (Elt F) → (⟨S16384, .f32⟩ : BufTy).Contents (Elt F)),
    nullary main_cst_4 (constant S_ .f32 0x00000000#32),
    unary main_cst_4 main_v28 (broadcastInDim S16384 ![] bcast_S_S16384 : (⟨S_, .f32⟩ : BufTy).Contents (Elt F) → (⟨S16384, .f32⟩ : BufTy).Contents (Elt F)),
    binary main_v27 main_v28 main_v29 (cmpf (F := F) .ogt : (⟨S16384, .f32⟩ : BufTy).Contents (Elt F) → (⟨S16384, .f32⟩ : BufTy).Contents (Elt F) → (⟨S16384, .i1⟩ : BufTy).Contents (Elt F)),
    nullary main_cst_5 (constant S_ .f32 0x2B8CBCCC#32),
    unary main_cst_5 main_v30 (broadcastInDim S16384 ![] bcast_S_S16384 : (⟨S_, .f32⟩ : BufTy).Contents (Elt F) → (⟨S16384, .f32⟩ : BufTy).Contents (Elt F)),
    binary main_v27 main_v30 main_v31 (maximumf : (⟨S16384, .f32⟩ : BufTy).Contents (Elt F) → (⟨S16384, .f32⟩ : BufTy).Contents (Elt F) → (⟨S16384, .f32⟩ : BufTy).Contents (Elt F)),
    unary main_v31 main_v32 (Host.rsqrt : (⟨S16384, .f32⟩ : BufTy).Contents (Elt F) → (⟨S16384, .f32⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v29) (TRef.of (T := ⟨S16384, .f32⟩) main_v32) (TRef.of (T := ⟨S16384, .f32⟩) main_call0_v1) (TRef.of (T := ⟨S16384, .f32⟩) main_v33) select,
    nullary main_c_7 (constantI S_ 32 0#32),
    unary main_c_7 main_v34 (broadcastInDim S278528 ![] bcast_S_S278528 : (⟨S_, .i32⟩ : BufTy).Contents (Elt F) → (⟨S278528, .i32⟩ : BufTy).Contents (Elt F)),
    binary main_v21 main_v34 main_v35 (cmpi .slt : (⟨S278528, .i32⟩ : BufTy).Contents (Elt F) → (⟨S278528, .i32⟩ : BufTy).Contents (Elt F) → (⟨S278528, .i1⟩ : BufTy).Contents (Elt F)),
    nullary main_c_8 (constantI S_ 32 16384#32),
    unary main_c_8 main_v36 (broadcastInDim S278528 ![] bcast_S_S278528 : (⟨S_, .i32⟩ : BufTy).Contents (Elt F) → (⟨S278528, .i32⟩ : BufTy).Contents (Elt F)),
    binary main_v21 main_v36 main_v37 (addi : (⟨S278528, .i32⟩ : BufTy).Contents (Elt F) → (⟨S278528, .i32⟩ : BufTy).Contents (Elt F) → (⟨S278528, .i32⟩ : BufTy).Contents (Elt F)),
    ternary main_v35 main_v37 main_v21 main_v38 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v38 main_v39 (broadcastInDim S278528x1 ![0] bcast_S278528_S278528x1_0 : (⟨S278528, .i32⟩ : BufTy).Contents (Elt F) → (⟨S278528x1, .i32⟩ : BufTy).Contents (Elt F)),
    binary main_v33 main_v39 main_v40 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v40 main_v24 main_v41 (mulf : (⟨S278528, .f32⟩ : BufTy).Contents (Elt F) → (⟨S278528, .f32⟩ : BufTy).Contents (Elt F) → (⟨S278528, .f32⟩ : BufTy).Contents (Elt F)),
    nullary main_c_9 (constantI S_ 32 0#32),
    unary main_c_9 main_v42 (broadcastInDim S278528 ![] bcast_S_S278528 : (⟨S_, .i32⟩ : BufTy).Contents (Elt F) → (⟨S278528, .i32⟩ : BufTy).Contents (Elt F)),
    binary main_v22 main_v42 main_v43 (cmpi .slt : (⟨S278528, .i32⟩ : BufTy).Contents (Elt F) → (⟨S278528, .i32⟩ : BufTy).Contents (Elt F) → (⟨S278528, .i1⟩ : BufTy).Contents (Elt F)),
    nullary main_c_10 (constantI S_ 32 16384#32),
    unary main_c_10 main_v44 (broadcastInDim S278528 ![] bcast_S_S278528 : (⟨S_, .i32⟩ : BufTy).Contents (Elt F) → (⟨S278528, .i32⟩ : BufTy).Contents (Elt F)),
    binary main_v22 main_v44 main_v45 (addi : (⟨S278528, .i32⟩ : BufTy).Contents (Elt F) → (⟨S278528, .i32⟩ : BufTy).Contents (Elt F) → (⟨S278528, .i32⟩ : BufTy).Contents (Elt F)),
    ternary main_v43 main_v45 main_v22 main_v46 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v46 main_v47 (broadcastInDim S278528x1 ![0] bcast_S278528_S278528x1_0 : (⟨S278528, .i32⟩ : BufTy).Contents (Elt F) → (⟨S278528x1, .i32⟩ : BufTy).Contents (Elt F)),
    binary main_v33 main_v47 main_v48 ((fun x i => Host.gather gather_S16384_S278528x1_S278528_n_0_n_n_0_1_1 x i) : (⟨S16384, .f32⟩ : BufTy).Contents (Elt F) → (⟨S278528x1, .i32⟩ : BufTy).Contents (Elt F) → (⟨S278528, .f32⟩ : BufTy).Contents (Elt F)),
    binary main_v41 main_v48 main_v49 (mulf : (⟨S278528, .f32⟩ : BufTy).Contents (Elt F) → (⟨S278528, .f32⟩ : BufTy).Contents (Elt F) → (⟨S278528, .f32⟩ : BufTy).Contents (Elt F)),
    binary main_arg0 main_arg1 main_v50 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    nullary main_c_11 (constantI S_ 32 0#32),
    unary main_c_11 main_v51 (broadcastInDim S278528 ![] bcast_S_S278528 : (⟨S_, .i32⟩ : BufTy).Contents (Elt F) → (⟨S278528, .i32⟩ : BufTy).Contents (Elt F)),
    binary main_v21 main_v51 main_v52 (cmpi .slt : (⟨S278528, .i32⟩ : BufTy).Contents (Elt F) → (⟨S278528, .i32⟩ : BufTy).Contents (Elt F) → (⟨S278528, .i1⟩ : BufTy).Contents (Elt F)),
    nullary main_c_12 (constantI S_ 32 16384#32),
    unary main_c_12 main_v53 (broadcastInDim S278528 ![] bcast_S_S278528 : (⟨S_, .i32⟩ : BufTy).Contents (Elt F) → (⟨S278528, .i32⟩ : BufTy).Contents (Elt F)),
    binary main_v21 main_v53 main_v54 (addi : (⟨S278528, .i32⟩ : BufTy).Contents (Elt F) → (⟨S278528, .i32⟩ : BufTy).Contents (Elt F) → (⟨S278528, .i32⟩ : BufTy).Contents (Elt F)),
    ternary main_v52 main_v54 main_v21 main_v55 (select : (⟨S278528, .i1⟩ : BufTy).Contents (Elt F) → (⟨S278528, .i32⟩ : BufTy).Contents (Elt F) → (⟨S278528, .i32⟩ : BufTy).Contents (Elt F) → (⟨S278528, .i32⟩ : BufTy).Contents (Elt F)),
    unary main_v55 main_v56 (broadcastInDim S278528x1 ![0] bcast_S278528_S278528x1_0 : (⟨S278528, .i32⟩ : BufTy).Contents (Elt F) → (⟨S278528x1, .i32⟩ : BufTy).Contents (Elt F)),
    binary main_v50 main_v56 main_v57 ((fun x i => Host.gather gather_S16384x256_S278528x1_S278528x256_1_0_n_n_0_1_1256 x i) : (⟨S16384x256, .f32⟩ : BufTy).Contents (Elt F) → (⟨S278528x1, .i32⟩ : BufTy).Contents (Elt F) → (⟨S278528x256, .f32⟩ : BufTy).Contents (Elt F)),
    unary main_v49 main_v58 (broadcastInDim S278528x1 ![0] bcast_S278528_S278528x1_0 : (⟨S278528, .f32⟩ : BufTy).Contents (Elt F) → (⟨S278528x1, .f32⟩ : BufTy).Contents (Elt F)),
    unary main_v58 main_v59 (broadcastInDim S278528x256 ![0, 1] bcast_S278528x1_S278528x256_0_1 : (⟨S278528x1, .f32⟩ : BufTy).Contents (Elt F) → (⟨S278528x256, .f32⟩ : BufTy).Contents (Elt F)),
    binary main_v57 main_v59 main_v60 (mulf : (⟨S278528x256, .f32⟩ : BufTy).Contents (Elt F) → (⟨S278528x256, .f32⟩ : BufTy).Contents (Elt F) → (⟨S278528x256, .f32⟩ : BufTy).Contents (Elt F)),
    nullary main_cst_13 (constant S_ .f32 0x00000000#32),
    unary main_cst_13 main_v61 (broadcastInDim S16384x256 ![] bcast_S_S16384x256 : (⟨S_, .f32⟩ : BufTy).Contents (Elt F) → (⟨S16384x256, .f32⟩ : BufTy).Contents (Elt F)),
    unary main_v22 main_v62 (broadcastInDim S278528x1 ![0] bcast_S278528_S278528x1_0 : (⟨S278528, .i32⟩ : BufTy).Contents (Elt F) → (⟨S278528x1, .i32⟩ : BufTy).Contents (Elt F)),
    ternary main_v61 main_v62 main_v60 main_v63 ((fun x i u => Host.scatterAdd scatter_S16384x256_S278528x1_S278528x256_1_0_0_1 x i u) : (⟨S16384x256, .f32⟩ : BufTy).Contents (Elt F) → (⟨S278528x1, .i32⟩ : BufTy).Contents (Elt F) → (⟨S278528x256, .f32⟩ : BufTy).Contents (Elt F) → (⟨S16384x256, .f32⟩ : BufTy).Contents (Elt F)),
    unary main_arg2 main_v64 (broadcastInDim S1x256 ![1] bcast_S256_S1x256_1 : (⟨S256, .f32⟩ : BufTy).Contents (Elt F) → (⟨S1x256, .f32⟩ : BufTy).Contents (Elt F)),
    unary main_v64 main_v65 (broadcastInDim S16384x256 ![0, 1] bcast_S1x256_S16384x256_0_1 : (⟨S1x256, .f32⟩ : BufTy).Contents (Elt F) → (⟨S16384x256, .f32⟩ : BufTy).Contents (Elt F)),
    binary main_v63 main_v65 main_v66 (addf : (⟨S16384x256, .f32⟩ : BufTy).Contents (Elt F) → (⟨S16384x256, .f32⟩ : BufTy).Contents (Elt F) → (⟨S16384x256, .f32⟩ : BufTy).Contents (Elt F)) ]

set_option maxRecDepth 8192 in
/-- The program's operations are the two parts in order. -/
theorem ops_split : (ops : List (HloOp τ sig (Elt F))) = opsA ++ opsB := rfl

/-- The contents after two lines run one after the other. -/
theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

/-! ## The first part: the three concatenated arrays -/

/-- The edge sources followed by the self loops' (row 0 of the edge list, then 0 … 16383). -/
def cat21 (m : (ℓ : Loc nD τ sig) → Buf (Elt F) ℓ) (c : Dev nD) : (⟨S278528, .i32⟩ : BufTy).Contents (Elt F) :=
  (concatenate S278528 0 [⟨S262144, (shapeCast _ (extractStridedSlice S1x262144 ![0, 0] (m ((c.tc : Thread nD τ).loc main_arg3)) slices_S2x262144_S1x262144_0_0) shapeCasts_S1x262144_S262144)⟩, ⟨S16384, (iotaInDim S16384 32 0)⟩] concatenates_S262144_S16384_S278528_d0)

/-- The edge destinations followed by the self loops' (row 1 of the edge list, then 0 … 16383). -/
def cat22 (m : (ℓ : Loc nD τ sig) → Buf (Elt F) ℓ) (c : Dev nD) : (⟨S278528, .i32⟩ : BufTy).Contents (Elt F) :=
  (concatenate S278528 0 [⟨S262144, (shapeCast _ (extractStridedSlice S1x262144 ![1, 0] (m ((c.tc : Thread nD τ).loc main_arg3)) slices_S2x262144_S1x262144_1_0) shapeCasts_S1x262144_S262144)⟩, ⟨S16384, (iotaInDim S16384 32 0)⟩] concatenates_S262144_S16384_S278528_d0)

/-- The edge weights (1 where the two ends are in one section, else 0) followed by the self loops' (1). -/
def cat24 (m : (ℓ : Loc nD τ sig) → Buf (Elt F) ℓ) (c : Dev nD) : (⟨S278528, .f32⟩ : BufTy).Contents (Elt F) :=
  (concatenate S278528 0 [⟨S262144, (uitofp (F := F) .f32 (cmpi .eq (Host.gather gather_S16384_S262144x1_S262144_n_0_n_n_0_1_1 (m ((c.tc : Thread nD τ).loc main_arg4)) (broadcastInDim S262144x1 ![0] bcast_S262144_S262144x1_0 (select (cmpi .slt (shapeCast _ (extractStridedSlice S1x262144 ![0, 0] (m ((c.tc : Thread nD τ).loc main_arg3)) slices_S2x262144_S1x262144_0_0) shapeCasts_S1x262144_S262144) (broadcastInDim S262144 ![] bcast_S_S262144 (constantI S_ 32 0#32))) (addi (shapeCast _ (extractStridedSlice S1x262144 ![0, 0] (m ((c.tc : Thread nD τ).loc main_arg3)) slices_S2x262144_S1x262144_0_0) shapeCasts_S1x262144_S262144) (broadcastInDim S262144 ![] bcast_S_S262144 (constantI S_ 32 16384#32))) (shapeCast _ (extractStridedSlice S1x262144 ![0, 0] (m ((c.tc : Thread nD τ).loc main_arg3)) slices_S2x262144_S1x262144_0_0) shapeCasts_S1x262144_S262144)))) (Host.gather gather_S16384_S262144x1_S262144_n_0_n_n_0_1_1 (m ((c.tc : Thread nD τ).loc main_arg4)) (broadcastInDim S262144x1 ![0] bcast_S262144_S262144x1_0 (select (cmpi .slt (shapeCast _ (extractStridedSlice S1x262144 ![1, 0] (m ((c.tc : Thread nD τ).loc main_arg3)) slices_S2x262144_S1x262144_1_0) shapeCasts_S1x262144_S262144) (broadcastInDim S262144 ![] bcast_S_S262144 (constantI S_ 32 0#32))) (addi (shapeCast _ (extractStridedSlice S1x262144 ![1, 0] (m ((c.tc : Thread nD τ).loc main_arg3)) slices_S2x262144_S1x262144_1_0) shapeCasts_S1x262144_S262144) (broadcastInDim S262144 ![] bcast_S_S262144 (constantI S_ 32 16384#32))) (shapeCast _ (extractStridedSlice S1x262144 ![1, 0] (m ((c.tc : Thread nD τ).loc main_arg3)) slices_S2x262144_S1x262144_1_0) shapeCasts_S1x262144_S262144))))))⟩, ⟨S16384, (broadcastInDim S16384 ![] bcast_S_S16384 (constant S_ .f32 0x3F800000#32))⟩] concatenates_S262144_S16384_S278528_d0)

set_option maxRecDepth 8192 in
set_option maxHeartbeats 1000000 in
theorem afterA_v21 (m : (ℓ : Loc nD τ sig) → Buf (Elt F) ℓ) (c : Dev nD) :
    after opsA (launchContents m c) (Proc.devRef .tc main_v21) = cat21 m c := by
  after_results <;> rfl

set_option maxRecDepth 8192 in
set_option maxHeartbeats 1000000 in
theorem afterA_v22 (m : (ℓ : Loc nD τ sig) → Buf (Elt F) ℓ) (c : Dev nD) :
    after opsA (launchContents m c) (Proc.devRef .tc main_v22) = cat22 m c := by
  after_results <;> rfl

set_option maxRecDepth 8192 in
set_option maxHeartbeats 1000000 in
theorem afterA_v24 (m : (ℓ : Loc nD τ sig) → Buf (Elt F) ℓ) (c : Dev nD) :
    after opsA (launchContents m c) (Proc.devRef .tc main_v24) = cat24 m c := by
  after_results <;> rfl

set_option maxRecDepth 8192 in
set_option maxHeartbeats 1000000 in
/-- The first part writes none of the three arguments the second part reads. -/
theorem afterA_args (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2) := by
  refine ⟨?_, ?_, ?_⟩ <;> after_results_simp

/-! ## The second part: the result as a function of the three arrays and three arguments -/

/-- The result from x (`a0`), W (`a1`), b (`a2`) and the concatenated sources, destinations and weights. -/
def resB (a0 : (⟨S16384x256, .f32⟩ : BufTy).Contents (Elt F)) (a1 : (⟨S256x256, .f32⟩ : BufTy).Contents (Elt F)) (a2 : (⟨S256, .f32⟩ : BufTy).Contents (Elt F))
    (v21 v22 : (⟨S278528, .i32⟩ : BufTy).Contents (Elt F)) (v24 : (⟨S278528, .f32⟩ : BufTy).Contents (Elt F)) : (⟨S16384x256, .f32⟩ : BufTy).Contents (Elt F) :=
  addf (Host.scatterAdd scatter_S16384x256_S278528x1_S278528x256_1_0_0_1 (broadcastInDim S16384x256 ![] bcast_S_S16384x256 (constant S_ .f32 0x00000000#32)) (broadcastInDim S278528x1 ![0] bcast_S278528_S278528x1_0 v22) (mulf (Host.gather gather_S16384x256_S278528x1_S278528x256_1_0_n_n_0_1_1256 (Host.dotGeneral dot_S16384x256_S256x256_S16384x256_1_0_0_1_n_n none a0 a1) (broadcastInDim S278528x1 ![0] bcast_S278528_S278528x1_0 (select (cmpi .slt v21 (broadcastInDim S278528 ![] bcast_S_S278528 (constantI S_ 32 0#32))) (addi v21 (broadcastInDim S278528 ![] bcast_S_S278528 (constantI S_ 32 16384#32))) v21))) (broadcastInDim S278528x256 ![0, 1] bcast_S278528x1_S278528x256_0_1 (broadcastInDim S278528x1 ![0] bcast_S278528_S278528x1_0 (mulf (mulf (Host.gather gather_S16384_S278528x1_S278528_n_0_n_n_0_1_1 (select (cmpf (F := F) .ogt (Host.scatterAdd scatter_S16384_S278528x1_S278528_n_0_0_1 (broadcastInDim S16384 ![] bcast_S_S16384 (constant S_ .f32 0x00000000#32)) (broadcastInDim S278528x1 ![0] bcast_S278528_S278528x1_0 v22) v24) (broadcastInDim S16384 ![] bcast_S_S16384 (constant S_ .f32 0x00000000#32))) (Host.rsqrt (maximumf (Host.scatterAdd scatter_S16384_S278528x1_S278528_n_0_0_1 (broadcastInDim S16384 ![] bcast_S_S16384 (constant S_ .f32 0x00000000#32)) (broadcastInDim S278528x1 ![0] bcast_S278528_S278528x1_0 v22) v24) (broadcastInDim S16384 ![] bcast_S_S16384 (constant S_ .f32 0x2B8CBCCC#32)))) (broadcastInDim S16384 ![] bcast_S_S16384 (id (constant S_ .f32 0x00000000#32)))) (broadcastInDim S278528x1 ![0] bcast_S278528_S278528x1_0 (select (cmpi .slt v21 (broadcastInDim S278528 ![] bcast_S_S278528 (constantI S_ 32 0#32))) (addi v21 (broadcastInDim S278528 ![] bcast_S_S278528 (constantI S_ 32 16384#32))) v21))) v24) (Host.gather gather_S16384_S278528x1_S278528_n_0_n_n_0_1_1 (select (cmpf (F := F) .ogt (Host.scatterAdd scatter_S16384_S278528x1_S278528_n_0_0_1 (broadcastInDim S16384 ![] bcast_S_S16384 (constant S_ .f32 0x00000000#32)) (broadcastInDim S278528x1 ![0] bcast_S278528_S278528x1_0 v22) v24) (broadcastInDim S16384 ![] bcast_S_S16384 (constant S_ .f32 0x00000000#32))) (Host.rsqrt (maximumf (Host.scatterAdd scatter_S16384_S278528x1_S278528_n_0_0_1 (broadcastInDim S16384 ![] bcast_S_S16384 (constant S_ .f32 0x00000000#32)) (broadcastInDim S278528x1 ![0] bcast_S278528_S278528x1_0 v22) v24) (broadcastInDim S16384 ![] bcast_S_S16384 (constant S_ .f32 0x2B8CBCCC#32)))) (broadcastInDim S16384 ![] bcast_S_S16384 (id (constant S_ .f32 0x00000000#32)))) (broadcastInDim S278528x1 ![0] bcast_S278528_S278528x1_0 (select (cmpi .slt v22 (broadcastInDim S278528 ![] bcast_S_S278528 (constantI S_ 32 0#32))) (addi v22 (broadcastInDim S278528 ![] bcast_S_S278528 (constantI S_ 32 16384#32))) v22)))))))) (broadcastInDim S16384x256 ![0, 1] bcast_S1x256_S16384x256_0_1 (broadcastInDim S1x256 ![1] bcast_S256_S1x256_1 a2))

set_option maxRecDepth 8192 in
set_option maxHeartbeats 1000000 in
theorem afterB (W : Valuation τ sig (Elt F)) :
    after opsB W (Proc.devRef .tc main_v66)
      = resB (W (Proc.devRef .tc main_arg0)) (W (Proc.devRef .tc main_arg1)) (W (Proc.devRef .tc main_arg2))
          (W (Proc.devRef .tc main_v21)) (W (Proc.devRef .tc main_v22)) (W (Proc.devRef .tc main_v24)) := by
  after_results_simp <;> rfl

/-! ## The two parts joined -/

set_option maxRecDepth 8192 in
set_option maxHeartbeats 1000000 in
theorem res_eq (m : (ℓ : Loc nD τ sig) → Buf (Elt F) ℓ) (c : Dev nD) :
    after ops (launchContents m c) (Proc.devRef .tc main_v66) = res_main_v66 m c := by
  obtain ⟨e0, e1, e2⟩ := afterA_args (F := F) (launchContents m c)
  rw [ops_split, after_split, afterB, afterA_v21, afterA_v22, afterA_v24, e0, e1, e2]
  rfl

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = res_main_v66 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v66).trans (res_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.ValueP

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.RefValue.lean ====
/-
  The reference's result, entry by entry, in the edge arrangement.

  Read from its last operation backwards, entry (d, j) of the reference's result is the bias b j plus entry (d, j) of a
  scatter-add into zeros; the scatter-add sends row e of its updates to the row that edge e's target names, so its entry
  (d, j) is the sum, over the edges e whose target is d, of the updates' entry (e, j); that entry is edge e's weight times
  entry (src e, j) of the feature product x · W, the row src e being the one a gather of whole rows reads at edge e's
  source (brought into range, which changes nothing on the domain). Entry (s, j) of x · W is the sum over k of
  x (s, k) · W (k, j). Together: the edge arrangement of Spec/EdgeLaw.

  The first part is general: a scatter-add of whole rows read at an entry. The second part reads the reference's
  operations with it.
-/
import proofs.«402047_j59931973649025_1_alg».proof.Proof.ChainFacts
import proofs.«402047_j59931973649025_1_alg».proof.Proof.Spec.EdgeLaw
import proofs.«402047_j59931973649025_1_alg».proof.Proof.LibScatterIdx
import proofs.«402047_j59931973649025_1_alg».proof.Proof.LibRowGather
import Idealize.ShloMosaic.Lib.ValueIdx
import Idealize.ShloMosaic.Lib.Pipeline.Value
import Idealize.ShloMosaic.PureOps.Ideal.Laws

noncomputable section

open scoped BigOperators

namespace Cert.ReferenceIdeal.HandValue

open Cert.ReferenceIdeal Cert.ReferenceIdeal.Gen Cert.ReferenceIdeal.ReadP Idealize.ShloMosaic Idealize.ShloMosaic.ValueIdx

/-! ## A scatter-add of whole rows, read at an entry -/

section RowScatter

/-- The dimension numbers of a scatter of whole rows: updates [M, D] go to the rows of an operand [N, D] that a column
    [M, 1] of row indices names (update window axis 1, inserted window axis 0, scatter axis to operand axis 0, index
    vector axis 1). -/
abbrev rowScatter (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the row axis the window starts at the row index the update's row names, read signed. -/
theorem start0 (idx : IVec ⟨2, ![M, 1]⟩ w) (e : Fin M) (j' : Fin D) :
    (rowScatter N D M wf).start (ix2 e j') idx (0 : Fin 2) = (idx (ix2 e (0 : Fin 1))).toInt := by
  unfold ScatterDims.start
  rw [dif_pos (show (0 : Fin 2) ∈ (rowScatter N D M wf).scatterDimsToOperandDims from List.mem_singleton.mpr rfl)]
  have hsi : (rowScatter N D M wf).siIdx (ix2 e j') ⟨List.idxOf (0 : Fin 2) (rowScatter N D M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem start1 (idx : IVec ⟨2, ![M, 1]⟩ w) (e : Fin M) (j' : Fin D) :
    (rowScatter N D M wf).start (ix2 e j') idx (1 : Fin 2) = 0 := by
  unfold ScatterDims.start
  rw [dif_neg (show (1 : Fin 2) ∉ (rowScatter N D M wf).scatterDimsToOperandDims from
    fun h => Nat.one_ne_zero (congrArg Fin.val (List.mem_singleton.mp h)))]

/-- The row axis is inserted: no window coordinate. -/
theorem window0 (e : Fin M) (j' : Fin D) : (rowScatter N D M wf).window (ix2 e j') (0 : Fin 2) = 0 := by
  unfold ScatterDims.window
  rw [dif_neg (show (0 : Fin 2) ∉ (rowScatter N D M wf).sKept from
    fun h => (of_decide_eq_true (List.mem_filter.1 h).2) (List.mem_singleton.mpr rfl))]

/-- The column axis carries the update's own column. -/
theorem window1 (e : Fin M) (j' : Fin D) : (rowScatter N D M wf).window (ix2 e j') (1 : Fin 2) = j'.val := by
  unfold ScatterDims.window
  rw [dif_pos (show (1 : Fin 2) ∈ (rowScatter N D M wf).sKept from
    List.mem_filter.2 ⟨List.mem_finRange _, decide_eq_true (fun h : (1 : Fin 2) ∈ [(0 : Fin 2)] =>
      Nat.one_ne_zero (congrArg Fin.val (List.mem_singleton.mp h)))⟩)]
  rfl

/-- Update (e, j') lands on (d, j) exactly when row e's index names d and j' = j. -/
theorem lands_iff (idx : IVec ⟨2, ![M, 1]⟩ w) (e : Fin M) (j' : Fin D) (d : Fin N) (j : Fin D) :
    (rowScatter N D M wf).resultIdx? (ix2 e j') idx = some (ix2 d j)
      ↔ (idx (ix2 e (0 : Fin 1))).toInt = (d.val : Int) ∧ j' = j := by
  rw [Cert.Lib.ScatterIdx.resultIdx?_eq_some_iff]
  constructor
  · intro h
    have h0 : (rowScatter N D M wf).start (ix2 e j') idx (0 : Fin 2) + ((rowScatter N D M wf).window (ix2 e j') (0 : Fin 2) : Int)
        = (d.val : Int) := h 0
    have h1 : (rowScatter N D M wf).start (ix2 e j') idx (1 : Fin 2) + ((rowScatter N D M wf).window (ix2 e j') (1 : Fin 2) : Int)
        = (j.val : Int) := h 1
    rw [start0, window0] at h0
    rw [start1, window1] at h1
    refine ⟨by omega, Fin.ext (by omega)⟩
  · rintro ⟨h0, rfl⟩ a
    match a with
    | ⟨0, _⟩ =>
      show (rowScatter N D M wf).start (ix2 e j') idx (0 : Fin 2) + ((rowScatter N D M wf).window (ix2 e j') (0 : Fin 2) : Int)
        = (d.val : Int)
      rw [start0, window0]; omega
    | ⟨1, _⟩ =>
      show (rowScatter N D M wf).start (ix2 e j') idx (1 : Fin 2) + ((rowScatter N D M wf).window (ix2 e j') (1 : Fin 2) : Int)
        = (j'.val : Int)
      rw [start1, window1]; omega

/-- THE SCATTER-ADD READ AT (d, j): the operand there plus the updates' column j over the rows whose index names d. -/
theorem rowScatterAdd_apply (x : (⟨2, ![N, D]⟩ : Shape).Idx → EReal) (idx : IVec ⟨2, ![M, 1]⟩ w)
    (upd : (⟨2, ![M, D]⟩ : Shape).Idx → EReal) (d : Fin N) (j : Fin D) :
    Ideal.hostScatterAdd (rowScatter N D M wf) x idx upd (ix2 d j)
      = x (ix2 d j) + ∑ e ∈ Finset.univ.filter (fun e : Fin M => (idx (ix2 e (0 : Fin 1))).toInt = (d.val : Int)),
          upd (ix2 e j) := by
  unfold Ideal.hostScatterAdd
  refine congrArg (x (ix2 d j) + ·) ?_
  rw [Finset.sum_filter, sum_idx2, Finset.sum_filter]
  refine Finset.sum_congr rfl fun e _ => ?_
  by_cases hA : (idx (ix2 e (0 : Fin 1))).toInt = (d.val : Int)
  · rw [if_pos hA, Finset.sum_eq_single j]
    · rw [if_pos ((lands_iff wf idx e j d j).mpr ⟨hA, rfl⟩)]
    · intro j' _ hne
      rw [if_neg (fun h => hne ((lands_iff wf idx e j' d j).mp h).2)]
    · intro h; exact absurd (Finset.mem_univ _) h
  · rw [if_neg hA]
    refine Finset.sum_eq_zero fun j' _ => ?_
    rw [if_neg (fun h => hA ((lands_iff wf idx e j' d j).mp h).1)]

end RowScatter

/-! ## The reference's operations, from the feature product to the result -/

section Reference

variable (x0 : (⟨S16384x256, .f32⟩ : BufTy).Contents (Elt Ideal)) (x1 : (⟨S256x256, .f32⟩ : BufTy).Contents (Elt Ideal))
  (x2 : (⟨S256, .f32⟩ : BufTy).Contents (Elt Ideal)) (x3 : Cert.Chain.EI) (x4 : Cert.Chain.SEC)

/-- Entry (s, j) of the feature product: row s of x against column j of W. -/
theorem v50_apply (s : Fin 16384) (j : Fin 256) :
    val_main_v50 (F := Ideal) x0 x1 (ix2 s j)
      = Cert.Spec.hmat (fun s k => x0 (ix2 s k)) (fun k j => x1 (ix2 k j)) s j := by
  rw [val_main_v50_apply]
  unfold Cert.Spec.hmat
  refine Finset.sum_congr rfl fun k _ => ?_
  have hl : lidx_main_v50 (ix2 s j) k = ix2 s k := by
    funext a
    match a with
    | ⟨0, _⟩ => rfl
    | ⟨1, _⟩ => rfl
  have hr : ridx_main_v50 (ix2 s j) k = ix2 k j := by
    funext a
    match a with
    | ⟨0, _⟩ => rfl
    | ⟨1, _⟩ => rfl
  rw [hl, hr]

/-- The column of row indices the gather reads, at edge e: edge e's source. -/
theorem v56_apply (hr : Cert.Spec.InRange x3) (e : Fin 278528) :
    val_main_v56 (F := Ideal) x3 (ix2 e (0 : Fin 1)) = val_main_v21 (F := Ideal) x3 (ix1 e) := by
  rw [val_main_v56_apply, Cert.Chain.v55_eq x3 hr]
  refine congrArg (val_main_v21 (F := Ideal) x3) ?_
  funext a
  match a with
  | ⟨0, _⟩ => rfl

/-- Row e of the gathered features is row src e of the feature product. -/
theorem v57_apply (hr : Cert.Spec.InRange x3) (e : Fin 278528) (j : Fin 256) :
    val_main_v57 (F := Ideal) x0 x1 x3 (ix2 e j) = val_main_v50 (F := Ideal) x0 x1 (ix2 (Cert.Chain.srcF x3 e) j) := by
  unfold val_main_v57
  refine (Cert.LibRowGather.gather_rows_apply (N := 16384) (D := 256) (M := 278528) (by decide)
    Facts₀.gather_S16384x256_S278528x1_S278528x256_1_0_n_n_0_1_1256_wf
    (val_main_v50 (F := Ideal) x0 x1) (val_main_v56 (F := Ideal) x3) e j).trans ?_
  refine congrArg (fun r => val_main_v50 (F := Ideal) x0 x1 (ix2 r j)) (Fin.ext ?_)
  show min (val_main_v56 (F := Ideal) x3 (ix2 e (0 : Fin 1))).toInt.toNat (16384 - 1)
    = min (val_main_v21 (F := Ideal) x3 (ix1 e)).toInt.toNat 16383
  rw [v56_apply x3 hr e]

/-- Entry (e, j) of the weights spread along the features: edge e's weight. -/
theorem v59_apply (e : Fin 278528) (j : Fin 256) :
    val_main_v59 (F := Ideal) x3 x4 (ix2 e j) = Cert.Chain.nrm x3 x4 e := by
  rw [val_main_v59_apply, val_main_v58_apply]
  unfold Cert.Chain.nrm
  refine congrArg (val_main_v49 (F := Ideal) x3 x4) ?_
  funext a
  match a with
  | ⟨0, _⟩ => rfl

/-- Entry (e, j) of the updates: entry (src e, j) of the feature product times edge e's weight. -/
theorem v60_apply (hr : Cert.Spec.InRange x3) (e : Fin 278528) (j : Fin 256) :
    val_main_v60 (F := Ideal) x0 x1 x3 x4 (ix2 e j)
      = Cert.Spec.hmat (fun s k => x0 (ix2 s k)) (fun k j => x1 (ix2 k j)) (Cert.Chain.srcF x3 e) j
          * Cert.Chain.nrm x3 x4 e := by
  rw [← v50_apply x0 x1, ← v57_apply x0 x1 x3 hr e j, ← v59_apply x3 x4 e j]
  rfl

/-- Row e of the column of scatter indices names edge e's target. -/
theorem v62_toInt (hr : Cert.Spec.InRange x3) (e : Fin 278528) :
    (val_main_v62 (F := Ideal) x3 (ix2 e (0 : Fin 1))).toInt = ((Cert.Chain.dstF x3 e).val : Int) := by
  rw [val_main_v62_apply, ← Cert.Chain.v22_toInt x3 hr e]
  refine congrArg (fun i => (val_main_v22 (F := Ideal) x3 i).toInt) ?_
  funext a
  match a with
  | ⟨0, _⟩ => rfl

/-- The operand of the scatter-add is zero everywhere. -/
theorem v61_apply (i : S16384x256.Idx) : val_main_v61 (F := Ideal) i = 0 := by
  rw [val_main_v61_apply, val_main_cst_13_apply, Ideal.ofBits_def, Ideal.ofBits_zero_f32]

/-- Entry (d, j) of the scatter-add: the updates' column j summed over the edges whose target is d. -/
theorem v63_apply (hr : Cert.Spec.InRange x3) (d : Fin 16384) (j : Fin 256) :
    val_main_v63 (F := Ideal) x0 x1 x3 x4 (ix2 d j)
      = ∑ e ∈ Finset.univ.filter (fun e : Fin 278528 => Cert.Chain.dstF x3 e = d),
          val_main_v60 (F := Ideal) x0 x1 x3 x4 (ix2 e j) := by
  unfold val_main_v63 Host.scatterAdd
  rw [Ideal.hostScatterAdd_def]
  refine (rowScatterAdd_apply (N := 16384) (D := 256) (M := 278528)
    Facts₀.scatter_S16384x256_S278528x1_S278528x256_1_0_0_1_wf
    (val_main_v61 (F := Ideal)) (val_main_v62 (F := Ideal) x3) (val_main_v60 (F := Ideal) x0 x1 x3 x4) d j).trans ?_
  rw [v61_apply, zero_add]
  refine Finset.sum_congr (Finset.filter_congr fun e _ => ?_) fun _ _ => rfl
  rw [v62_toInt x3 hr e]
  constructor
  · intro h; exact Fin.ext (by omega)
  · intro h; rw [h]

/-- Entry (d, j) of the bias spread along the rows: b j. -/
theorem v65_apply (d : Fin 16384) (j : Fin 256) : val_main_v65 (F := Ideal) x2 (ix2 d j) = x2 (ix1 j) := by
  rw [val_main_v65_apply, val_main_v64_apply]
  refine congrArg x2 ?_
  funext a
  match a with
  | ⟨0, _⟩ => rfl

/-- THE REFERENCE'S RESULT AT (d, j), on the domain: the edge arrangement over the feature product x · W, the edge
    weights, the edges' targets and sources, and the bias. -/
theorem ref_apply (hr : Cert.Spec.InRange x3) (d : Fin 16384) (j : Fin 256) :
    val_main_v66 (F := Ideal) x0 x1 x2 x3 x4 (ix2 d j)
      = Cert.Spec.edgeForm (Cert.Spec.hmat (fun s k => x0 (ix2 s k)) (fun k j => x1 (ix2 k j))) (Cert.Chain.nrm x3 x4)
          (Cert.Chain.dstF x3) (Cert.Chain.srcF x3) (fun j => x2 (ix1 j)) d j := by
  rw [val_main_v66_apply]
  show val_main_v63 (F := Ideal) x0 x1 x3 x4 (ix2 d j) + val_main_v65 (F := Ideal) x2 (ix2 d j) = _
  rw [v63_apply x0 x1 x3 x4 hr d j, v65_apply x2 d j]
  unfold Cert.Spec.edgeForm
  refine congrArg (· + x2 (ix1 j)) ?_
  exact Finset.sum_congr rfl fun e _ => v60_apply x0 x1 x3 x4 hr e j

end Reference

/-! ## The same about the term the reference's run leaves in its result -/

section Run

open Idealize.ShloMosaic.TcCoe Idealize.SL.Sem Idealize.ShloMosaic.StableHlo

/-- For any launch memory whose edge table is on the domain and any core, the run's result term read at (d, j) is the
    edge arrangement over the launch contents of the five arguments. -/
theorem res_apply (m : (ℓ : Loc nD τ sig) → Buf (Elt Ideal) ℓ) (c : Dev nD)
    (hr : Cert.Spec.InRange (m ((c.tc : Thread nD τ).loc main_arg3))) (d : Fin 16384) (j : Fin 256) :
    (Cert.ReferenceIdeal.ValueP.res_main_v66 (F := Ideal) m c : (⟨S16384x256, .f32⟩ : BufTy).Contents (Elt Ideal)) (ix2 d j)
      = Cert.Spec.edgeForm
          (Cert.Spec.hmat
            (fun s k => (m ((c.tc : Thread nD τ).loc main_arg0) : (⟨S16384x256, .f32⟩ : BufTy).Contents (Elt Ideal)) (ix2 s k))
            (fun k j => (m ((c.tc : Thread nD τ).loc main_arg1) : (⟨S256x256, .f32⟩ : BufTy).Contents (Elt Ideal)) (ix2 k j)))
          (Cert.Chain.nrm (m ((c.tc : Thread nD τ).loc main_arg3)) (m ((c.tc : Thread nD τ).loc main_arg4)))
          (Cert.Chain.dstF (m ((c.tc : Thread nD τ).loc main_arg3)))
          (Cert.Chain.srcF (m ((c.tc : Thread nD τ).loc main_arg3)))
          (fun j => (m ((c.tc : Thread nD τ).loc main_arg2) : (⟨S256, .f32⟩ : BufTy).Contents (Elt Ideal)) (ix1 j)) d j := by
  rw [val_main_v66_eq]
  exact ref_apply _ _ _ _ _ hr d j

end Run

end Cert.ReferenceIdeal.HandValue

end
-- ==== Proof.PreDecode.lean ====
/-
  From the stated domain of the inputs to the range of the edge table.

  The precondition of the statement is a one-bit word computed from the five inputs: the conjunction of "every entry of
  x, of W and of b is finite" with "every entry of the edge table is ≥ 0" and "every entry of the edge table is
  < 16384" (signed comparisons against the constants spread over the table). Here only the last two conjuncts are read:
  when the word is 1, every entry of the [2, 262144] edge table, read as a signed integer, lies in [0, 16384).
-/
import proofs.«402047_j59931973649025_1_alg».proof.Pre_finite_inputs
import proofs.«402047_j59931973649025_1_alg».proof.Proof.Spec.InRange
import Idealize.ShloMosaic.Lib.ReduceAll
import Idealize.ShloMosaic.PureOps.Ideal

namespace Cert.PreDecode

open Idealize.ShloMosaic

/-- The rank-0 shape has exactly one index (there is no axis to give a coordinate on). -/
instance : Subsingleton Cert.Pre_finite_inputs.S_.Idx := ⟨fun a b => funext fun d => d.elim0⟩

/-- The precondition holding says every entry of the edge table is a node index. The precondition is a conjunction of
    five "every element" tests; its last two are "every entry ≥ 0" and "every entry < 16384", both signed. A
    conjunction of one-bit words is 1 only when each is; an "every element" reduction by "and" that is 1 had a 1 at
    every element; and a signed comparison word that is 1 says the order of its operands read as signed integers. The
    compared bounds are the constants 0 and 16384 spread over the table, each reading the constant at every entry. -/
theorem inRange_of_pre [Cert.Pre_finite_inputs.Facts]
    (x : FVec Ideal Cert.Pre_finite_inputs.S16384x256 .f32) (w : FVec Ideal Cert.Pre_finite_inputs.S256x256 .f32)
    (b : FVec Ideal Cert.Pre_finite_inputs.S256 .f32) (ei : IVec Cert.Pre_finite_inputs.S2x262144 32)
    (sec : IVec Cert.Pre_finite_inputs.S16384 32)
    (hp : Cert.Pre_finite_inputs.fn (F := Ideal) x w b ei sec = fun _ => 1#1) : Cert.Spec.InRange ei := by
  -- the claim at the one index of the rank-0 result
  have e := congrFun hp (fun a => a.elim0)
  dsimp only [Cert.Pre_finite_inputs.fn, Cert.Pre_finite_inputs.fn_part1] at e
  -- the outer conjunction: (earlier conjuncts ∧ all (entry ≥ 0)) ∧ all (entry < 16384)
  obtain ⟨e1, hlt⟩ := IntOp.andi_eq_one.1 e
  obtain ⟨-, hge⟩ := IntOp.andi_eq_one.1 e1
  -- each "every element" reduction that is 1 had a 1 at every entry
  have age := Host.reduce_andi_all _ _ _ _ _ hge
  have alt := Host.reduce_andi_all _ _ _ _ _ hlt
  intro k
  -- the comparison words at entry k, against the spread constants read at k
  have g : (0#32 : BitVec 32).toInt ≤ (ei k).toInt := IntOp.cmpi_sge.1 (age k)
  have l : (ei k).toInt < (16384#32 : BitVec 32).toInt := IntOp.cmpi_slt.1 (alt k)
  have z : (0#32 : BitVec 32).toInt = 0 := by decide
  have s : (16384#32 : BitVec 32).toInt = 16384 := by decide
  rw [z] at g
  rw [s] at l
  exact ⟨g, l⟩

end Cert.PreDecode
-- ==== Proof.lean ====
/-
  The certificate of the graph-convolution kernel against its reference, over the extended reals.

  Domain: every float input finite and every entry of the edge table a node index (0 ≤ entry < 16384; outside it the
  reference itself indexes its node arrays out of range).

  Frames. Each kernel program is three stretches of host operations, a pallas_call computing h = x · W block of rows by
  block of rows, one host operation, and a pallas_call accumulating A · h over four blocks of the contracted axis in a
  scratch buffer that it zeroes at the first block and reads out, with the bias added, at the last. Run item by item,
  every execution terminates without a fault and no argument array is written. The reference is host operations only.

  Values. At the ideal instance the kernel's result at (d, j) is row d of the dense adjacency — entry (d, s) the total
  weight of the edges from s into d — against column j of h, plus the bias; the reference's is the sum over the edges
  into d of h at the edge's source times the edge's weight, plus the bias. Weights, targets and sources are computed by
  the same operations in both. Every weight is a product of nonnegative factors, and for nonnegative weights a sum of
  weights times a number is the sum of the products on the extended reals, so the two arrangements agree.

  The ideal pass rewrote nothing, so the kernel's idealization is its own text read at the ideal instance.
-/
import proofs.«402047_j59931973649025_1_alg».proof.Defs
import proofs.«402047_j59931973649025_1_alg».proof.Proof.Gen.Kernel
import proofs.«402047_j59931973649025_1_alg».proof.Proof.Gen.KernelIdeal
import proofs.«402047_j59931973649025_1_alg».proof.Proof.Gen.ReferenceIdeal
import proofs.«402047_j59931973649025_1_alg».proof.Proof.Gen.Pre_finite_inputs
import proofs.«402047_j59931973649025_1_alg».proof.Proof.K.Run
import proofs.«402047_j59931973649025_1_alg».proof.Proof.Bridge
import proofs.«402047_j59931973649025_1_alg».proof.Proof.RefRunRun
import proofs.«402047_j59931973649025_1_alg».proof.Proof.RefValue
import proofs.«402047_j59931973649025_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The bit-level kernel runs and leaves its arguments as launched. -/
theorem frame_k : Cert.frame_Kernel := fun m ρ _ =>
  (θ_run (Cert.Kernel.defs (F := Bits)) _ _).mono (fun _ h c => (h c).2) (Cert.Kernel.Hand.result (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.result (F := Ideal) m ρ)

/-- And the idealized reference: its run with the result dropped. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

/-- On the domain, from memories agreeing on the arguments, the two idealized programs end with equal results. -/
theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg3)) :=
    fun c => Cert.PreDecode.inRange_of_pre _ _ _ _ _ (hpre c)
  refine ⟨fun c => (Cert.KernelIdeal.Hand.dat1 (F := Ideal) (Cert.KernelIdeal.Hand.V5r m) c).arrAt 3 Cert.KernelIdeal.cfg1.N,
    Cert.KernelIdeal.Hand.result (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  rw [Cert.ReferenceIdeal.ReadP.val_main_v66_eq, (hagree c).1, (hagree c).2.1, (hagree c).2.2.1, (hagree c).2.2.2.1, (hagree c).2.2.2.2]
  funext i
  obtain ⟨d, j, rfl⟩ : ∃ (d : Fin 16384) (j : Fin 256), i = ix2 d j := ⟨i 0, i 1, eq_ix2 i⟩
  rw [Cert.ReferenceIdeal.HandValue.ref_apply _ _ _ _ _ (hr c) d j]
  exact (Cert.Proof.Bridge.kernel_apply m c (hr c) d j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
